-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x256 : Shape := ⟨2, ![256, 256]⟩
abbrev S256x128 : Shape := ⟨2, ![256, 128]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_arg4 : FVec F S256x128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  main_v23

def fn {F : FTy → Type} [FloatOps F] (main_arg0 : FVec F S4096x4096 .f32) (main_arg1 : FVec F S4096x256 .f32) (main_arg2 : FVec F S256x256 .f32) (main_arg3 : FVec F S256x128 .f32) (main_arg4 : FVec F S256x128 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S4096x4096 : Shape := ⟨2, ![4096, 4096]⟩
abbrev S4096x256 : Shape := ⟨2, ![4096, 256]⟩
abbrev S256x256 : Shape := ⟨2, ![256, 256]⟩
abbrev S256x128 : Shape := ⟨2, ![256, 128]⟩
abbrev S4096x128 : Shape := ⟨2, ![4096, 128]⟩
abbrev S128x4096 : Shape := ⟨2, ![128, 4096]⟩
abbrev S512x128 : Shape := ⟨2, ![512, 128]⟩
abbrev S4096 : Shape := ⟨1, ![4096]⟩
abbrev S128 : Shape := ⟨1, ![128]⟩
abbrev S128x1 : Shape := ⟨2, ![128, 1]⟩
abbrev S4096x1 : Shape := ⟨2, ![4096, 1]⟩
abbrev S512x4096 : Shape := ⟨2, ![512, 4096]⟩
abbrev S512x256 : Shape := ⟨2, ![512, 256]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256x128, .f32⟩
  | .hbm, ⟨4, _⟩ => ⟨S256x128, .f32⟩
  | .hbm, ⟨5, _⟩ => ⟨S4096x256, .bf16⟩
  | .hbm, ⟨6, _⟩ => ⟨S256x256, .f32⟩
  | .hbm, ⟨7, _⟩ => ⟨S256x256, .bf16⟩
  | .hbm, ⟨8, _⟩ => ⟨S4096x128, .f32⟩
  | .hbm, ⟨9, _⟩ => ⟨S4096x128, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S4096x256, .bf16⟩
  | .local _ .vmem, ⟨5, _⟩ => ⟨S256x256, .f32⟩
  | .local _ .vmem, ⟨6, _⟩ => ⟨S256x256, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S4096x4096, .bf16⟩
  | .local _ .vmem, ⟨12, _⟩ => ⟨S4096, .f32⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c16_i32 : BitVec 32 := 16#32
  let v3 : BitVec 1 := Scalar.cmpi .slt arg0 c16_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let c2_i32 : BitVec 32 := 2#32
  let arg0 : BitVec 32 := BitVec.ofNat 32 (i 0).val
  let v23 : BitVec 32 := Scalar.muli c2_i32 arg0
  let c128_i32 : BitVec 32 := 128#32
  let v24 : BitVec 32 := Scalar.muli v23 c128_i32
  let v36 : Index := Scalar.indexCast v24
  ![v36.toNat]
def k0_off2 (i : grid0.Coords) : Fin 1 → Nat :=
  let c2_i32_11 : BitVec 32 := 2#32
  let arg0 : BitVec 32 := BitVec.ofNat 32 (i 0).val
  let v25 : BitVec 32 := Scalar.muli c2_i32_11 arg0
  let c1_i32 : BitVec 32 := 1#32
  let v26 : BitVec 32 := Scalar.addi v25 c1_i32
  let c128_i32_12 : BitVec 32 := 128#32
  let v27 : BitVec 32 := Scalar.muli v26 c128_i32_12
  let v48 : Index := Scalar.indexCast v27
  ![v48.toNat]
def k0_off3 (i : grid0.Coords) : Fin 2 → Nat :=
  let c2_i32 : BitVec 32 := 2#32
  let arg0 : BitVec 32 := BitVec.ofNat 32 (i 0).val
  let v23 : BitVec 32 := Scalar.muli c2_i32 arg0
  let c128_i32 : BitVec 32 := 128#32
  let v24 : BitVec 32 := Scalar.muli v23 c128_i32
  let v53 : Index := Scalar.indexCast v24
  let c0_19 : Index := 0#32
  ![v53.toNat, 0]
def k0_off4 (i : grid0.Coords) : Fin 2 → Nat :=
  let c2_i32_11 : BitVec 32 := 2#32
  let arg0 : BitVec 32 := BitVec.ofNat 32 (i 0).val
  let v25 : BitVec 32 := Scalar.muli c2_i32_11 arg0
  let c1_i32 : BitVec 32 := 1#32
  let v26 : BitVec 32 := Scalar.addi v25 c1_i32
  let c128_i32_12 : BitVec 32 := 128#32
  let v27 : BitVec 32 := Scalar.muli v26 c128_i32_12
  let v58 : Index := Scalar.indexCast v27
  let c0_20 : Index := 0#32
  ![v58.toNat, 0]
def k0_cond4 (i : grid0.Coords) : BitVec 1 :=
  let arg0 : BitVec 32 := BitVec.ofNat 32 (i 0).val
  let c16_i32_3 : BitVec 32 := 16#32
  let v9 : BitVec 1 := Scalar.cmpi .sge arg0 c16_i32_3
  let c24_i32 : BitVec 32 := 24#32
  let v10 : BitVec 1 := Scalar.cmpi .slt arg0 c24_i32
  let v11 : BitVec 1 := Scalar.andi v9 v10
  let v12 : BitVec 32 := Scalar.extui v11
  let c0_i32_4 : BitVec 32 := 0#32
  let v13 : BitVec 1 := Scalar.cmpi .ne v12 c0_i32_4
  v13

def k0_off5 (i : grid0.Coords) : Fin 2 → Nat :=
  let arg0 : BitVec 32 := BitVec.ofNat 32 (i 0).val
  let c16_i32_7 : BitVec 32 := 16#32
  let v17 : BitVec 32 := Scalar.subi arg0 c16_i32_7
  let c512_i32 : BitVec 32 := 512#32
  let v18 : BitVec 32 := Scalar.muli v17 c512_i32
  let v19 : Index := Scalar.indexCast v18
  let c0 : Index := 0#32
  ![v19.toNat, 0]
def k0_off6 (i : grid0.Coords) : Fin 1 → Nat :=
  let arg0 : BitVec 32 := BitVec.ofNat 32 (i 0).val
  let c16_i32_7 : BitVec 32 := 16#32
  let v17 : BitVec 32 := Scalar.subi arg0 c16_i32_7
  let c512_i32 : BitVec 32 := 512#32
  let v18 : BitVec 32 := Scalar.muli v17 c512_i32
  let v23 : Index := Scalar.indexCast v18
  ![v23.toNat]
def k0_off7 (i : grid0.Coords) : Fin 2 → Nat :=
  let arg0 : BitVec 32 := BitVec.ofNat 32 (i 0).val
  let c16_i32_7 : BitVec 32 := 16#32
  let v17 : BitVec 32 := Scalar.subi arg0 c16_i32_7
  let c512_i32 : BitVec 32 := 512#32
  let v18 : BitVec 32 := Scalar.muli v17 c512_i32
  let v37 : Index := Scalar.indexCast v18
  let c0_14 : Index := 0#32
  ![v37.toNat, 0]
def k0_cond5 (i : grid0.Coords) : BitVec 1 :=
  let arg0 : BitVec 32 := BitVec.ofNat 32 (i 0).val
  let c24_i32_5 : BitVec 32 := 24#32
  let v14 : BitVec 1 := Scalar.cmpi .sge arg0 c24_i32_5
  let v15 : BitVec 32 := Scalar.extui v14
  let c0_i32_6 : BitVec 32 := 0#32
  let v16 : BitVec 1 := Scalar.cmpi .ne v15 c0_i32_6
  v16

def k0_off8 (i : grid0.Coords) : Fin 2 → Nat :=
  let arg0 : BitVec 32 := BitVec.ofNat 32 (i 0).val
  let c16_i32_7 : BitVec 32 := 16#32
  let v17 : BitVec 32 := Scalar.subi arg0 c16_i32_7
  let c8_i32 : BitVec 32 := 8#32
  let v18 : BitVec 32 := Scalar.subi v17 c8_i32
  let c512_i32 : BitVec 32 := 512#32
  let v19 : BitVec 32 := Scalar.muli v18 c512_i32
  let v20 : Index := Scalar.indexCast v19
  let c0 : Index := 0#32
  ![v20.toNat, 0]
def k0_off9 (i : grid0.Coords) : Fin 1 → Nat :=
  let arg0 : BitVec 32 := BitVec.ofNat 32 (i 0).val
  let c16_i32_7 : BitVec 32 := 16#32
  let v17 : BitVec 32 := Scalar.subi arg0 c16_i32_7
  let c8_i32 : BitVec 32 := 8#32
  let v18 : BitVec 32 := Scalar.subi v17 c8_i32
  let c512_i32 : BitVec 32 := 512#32
  let v19 : BitVec 32 := Scalar.muli v18 c512_i32
  let v24 : Index := Scalar.indexCast v19
  ![v24.toNat]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.muli c2_i32 v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c2_i32 : BitVec 32 := 2#32
  let v1 : BitVec 32 := Scalar.muli c2_i32 v0
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c8_i32 : BitVec 32 := 8#32
  let v1 : BitVec 32 := Scalar.subi v0 c8_i32
  let c0_i32 : BitVec 32 := 0#32
  let c7_i32 : BitVec 32 := 7#32
  let v2 : BitVec 32 := Scalar.maxsi c0_i32 v1
  let v3 : BitVec 32 := Scalar.minsi c7_i32 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c8_i32 : BitVec 32 := 8#32
  let v1 : BitVec 32 := Scalar.subi v0 c8_i32
  let c0_i32 : BitVec 32 := 0#32
  let c7_i32 : BitVec 32 := 7#32
  let v2 : BitVec 32 := Scalar.maxsi c0_i32 v1
  let v3 : BitVec 32 := Scalar.minsi c7_i32 v2
  let c0_i32_0 : BitVec 32 := 0#32
  let c0_i32_1 : BitVec 32 := 0#32
  ![v3.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  concatenates_S256x128_S256x128_S256x256_d1 : Shape.Concatenates [S256x128, S256x128] S256x256 1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  packedbf16_S4096x256_S4096x256_0_0 : (Rect.unit (s := S4096x256) ![0, 0] S4096x256.size inb_S4096x256_S4096x256_0_0).PackedRows (EltTy.packing .bf16)
  inb_S128x4096_S128x4096_0_0 : ∀ a, (![0, 0] : Fin 2 → Nat) a + S128x4096.size a ≤ S128x4096.size a
  h_S128x4096 : 0 < S128x4096.numel
  reduces_S128x4096_S128 : S128x4096.Reduces [1] S128
  shapeCasts_S128_S128x1 : S128.ShapeCasts S128x1
  shapeCasts_S128x1_S128 : S128x1.ShapeCasts S128
  h_S128 : 0 < S128.numel
  shapeCasts_S128_S128 : S128.ShapeCasts S128
  shapeCasts_S128x4096_S128x4096 : S128x4096.ShapeCasts S128x4096
  inb_S4096_S4096_0 : ∀ a, (![0] : Fin 1 → Nat) a + S4096.size a ≤ S4096.size a
  h_S4096 : 0 < S4096.numel
  shapeCasts_S4096_S4096x1 : S4096.ShapeCasts S4096x1
  broadcasts_S4096x1_S4096x256 : S4096x1.Broadcasts S4096x256
  h_S512x4096 : 0 < S512x4096.numel
  h_S512 : 0 < S512.numel
  shapeCasts_S512_S512x1 : S512.ShapeCasts S512x1
  broadcasts_S512x1_S512x256 : S512x1.Broadcasts S512x256
  shapeCasts_S256x256_S256x256 : S256x256.ShapeCasts S256x256
  h_S512x256 : 0 < S512x256.numel
  shapeCasts_S512x256_S512x256 : S512x256.ShapeCasts S512x256
  slices_S512x256_o0_0_S512x128 : S512x256.Slices ![0, 0] S512x128
  inb_S512x128_S512x128_0_0 : ∀ a, (![0, 0] : Fin 2 → Nat) a + S512x128.size a ≤ S512x128.size a
  h_S512x128 : 0 < S512x128.numel
  slices_S512x256_o0_128_S512x128 : S512x256.Slices ![0, 128] S512x128
  dot_S4096x256_S256x256_S4096x256_1_0_0_1_n_n_wf : DotDims.WF S4096x256 S256x256 S4096x256 [1] [0] [0] [1] [] []
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  k0_off1_inb : ∀ i : grid0.Coords, ∀ (k0_h2 : k0_cond2 i = 1#1), ∀ a, (k0_off1 i) a + S128.size a ≤ S4096.size a
  k0_off2_inb : ∀ i : grid0.Coords, ∀ (k0_h2 : k0_cond2 i = 1#1), ∀ a, (k0_off2 i) a + S128.size a ≤ S4096.size a
  k0_off3_inb : ∀ i : grid0.Coords, ∀ (k0_h2 : k0_cond2 i = 1#1), ∀ a, (k0_off3 i) a + S128x4096.size a ≤ S4096x4096.size a
  k0_off3_packedbf16 : ∀ i : grid0.Coords, ∀ (k0_h2 : k0_cond2 i = 1#1), (Rect.unit (s := S4096x4096) (k0_off3 i) S128x4096.size (k0_off3_inb i k0_h2)).PackedRows (EltTy.packing .bf16)
  k0_off4_inb : ∀ i : grid0.Coords, ∀ (k0_h2 : k0_cond2 i = 1#1), ∀ a, (k0_off4 i) a + S128x4096.size a ≤ S4096x4096.size a
  k0_off4_packedbf16 : ∀ i : grid0.Coords, ∀ (k0_h2 : k0_cond2 i = 1#1), (Rect.unit (s := S4096x4096) (k0_off4 i) S128x4096.size (k0_off4_inb i k0_h2)).PackedRows (EltTy.packing .bf16)
  k0_off5_inb : ∀ i : grid0.Coords, ∀ (k0_h4 : k0_cond4 i = 1#1), ∀ a, (k0_off5 i) a + S512x4096.size a ≤ S4096x4096.size a
  k0_off6_inb : ∀ i : grid0.Coords, ∀ (k0_h4 : k0_cond4 i = 1#1), ∀ a, (k0_off6 i) a + S512.size a ≤ S4096.size a
  k0_off7_inb : ∀ i : grid0.Coords, ∀ (k0_h4 : k0_cond4 i = 1#1), ∀ a, (k0_off7 i) a + S512x256.size a ≤ S4096x256.size a
  k0_off7_packedbf16 : ∀ i : grid0.Coords, ∀ (k0_h4 : k0_cond4 i = 1#1), (Rect.unit (s := S4096x256) (k0_off7 i) S512x256.size (k0_off7_inb i k0_h4)).PackedRows (EltTy.packing .bf16)
  k0_off8_inb : ∀ i : grid0.Coords, ∀ (k0_h5 : k0_cond5 i = 1#1), ∀ a, (k0_off8 i) a + S512x4096.size a ≤ S4096x4096.size a
  k0_off9_inb : ∀ i : grid0.Coords, ∀ (k0_h5 : k0_cond5 i = 1#1), ∀ a, (k0_off9 i) a + S512.size a ≤ S4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .f32 = 32 ∨ (Rect.block (s := S4096x4096) S128x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x256.size a
  hwx0_2 : ∀ i : grid0.Coords, EltTy.bits .bf16 = 32 ∨ (Rect.block (s := S4096x256) S4096x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S4096x128.size a
  hwx0_6 : ∀ i : grid0.Coords, EltTy.bits .f32 = 32 ∨ (Rect.block (s := S4096x128) S512x128.size (cc0_transform_6 i) (hinb0_6 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond5 i == 1#1) | 6 => fun i => !(k0_cond5 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩
abbrev S256x256 : Shape := ⟨2, ![256, 256]⟩
abbrev S256x128 : Shape := ⟨2, ![256, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x128 : Shape := ⟨2, ![4096, 128]⟩

abbrev nBuf : Space → Nat
  | .hbm => 33
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256x128, .f32⟩
  | .hbm, ⟨4, _⟩ => ⟨S256x128, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .i1⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S_, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096x4096, .f32⟩
  | .hbm, ⟨23, _⟩ => ⟨S4096x4096, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096x256, .f32⟩
  | .hbm, ⟨28, _⟩ => ⟨S4096x256, .f32⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S4096x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_cst : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S4096x4096_S4096x256_S4096x256_1_0_0_1_n_n_wf : DotDims.WF S4096x4096 S4096x256 S4096x256 [1] [0] [0] [1] [] []
  dot_S4096x256_S256x128_S4096x128_1_0_0_1_n_n_wf : DotDims.WF S4096x256 S256x128 S4096x128 [1] [0] [0] [1] [] []
  dot_S4096x4096_S4096x128_S4096x128_1_0_0_1_n_n_wf : DotDims.WF S4096x4096 S4096x128 S4096x128 [1] [0] [0] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.Spec.lean ====
import proofs.«107370_g89885075570807_cont_sun_c4_768_25_alg».proof.Proof.Gen.KernelIdeal.Launch
import proofs.«107370_g89885075570807_cont_sun_c4_768_25_alg».proof.Proof.Gen.KernelIdeal.Skeleton
import proofs.«107370_g89885075570807_cont_sun_c4_768_25_alg».proof.Proof.Gen.KernelIdeal.Points
import Idealize.ShloMosaic.Lib.ValueIdx

/-!
The closed forms of one GCN forward pass computed in one phased grid of 32 points.

With `A` the adjacency, `X` the features, `W1` the first weight and `WC` the two output weights side by side:
`DV` is the vector `d` with `d i = 1 / sqrt (row sum i)` where that sum is positive and `0` elsewhere, `ABF` the adjacency
itself (re-typed), `XW = X · W1`, `S1 = XW` with row `i` scaled by `d i`,
`S2` row block `b` = `(relu ((ABF rows b · S1) scaled by d) · WC) scaled by d`, and the two results' row block `b` the
left and right halves of `(ABF rows b · S2) scaled by d`.  Points 0..15 fill `ABF` and `DV` 256 rows at a time (point 0
also `XW`, point 15 also `S1`), points 16..23 fill `S2` 512 rows at a time, points 24..31 write the results.
-/

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

/-! ## The branch conditions and the offsets, in closed form over the grid -/

/-- the first branch's condition, as the body computes it: the point is the grid's first -/
abbrev condFirst (i : grid0.Coords) : Prop := (Scalar.cmpi .ne (Scalar.extui (Scalar.cmpi .eq (BitVec.ofNat 32 (i 0).val) 0#32)) 0#32) = 1#1
/-- the third branch's condition, as the body computes it: the point is number 15 -/
abbrev condFifteen (i : grid0.Coords) : Prop := (Scalar.cmpi .ne (Scalar.extui (Scalar.cmpi .eq (BitVec.ofNat 32 (i 0).val) 15#32)) 0#32) = 1#1

theorem hcondFirst : ∀ t : Fin cfg0.N, condFirst (grid0.coords t) ↔ t.val = 0 :=
  (by decide +kernel : ∀ t : Fin grid0.N, condFirst (grid0.coords t) ↔ t.val = 0)
theorem hcondCast : ∀ t : Fin cfg0.N, k0_cond2 (grid0.coords t) = 1#1 ↔ t.val < 16 :=
  (by decide +kernel : ∀ t : Fin grid0.N, k0_cond2 (grid0.coords t) = 1#1 ↔ t.val < 16)
theorem hcondFifteen : ∀ t : Fin cfg0.N, condFifteen (grid0.coords t) ↔ t.val = 15 :=
  (by decide +kernel : ∀ t : Fin grid0.N, condFifteen (grid0.coords t) ↔ t.val = 15)
theorem hcondMid : ∀ t : Fin cfg0.N, k0_cond4 (grid0.coords t) = 1#1 ↔ (16 ≤ t.val ∧ t.val < 24) :=
  (by decide +kernel : ∀ t : Fin grid0.N, k0_cond4 (grid0.coords t) = 1#1 ↔ (16 ≤ t.val ∧ t.val < 24))
theorem hcondOut : ∀ t : Fin cfg0.N, k0_cond5 (grid0.coords t) = 1#1 ↔ 24 ≤ t.val :=
  (by decide +kernel : ∀ t : Fin grid0.N, k0_cond5 (grid0.coords t) = 1#1 ↔ 24 ≤ t.val)

theorem off1_eq : ∀ t : Fin cfg0.N, t.val < 16 → k0_off1 (grid0.coords t) = ![256 * t.val] :=
  (by decide +kernel : ∀ t : Fin grid0.N, t.val < 16 → k0_off1 (grid0.coords t) = ![256 * t.val])
theorem off2_eq : ∀ t : Fin cfg0.N, t.val < 16 → k0_off2 (grid0.coords t) = ![256 * t.val + 128] :=
  (by decide +kernel : ∀ t : Fin grid0.N, t.val < 16 → k0_off2 (grid0.coords t) = ![256 * t.val + 128])
theorem off3_eq : ∀ t : Fin cfg0.N, t.val < 16 → k0_off3 (grid0.coords t) = ![256 * t.val, 0] :=
  (by decide +kernel : ∀ t : Fin grid0.N, t.val < 16 → k0_off3 (grid0.coords t) = ![256 * t.val, 0])
theorem off4_eq : ∀ t : Fin cfg0.N, t.val < 16 → k0_off4 (grid0.coords t) = ![256 * t.val + 128, 0] :=
  (by decide +kernel : ∀ t : Fin grid0.N, t.val < 16 → k0_off4 (grid0.coords t) = ![256 * t.val + 128, 0])
theorem off5_eq : ∀ t : Fin cfg0.N, 16 ≤ t.val → t.val < 24 → k0_off5 (grid0.coords t) = ![512 * (t.val - 16), 0] :=
  (by decide +kernel : ∀ t : Fin grid0.N, 16 ≤ t.val → t.val < 24 → k0_off5 (grid0.coords t) = ![512 * (t.val - 16), 0])
theorem off6_eq : ∀ t : Fin cfg0.N, 16 ≤ t.val → t.val < 24 → k0_off6 (grid0.coords t) = ![512 * (t.val - 16)] :=
  (by decide +kernel : ∀ t : Fin grid0.N, 16 ≤ t.val → t.val < 24 → k0_off6 (grid0.coords t) = ![512 * (t.val - 16)])
theorem off7_eq : ∀ t : Fin cfg0.N, 16 ≤ t.val → t.val < 24 → k0_off7 (grid0.coords t) = ![512 * (t.val - 16), 0] :=
  (by decide +kernel : ∀ t : Fin grid0.N, 16 ≤ t.val → t.val < 24 → k0_off7 (grid0.coords t) = ![512 * (t.val - 16), 0])
theorem off8_eq : ∀ t : Fin cfg0.N, 24 ≤ t.val → k0_off8 (grid0.coords t) = ![512 * (t.val - 24), 0] :=
  (by decide +kernel : ∀ t : Fin grid0.N, 24 ≤ t.val → k0_off8 (grid0.coords t) = ![512 * (t.val - 24), 0])
theorem off9_eq : ∀ t : Fin cfg0.N, 24 ≤ t.val → k0_off9 (grid0.coords t) = ![512 * (t.val - 24)] :=
  (by decide +kernel : ∀ t : Fin grid0.N, 24 ≤ t.val → k0_off9 (grid0.coords t) = ![512 * (t.val - 24)])

/-! ## Row blocks -/

/-- rows `[o, o + M)` of a matrix with `n` rows (row numbers taken modulo `n`, so that the function is total) -/
def rowsAt {α : Type} {n k : ℕ} (hn : 0 < n) (M : ℕ) (Y : (⟨2, ![n, k]⟩ : Shape).Idx → α) (o : ℕ) : (⟨2, ![M, k]⟩ : Shape).Idx → α :=
  fun y => Y (ix2 ⟨(o + (y 0).val) % n, Nat.mod_lt _ hn⟩ (y 1))

/-- entries `[o, o + M)` of a vector with `n` entries (numbers taken modulo `n`) -/
def sliceAt {α : Type} {n : ℕ} (hn : 0 < n) (M : ℕ) (Y : (⟨1, ![n]⟩ : Shape).Idx → α) (o : ℕ) : (⟨1, ![M]⟩ : Shape).Idx → α :=
  fun y => Y (ix1 ⟨(o + (y 0).val) % n, Nat.mod_lt _ hn⟩)

/-! ## The closed forms -/

section Closed
variable (A : Vec F S4096x4096 .f32) (X : Vec F S4096x256 .bf16) (W1 : Vec F S256x256 .f32) (WC : Vec F S256x256 .bf16)

/-- the adjacency's 128-row block number `b` -/
def ablk (b : ℕ) : Vec F S128x4096 .f32 := rowsAt (by norm_num) 128 A (128 * b)

/-- the features times the first weight -/
def XW : Vec F S4096x256 .bf16 := k0_pay1 X W1

/-- the scaling vector, 128 entries at a time from the 128-row block that holds the row -/
def DV : Vec F S4096 .f32 := fun y => k0_pay8 (ablk A ((y 0).val / 128)) (ix1 ⟨(y 0).val % 128, Nat.mod_lt _ (by norm_num)⟩)

/-- the adjacency in the scratch's element type, 128 rows at a time -/
def ABF : Vec F S4096x4096 .bf16 := fun y => k0_pay10 (ablk A ((y 0).val / 128)) (ix2 ⟨(y 0).val % 128, Nat.mod_lt _ (by norm_num)⟩ (y 1))

/-- the first support: `XW` with every row scaled -/
def S1 : Vec F S4096x256 .bf16 := k0_pay3 (XW X W1) (DV A)

/-- the second support, 512 rows at a time -/
def S2 : Vec F S4096x256 .bf16 := fun y =>
  k0_pay4 (rowsAt (by norm_num) 512 (ABF A) (512 * ((y 0).val / 512))) (S1 A X W1) (sliceAt (by norm_num) 512 (DV A) (512 * ((y 0).val / 512))) WC
    (ix2 ⟨(y 0).val % 512, Nat.mod_lt _ (by norm_num)⟩ (y 1))

/-- the first result's 512-row block number `b` -/
def Z5 (b : ℕ) : Vec F S512x128 .f32 :=
  k0_pay6 (rowsAt (by norm_num) 512 (ABF A) (512 * b)) (S2 A X W1 WC) (sliceAt (by norm_num) 512 (DV A) (512 * b))
/-- the second result's 512-row block number `b` -/
def Z6 (b : ℕ) : Vec F S512x128 .f32 :=
  k0_pay7 (rowsAt (by norm_num) 512 (ABF A) (512 * b)) (S2 A X W1 WC) (sliceAt (by norm_num) 512 (DV A) (512 * b))

/-- the first result, whole -/
def Zfst : S4096x128.Idx → Elt F .f32 := fun y => Z5 A X W1 WC ((y 0).val / 512) (ix2 ⟨(y 0).val % 512, Nat.mod_lt _ (by norm_num)⟩ (y 1))
/-- the second result, whole -/
def Zsnd : S4096x128.Idx → Elt F .f32 := fun y => Z6 A X W1 WC ((y 0).val / 512) (ix2 ⟨(y 0).val % 512, Nat.mod_lt _ (by norm_num)⟩ (y 1))

/-- What the five scratch buffers hold before point `n`: `XW` from point 1 on; the first `256 n` rows of `ABF` and entries of
    `DV`; `S1` from point 16 on; the first `512 (n - 16)` rows of `S2`. -/
structure Inv (n : ℕ) (abf : Vec F S4096x4096 .bf16) (dv : Vec F S4096 .f32) (s1 s2 xw : Vec F S4096x256 .bf16) : Prop where
  xw : 1 ≤ n → xw = XW X W1
  abf : ∀ y : S4096x4096.Idx, (y 0).val < 256 * n → abf y = ABF A y
  dv : ∀ y : S4096.Idx, (y 0).val < 256 * n → dv y = DV A y
  s1 : 16 ≤ n → s1 = S1 A X W1
  s2 : ∀ y : S4096x256.Idx, (y 0).val + 512 * 16 < 512 * n → s2 y = S2 A X W1 WC y

end Closed

end Cert.KernelIdeal.Hand

end
-- ==== Proof.FrameDefs.lean ====
import proofs.«107370_g89885075570807_cont_sun_c4_768_25_alg».proof.Proof.Spec
import Idealize.ShloMosaic.Lib.Pipeline.FrameBody
import Idealize.ShloMosaic.Lib.Pipeline.FrameSuffix

/-!
The program around its one region: what the buffers hold when the region is entered (the three host conversions done),
each window's block at a grid point as a block of those arrays, and where the two result windows are idle.
-/

set_option maxRecDepth 16384

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: after the three host operations. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the three host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- the adjacency, the converted features, the first weight and the converted concatenated weight, as the region finds them -/
abbrev Aarr (c : Dev nD) : Vec F S4096x4096 .f32 := V m c main_arg0
abbrev Xarr (c : Dev nD) : Vec F S4096x256 .bf16 := V m c main_v0
abbrev W1arr (c : Dev nD) : Vec F S256x256 .f32 := V m c main_arg2
abbrev WCarr (c : Dev nD) : Vec F S256x256 .bf16 := V m c main_v2

/-- the host operations do not write the arguments -/
theorem V_main_arg0 (c : Dev nD) : V m c main_arg0 = m ((c : Thread nD τ).loc main_arg0) := by
  dsimp only [V, V0, hostOps0]; after_results
theorem V_main_arg1 (c : Dev nD) : V m c main_arg1 = m ((c : Thread nD τ).loc main_arg1) := by
  dsimp only [V, V0, hostOps0]; after_results
theorem V_main_arg2 (c : Dev nD) : V m c main_arg2 = m ((c : Thread nD τ).loc main_arg2) := by
  dsimp only [V, V0, hostOps0]; after_results
theorem V_main_arg3 (c : Dev nD) : V m c main_arg3 = m ((c : Thread nD τ).loc main_arg3) := by
  dsimp only [V, V0, hostOps0]; after_results
theorem V_main_arg4 (c : Dev nD) : V m c main_arg4 = m ((c : Thread nD τ).loc main_arg4) := by
  dsimp only [V, V0, hostOps0]; after_results
/-- the converted features are the features, re-typed -/
theorem V_main_v0 (c : Dev nD) : (V m c main_v0 : Vec F S4096x256 .bf16)
    = truncf .bf16 (m ((c : Thread nD τ).loc main_arg1) : Vec F S4096x256 .f32) bitsLt_bf16_f32 := by
  dsimp only [V, V0, hostOps0]; after_results
/-- the converted concatenated weight -/
theorem V_main_v2 (c : Dev nD) : (V m c main_v2 : Vec F S256x256 .bf16)
    = truncf .bf16 (concatenate S256x256 1 [⟨S256x128, (m ((c : Thread nD τ).loc main_arg3) : Vec F S256x128 .f32)⟩, ⟨S256x128, (m ((c : Thread nD τ).loc main_arg4) : Vec F S256x128 .f32)⟩] concatenates_S256x128_S256x128_S256x256_d1) bitsLt_bf16_f32 := by
  dsimp only [V, V0, hostOps0]; after_results

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- the block index of each input window at each grid point, per axis -/
theorem idx0_lt : ∀ t : Fin cfg0.N, t.val < 16 → win0_0.index t (0 : Fin 2) = 2 * t.val ∧ win0_0.index t (1 : Fin 2) = 0 :=
  (by decide +kernel : ∀ t : Fin grid0.N, t.val < 16 → win0_0.index t (0 : Fin 2) = 2 * t.val ∧ win0_0.index t (1 : Fin 2) = 0)
theorem idx1_lt : ∀ t : Fin cfg0.N, t.val < 16 → win0_1.index t (0 : Fin 2) = 2 * t.val + 1 ∧ win0_1.index t (1 : Fin 2) = 0 :=
  (by decide +kernel : ∀ t : Fin grid0.N, t.val < 16 → win0_1.index t (0 : Fin 2) = 2 * t.val + 1 ∧ win0_1.index t (1 : Fin 2) = 0)
theorem idx2_all : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3_all : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4_all : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- at the first 16 points the first two windows hold consecutive 128-row blocks of the adjacency -/
theorem iblk0_eq (c : Dev nD) (t : Fin cfg0.N) (ht : t.val < 16) : (iblk m c 0 t : Vec F S128x4096 .f32) = ablk (Aarr m c) (2 * t.val) := by
  obtain ⟨e0, e1⟩ := idx0_lt t ht
  funext y
  have hy0 : (y 0).val < 128 := (y 0).isLt
  have hmod : (128 * (2 * t.val) + (y 0).val) % 4096 = 128 * (2 * t.val) + (y 0).val := Nat.mod_eq_of_lt (by omega)
  show V m c main_arg0 (((cfg0.win 0).blk t).view.emb y) = V m c main_arg0 (ix2 ⟨(128 * (2 * t.val) + (y 0).val) % 4096, Nat.mod_lt _ (by norm_num)⟩ (y 1))
  congr 1
  funext a; apply Fin.ext
  match a with
  | ⟨0, _⟩ => show win0_0.index t (0 : Fin 2) * 128 + 1 * (y 0).val = (128 * (2 * t.val) + (y 0).val) % 4096; omega
  | ⟨1, _⟩ => show win0_0.index t (1 : Fin 2) * 4096 + 1 * (y 1).val = (y 1).val; omega
theorem iblk1_eq (c : Dev nD) (t : Fin cfg0.N) (ht : t.val < 16) : (iblk m c 1 t : Vec F S128x4096 .f32) = ablk (Aarr m c) (2 * t.val + 1) := by
  obtain ⟨e0, e1⟩ := idx1_lt t ht
  funext y
  have hy0 : (y 0).val < 128 := (y 0).isLt
  have hmod : (128 * (2 * t.val + 1) + (y 0).val) % 4096 = 128 * (2 * t.val + 1) + (y 0).val := Nat.mod_eq_of_lt (by omega)
  show V m c main_arg0 (((cfg0.win 1).blk t).view.emb y) = V m c main_arg0 (ix2 ⟨(128 * (2 * t.val + 1) + (y 0).val) % 4096, Nat.mod_lt _ (by norm_num)⟩ (y 1))
  congr 1
  funext a; apply Fin.ext
  match a with
  | ⟨0, _⟩ => show win0_1.index t (0 : Fin 2) * 128 + 1 * (y 0).val = (128 * (2 * t.val + 1) + (y 0).val) % 4096; omega
  | ⟨1, _⟩ => show win0_1.index t (1 : Fin 2) * 4096 + 1 * (y 1).val = (y 1).val; omega
/-- the other three input windows hold their whole arrays at every point -/
theorem iblk2_eq (c : Dev nD) (t : Fin cfg0.N) : (iblk m c 2 t : Vec F S4096x256 .bf16) = Xarr m c := by
  obtain ⟨e0, e1⟩ := idx2_all t
  funext y
  show V m c main_v0 (((cfg0.win 2).blk t).view.emb y) = V m c main_v0 y
  congr 1
  funext a; apply Fin.ext
  match a with
  | ⟨0, _⟩ => show win0_2.index t (0 : Fin 2) * 4096 + 1 * (y 0).val = (y 0).val; omega
  | ⟨1, _⟩ => show win0_2.index t (1 : Fin 2) * 256 + 1 * (y 1).val = (y 1).val; omega
theorem iblk3_eq (c : Dev nD) (t : Fin cfg0.N) : (iblk m c 3 t : Vec F S256x256 .f32) = W1arr m c := by
  obtain ⟨e0, e1⟩ := idx3_all t
  funext y
  show V m c main_arg2 (((cfg0.win 3).blk t).view.emb y) = V m c main_arg2 y
  congr 1
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega
theorem iblk4_eq (c : Dev nD) (t : Fin cfg0.N) : (iblk m c 4 t : Vec F S256x256 .bf16) = WCarr m c := by
  obtain ⟨e0, e1⟩ := idx4_all t
  funext y
  show V m c main_v2 (((cfg0.win 4).blk t).view.emb y) = V m c main_v2 y
  congr 1
  funext a; apply Fin.ext
  match a with
  | ⟨0, _⟩ => show win0_4.index t (0 : Fin 2) * 256 + 1 * (y 0).val = (y 0).val; omega
  | ⟨1, _⟩ => show win0_4.index t (1 : Fin 2) * 256 + 1 * (y 1).val = (y 1).val; omega

/-! ## Where the result windows are idle, written back, and which block they write -/

theorem idle5_lt : ∀ t : Fin cfg0.N, t.val < 24 → cfg0.idle 5 (grid0.coords t) = true := by decide +kernel
theorem idle6_lt : ∀ t : Fin cfg0.N, t.val < 24 → cfg0.idle 6 (grid0.coords t) = true := by decide +kernel
theorem live5_ge : ∀ t : Fin cfg0.N, 24 ≤ t.val → cfg0.idle 5 (grid0.coords t) = false := by decide +kernel
theorem live6_ge : ∀ t : Fin cfg0.N, 24 ≤ t.val → cfg0.idle 6 (grid0.coords t) = false := by decide +kernel
theorem noFlush5_lt : ∀ t : Fin cfg0.N, t.val < 24 → (cfg0.win 5).flush t = false := by decide +kernel
theorem noFlush6_lt : ∀ t : Fin cfg0.N, t.val < 24 → (cfg0.win 6).flush t = false := by decide +kernel
theorem flush5_ge : ∀ t : Fin cfg0.N, 24 ≤ t.val → (cfg0.win 5).flush t = true := by decide +kernel
theorem flush6_ge : ∀ t : Fin cfg0.N, 24 ≤ t.val → (cfg0.win 6).flush t = true := by decide +kernel
theorem index5_ge : ∀ t : Fin cfg0.N, 24 ≤ t.val → (cfg0.win 5).index t = ![t.val - 24, 0] := by decide +kernel
theorem index6_ge : ∀ t : Fin cfg0.N, 24 ≤ t.val → (cfg0.win 6).index t = ![t.val - 24, 0] := by decide +kernel
theorem live_in : ∀ (w : Fin cfg0.W), w.val < 5 → ∀ t : Fin cfg0.N, cfg0.idle w (grid0.coords t) = false := by decide +kernel

end Cert.KernelIdeal.Hand

end
-- ==== Proof.Runs.lean ====
import proofs.«107370_g89885075570807_cont_sun_c4_768_25_alg».proof.Proof.Spec
import Idealize.ShloMosaic.Lib.Pipeline.FrameBody
import Idealize.ShloMosaic.Lib.Pipeline.FrameSuffix
import Idealize.ShloMosaic.Lib.Ring
import Idealize.ShloMosaic.Lib.Tactic

/-!
The kernel body run once in each of the five phases of the grid: which buffers it reads, and the stores it leaves in the
scratch buffers and the results' blocks, as lists of pieces (newest first) over the values it loaded.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- Point 0: the features times the first weight into its scratch, and the first 256 rows of the adjacency copy and of the scaling vector. -/
noncomputable def kernelRunA (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : condFirst i) (hc2 : k0_cond2 i = 1#1) (hc3 : ¬condFifteen i) (hc4 : ¬k0_cond4 i = 1#1) (hc5 : ¬k0_cond5 i = 1#1)
    (x0 x1 : Vec F S128x4096 .f32) (xx : Vec F S4096x256 .bf16) (w1 : Vec F S256x256 .f32) (abf : Vec F S4096x4096 .bf16) (dv : Vec F S4096 .f32) :
    Σ' (L8 : List (View.Piece (Elt F) S4096x4096 .bf16)), Σ' (L9 : List (View.Piece (Elt F) S4096 .f32)), { L12 : List (View.Piece (Elt F) S4096x256 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare xx
            ∗ owns (c : Thread nD τ) arg4 fullShare w1
            ∗ owns (c : Thread nD τ) arg8 fullShare abf
            ∗ owns (c : Thread nD τ) arg9 fullShare dv
            ∗ (∃ d, owns (c : Thread nD τ) arg12 fullShare d)
            ∗ (iprop(owns (c : Thread nD τ) arg1 fullShare x0
                ∗ owns (c : Thread nD τ) arg2 fullShare x1
                ∗ owns (c : Thread nD τ) arg3 fullShare xx
                ∗ owns (c : Thread nD τ) arg4 fullShare w1
                ∗ (arg8.view.loc (c : Thread nD τ) ↦[arg8.view.set]{fullShare} arg8.view.writes (Elt F) (harg8.unread abf) L8)
                ∗ (arg9.view.loc (c : Thread nD τ) ↦[arg9.view.set]{fullShare} arg9.view.writes (Elt F) (harg9.unread dv) L9)
                ∗ (∃ f, arg12.view.loc (c : Thread nD τ) ↦[arg12.view.set]{fullShare} arg12.view.writes (Elt F) f L12)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%f4, %hf4, H4⟩, ⟨%f8, %hf8, H8⟩, ⟨%f9, %hf9, H9⟩, ⟨%d12, %f12, -, H12⟩, Hk⟩
    obtain rfl := harg1.eq_unread hf1; obtain rfl := harg2.eq_unread hf2; obtain rfl := harg3.eq_unread hf3; obtain rfl := harg4.eq_unread hf4; obtain rfl := harg8.eq_unread hf8; obtain rfl := harg9.eq_unread hf9
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H8]; · iexact H8
    isplitl [H9]; · iexact H9
    iexists _; iexact H12

set_option maxHeartbeats 2000000 in
/-- Points 1..14: 256 more rows of the adjacency copy and of the scaling vector. -/
noncomputable def kernelRunB (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : k0_cond2 i = 1#1) (hc3 : ¬condFifteen i) (hc4 : ¬k0_cond4 i = 1#1) (hc5 : ¬k0_cond5 i = 1#1)
    (x0 x1 : Vec F S128x4096 .f32) (abf : Vec F S4096x4096 .bf16) (dv : Vec F S4096 .f32) :
    Σ' (L8 : List (View.Piece (Elt F) S4096x4096 .bf16)), { L9 : List (View.Piece (Elt F) S4096 .f32) //
      ∀ (E : Set ℕ) (K : PUnit → sProp 𝕄),
        iprop(owns (c : Thread nD τ) arg1 fullShare x0
            ∗ owns (c : Thread nD τ) arg2 fullShare x1
            ∗ owns (c : Thread nD τ) arg8 fullShare abf
            ∗ owns (c : Thread nD τ) arg9 fullShare dv
            ∗ (iprop(owns (c : Thread nD τ) arg1 fullShare x0
                ∗ owns (c : Thread nD τ) arg2 fullShare x1
                ∗ (arg8.view.loc (c : Thread nD τ) ↦[arg8.view.set]{fullShare} arg8.view.writes (Elt F) (harg8.unread abf) L8)
                ∗ (arg9.view.loc (c : Thread nD τ) ↦[arg9.view.set]{fullShare} arg9.view.writes (Elt F) (harg9.unread dv) L9)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f8, %hf8, H8⟩, ⟨%f9, %hf9, H9⟩, Hk⟩
    obtain rfl := harg1.eq_unread hf1; obtain rfl := harg2.eq_unread hf2; obtain rfl := harg8.eq_unread hf8; obtain rfl := harg9.eq_unread hf9
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H8]; · iexact H8
    iexact H9

set_option maxHeartbeats 2000000 in
/-- Point 15: the last 256 rows of the adjacency copy and of the scaling vector, then the first support from the whole scaling vector. -/
noncomputable def kernelRunC (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : k0_cond2 i = 1#1) (hc3 : condFifteen i) (hc4 : ¬k0_cond4 i = 1#1) (hc5 : ¬k0_cond5 i = 1#1)
    (x0 x1 : Vec F S128x4096 .f32) (abf : Vec F S4096x4096 .bf16) (dv : Vec F S4096 .f32) (xw : Vec F S4096x256 .bf16) :
    Σ' (L8 : List (View.Piece (Elt F) S4096x4096 .bf16)), Σ' (L9 : List (View.Piece (Elt F) S4096 .f32)), { L10 : List (View.Piece (Elt F) S4096x256 .bf16) //
      ∀ (E : Set ℕ) (K : PUnit → sProp 𝕄),
        iprop(owns (c : Thread nD τ) arg1 fullShare x0
            ∗ owns (c : Thread nD τ) arg2 fullShare x1
            ∗ owns (c : Thread nD τ) arg8 fullShare abf
            ∗ owns (c : Thread nD τ) arg9 fullShare dv
            ∗ (∃ d, owns (c : Thread nD τ) arg10 fullShare d)
            ∗ owns (c : Thread nD τ) arg12 fullShare xw
            ∗ (iprop(owns (c : Thread nD τ) arg1 fullShare x0
                ∗ owns (c : Thread nD τ) arg2 fullShare x1
                ∗ (arg8.view.loc (c : Thread nD τ) ↦[arg8.view.set]{fullShare} arg8.view.writes (Elt F) (harg8.unread abf) L8)
                ∗ (arg9.view.loc (c : Thread nD τ) ↦[arg9.view.set]{fullShare} arg9.view.writes (Elt F) (harg9.unread dv) L9)
                ∗ (∃ f, arg10.view.loc (c : Thread nD τ) ↦[arg10.view.set]{fullShare} arg10.view.writes (Elt F) f L10)
                ∗ owns (c : Thread nD τ) arg12 fullShare xw) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f8, %hf8, H8⟩, ⟨%f9, %hf9, H9⟩, ⟨%d10, %f10, -, H10⟩, ⟨%f12, %hf12, H12⟩, Hk⟩
    obtain rfl := harg1.eq_unread hf1; obtain rfl := harg2.eq_unread hf2; obtain rfl := harg8.eq_unread hf8; obtain rfl := harg9.eq_unread hf9; obtain rfl := harg12.eq_unread hf12
    sl_exec (disch := first | exact hc1 | exact hc2 | exact hc3 | exact hc4 | exact hc5)
    sl_step
    iapply Hk
    isplitl [H1]
    · iexists _; isplitr; · ipureintro; exact harg1.read_unread _
      iexact H1
    isplitl [H2]
    · iexists _; isplitr; · ipureintro; exact harg2.read_unread _
      iexact H2
    isplitl [H8]; · iexact H8
    isplitl [H9]; · iexact H9
    isplitl [H10]; · iexists _; iexact H10
    iexists _; isplitr; · ipureintro; exact harg12.read_unread _
    iexact H12

set_option maxHeartbeats 2000000 in
/-- Points 16..23: 512 more rows of the second support. -/
noncomputable def kernelRunD (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : ¬k0_cond2 i = 1#1) (hc3 : ¬condFifteen i) (hc4 : k0_cond4 i = 1#1) (hc5 : ¬k0_cond5 i = 1#1)
    (wc : Vec F S256x256 .bf16) (abf : Vec F S4096x4096 .bf16) (dv : Vec F S4096 .f32) (s1 s2 : Vec F S4096x256 .bf16) :
    { L11 : List (View.Piece (Elt F) S4096x256 .bf16) //
      ∀ (E : Set ℕ) (K : PUnit → sProp 𝕄),
        iprop(owns (c : Thread nD τ) arg5 fullShare wc
            ∗ owns (c : Thread nD τ) arg8 fullShare abf
            ∗ owns (c : Thread nD τ) arg9 fullShare dv
            ∗ owns (c : Thread nD τ) arg10 fullShare s1
            ∗ owns (c : Thread nD τ) arg11 fullShare s2
            ∗ (iprop(owns (c : Thread nD τ) arg5 fullShare wc
                ∗ owns (c : Thread nD τ) arg8 fullShare abf
                ∗ owns (c : Thread nD τ) arg9 fullShare dv
                ∗ owns (c : Thread nD τ) arg10 fullShare s1
                ∗ (arg11.view.loc (c : Thread nD τ) ↦[arg11.view.set]{fullShare} arg11.view.writes (Elt F) (harg11.unread s2) L11)) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__gcn_kernel_eq_skeleton]; unfold cc0__gcn_kernel_skel
    unfold owns
    iintro ⟨⟨%f5, %hf5, H5⟩, ⟨%f8, %hf8, H8⟩, ⟨%f9, %hf9, H9⟩, ⟨%f10, %hf10, H10⟩, ⟨%f11, %hf11, H11⟩, Hk⟩
    obtain rfl := harg5.eq_unread hf5; obtain rfl := harg8.eq_unread hf8; obtain rfl := harg9.eq_unread hf9; obtain rfl := harg10.eq_unread hf10; obtain rfl := harg11.eq_unread hf11
    sl_exec (disch := first | exact hc1 | exact hc2 | exact hc3 | exact hc4 | exact hc5)
    sl_step
    iapply Hk
    isplitl [H5]
    · iexists _; isplitr; · ipureintro; exact harg5.read_unread _
      iexact H5
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexact H11

set_option maxHeartbeats 2000000 in
/-- Points 24..31: one 512-row block of each result. -/
noncomputable def kernelRunE (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : ¬k0_cond2 i = 1#1) (hc3 : ¬condFifteen i) (hc4 : ¬k0_cond4 i = 1#1) (hc5 : k0_cond5 i = 1#1)
    (abf : Vec F S4096x4096 .bf16) (dv : Vec F S4096 .f32) (s2 : Vec F S4096x256 .bf16) :
    Σ' (L6 : List (View.Piece (Elt F) S512x128 .f32)), { L7 : List (View.Piece (Elt F) S512x128 .f32) //
      ∀ (E : Set ℕ) (K : PUnit → sProp 𝕄),
        iprop((∃ d, owns (c : Thread nD τ) arg6 fullShare d)
            ∗ (∃ d, owns (c : Thread nD τ) arg7 fullShare d)
            ∗ owns (c : Thread nD τ) arg8 fullShare abf
            ∗ owns (c : Thread nD τ) arg9 fullShare dv
            ∗ owns (c : Thread nD τ) arg11 fullShare s2
            ∗ (iprop((∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ owns (c : Thread nD τ) arg8 fullShare abf
                ∗ owns (c : Thread nD τ) arg9 fullShare dv
                ∗ owns (c : Thread nD τ) arg11 fullShare s2) -∗ K ⟨⟩))
          ⊢ wp frame (wpE (defs₀ (F := F)) Variants.none c none) E (cc0__gcn_kernel i arg1 harg1 arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    simp only [cc0__gcn_kernel_eq_skeleton]; unfold cc0__gcn_kernel_skel
    unfold owns
    iintro ⟨⟨%d6, %f6, -, H6⟩, ⟨%d7, %f7, -, H7⟩, ⟨%f8, %hf8, H8⟩, ⟨%f9, %hf9, H9⟩, ⟨%f11, %hf11, H11⟩, Hk⟩
    obtain rfl := harg8.eq_unread hf8; obtain rfl := harg9.eq_unread hf9; obtain rfl := harg11.eq_unread hf11
    sl_exec (disch := first | exact hc1 | exact hc2 | exact hc3 | exact hc4 | exact hc5)
    sl_step
    iapply Hk
    isplitl [H6]; · iexists _; iexact H6
    isplitl [H7]; · iexists _; iexact H7
    isplitl [H8]
    · iexists _; isplitr; · ipureintro; exact harg8.read_unread _
      iexact H8
    isplitl [H9]
    · iexists _; isplitr; · ipureintro; exact harg9.read_unread _
      iexact H9
    iexists _; isplitr; · ipureintro; exact harg11.read_unread _
    iexact H11

end Cert.KernelIdeal.Hand

end
-- ==== Proof.Content.lean ====
import proofs.«107370_g89885075570807_cont_sun_c4_768_25_alg».proof.Proof.Spec
import Idealize.ShloMosaic.Lib.WritesUnit
import Idealize.ShloMosaic.Lib.Pipeline.FrameBody
import Idealize.ShloMosaic.Lib.Pipeline.Value

/-!
What the scratch buffers read after the stores of one grid point, given what they read before it.

Each lemma reads a list of row-block stores (newest first) at an index: an index under a stored block reads that block's
payload at its position inside the block, which is the closed form's value there because the closed forms are defined
block by block; any other index reads what the buffer held, which the hypothesis identifies with the closed form.
-/

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

/-! ## A load through a rectangle of whole rows is the row block -/

theorem ld_rowsAt {α : EltTy} {n k M : ℕ} (hn : 0 < n) (Y : (⟨2, ![n, k]⟩ : Shape).Idx → Elt F α) (off : Fin 2 → ℕ) (o : ℕ)
    (inb : ∀ a, off a + (![M, k] : Fin 2 → ℕ) a ≤ (⟨2, ![n, k]⟩ : Shape).size a) (hoff : off = ![o, 0]) :
    View.ld Y (Rect.unit (s := (⟨2, ![n, k]⟩ : Shape)) off ![M, k] inb) = rowsAt hn M Y o := by
  subst hoff
  funext x
  have h0 : o + M ≤ n := inb 0
  have hx : (x 0).val < M := (x 0).isLt
  show Y _ = Y _
  congr 1
  funext a
  match a with
  | ⟨0, _⟩ =>
    apply Fin.ext
    show o + 1 * (x 0).val = (o + (x 0).val) % n
    rw [Nat.one_mul, Nat.mod_eq_of_lt (by omega)]
  | ⟨1, _⟩ =>
    apply Fin.ext
    show 0 + 1 * (x 1).val = (x 1).val
    omega

theorem ld_sliceAt {α : EltTy} {n M : ℕ} (hn : 0 < n) (Y : (⟨1, ![n]⟩ : Shape).Idx → Elt F α) (off : Fin 1 → ℕ) (o : ℕ)
    (inb : ∀ a, off a + (![M] : Fin 1 → ℕ) a ≤ (⟨1, ![n]⟩ : Shape).size a) (hoff : off = ![o]) :
    View.ld Y (Rect.unit (s := (⟨1, ![n]⟩ : Shape)) off ![M] inb) = sliceAt hn M Y o := by
  subst hoff
  funext x
  have h0 : o + M ≤ n := inb 0
  have hx : (x 0).val < M := (x 0).isLt
  show Y _ = Y _
  congr 1
  funext a
  match a with
  | ⟨0, _⟩ =>
    apply Fin.ext
    show o + 1 * (x 0).val = (o + (x 0).val) % n
    rw [Nat.one_mul, Nat.mod_eq_of_lt (by omega)]

/-! ## Points 0..15: 256 more rows of the adjacency copy and of the scaling vector -/

section Cast
variable (A : Vec F S4096x4096 .f32)

theorem abf_step (t : Fin cfg0.N) (ht : t.val < 16) (v : View sig .tc .vmem S4096x4096 .bf16) (f : v.ty.Contents (Elt F))
    (hprev : ∀ y : S4096x4096.Idx, (y 0).val < 256 * t.val → v.read (Elt F) f y = ABF A y)
    (inb3 : ∀ a, k0_off3 (grid0.coords t) a + S128x4096.size a ≤ S4096x4096.size a)
    (inb4 : ∀ a, k0_off4 (grid0.coords t) a + S128x4096.size a ≤ S4096x4096.size a)
    (y : S4096x4096.Idx) (hy : (y 0).val < 256 * (t.val + 1)) :
    v.read (Elt F) (v.writes (Elt F) f
      [⟨Rect.unit (k0_off4 (grid0.coords t)) S128x4096.size inb4, k0_pay2 (ablk A (2 * t.val + 1))⟩,
       ⟨Rect.unit (k0_off3 (grid0.coords t)) S128x4096.size inb3, k0_pay10 (ablk A (2 * t.val))⟩]) y = ABF A y := by
  obtain ⟨p, q, rfl⟩ : ∃ (p : Fin 4096) (q : Fin 4096), y = ix2 p q := ⟨y 0, y 1, eq_ix2 y⟩
  have hp : p.val < 256 * (t.val + 1) := hy
  -- the two payloads are the same function of the block
  have hpay : ∀ B : Vec F S128x4096 .f32, k0_pay2 B = k0_pay10 B := fun _ => rfl
  -- the closed form at row p, column q, with the block number and the row inside the block named
  have hABF : ∀ (b : ℕ) (i : Fin 128), p.val / 128 = b → p.val % 128 = i.val →
      k0_pay10 (ablk A b) (ix2 i q) = ABF A (ix2 p q) := by
    intro b i hb hi
    subst hb
    have : i = ⟨p.val % 128, Nat.mod_lt _ (by norm_num)⟩ := Fin.ext hi.symm
    subst this
    rfl
  by_cases h1 : 256 * t.val + 128 ≤ p.val
  · -- under the newest piece: block 2 t + 1
    have hlt : p.val - (256 * t.val + 128) < 128 := by omega
    rw [View.read_writes_cons_rows_of_mem v f inb4 _ _ (ix2 p q)
      (ix2 (⟨p.val - (256 * t.val + 128), hlt⟩ : Fin 128) q) (off4_eq t ht)
      (by show p.val = 256 * t.val + 128 + (p.val - (256 * t.val + 128)); omega) rfl, hpay]
    exact hABF _ _ (by omega) (by show p.val % 128 = p.val - (256 * t.val + 128); omega)
  · rw [View.read_writes_cons_rows_of_not_mem v f inb4 _ _ (ix2 p q) (off4_eq t ht) (W := 128) rfl
      (Or.inl (by show p.val < 256 * t.val + 128; omega))]
    by_cases h0 : 256 * t.val ≤ p.val
    · -- under the older piece: block 2 t
      have hlt : p.val - 256 * t.val < 128 := by omega
      rw [View.read_writes_cons_rows_of_mem v f inb3 _ _ (ix2 p q)
        (ix2 (⟨p.val - 256 * t.val, hlt⟩ : Fin 128) q) (off3_eq t ht)
        (by show p.val = 256 * t.val + (p.val - 256 * t.val); omega) rfl]
      exact hABF _ _ (by omega) (by show p.val % 128 = p.val - 256 * t.val; omega)
    · -- before both pieces: what the buffer held
      rw [View.read_writes_cons_rows_of_not_mem v f inb3 _ _ (ix2 p q) (off3_eq t ht) (W := 128) rfl
        (Or.inl (by show p.val < 256 * t.val; omega)), View.writes_nil]
      exact hprev (ix2 p q) (by show p.val < 256 * t.val; omega)

theorem dv_step (t : Fin cfg0.N) (ht : t.val < 16) (v : View sig .tc .vmem S4096 .f32) (f : v.ty.Contents (Elt F))
    (hprev : ∀ y : S4096.Idx, (y 0).val < 256 * t.val → v.read (Elt F) f y = DV A y)
    (inb1 : ∀ a, k0_off1 (grid0.coords t) a + S128.size a ≤ S4096.size a)
    (inb2 : ∀ a, k0_off2 (grid0.coords t) a + S128.size a ≤ S4096.size a)
    (y : S4096.Idx) (hy : (y 0).val < 256 * (t.val + 1)) :
    v.read (Elt F) (v.writes (Elt F) f
      [⟨Rect.unit (k0_off2 (grid0.coords t)) S128.size inb2, k0_pay9 (ablk A (2 * t.val + 1))⟩,
       ⟨Rect.unit (k0_off1 (grid0.coords t)) S128.size inb1, k0_pay8 (ablk A (2 * t.val))⟩]) y = DV A y := by
  obtain ⟨p, rfl⟩ : ∃ (p : Fin 4096), y = ix1 p := ⟨y 0, eq_ix1 y⟩
  have hp : p.val < 256 * (t.val + 1) := hy
  -- the two payloads are the same function of the block
  have hpay : ∀ B : Vec F S128x4096 .f32, k0_pay9 B = k0_pay8 B := fun _ => rfl
  -- the closed form at entry p, with the block number and the entry inside the block named
  have hDV : ∀ (b : ℕ) (i : Fin 128), p.val / 128 = b → p.val % 128 = i.val →
      k0_pay8 (ablk A b) (ix1 i) = DV A (ix1 p) := by
    intro b i hb hi
    subst hb
    have : i = ⟨p.val % 128, Nat.mod_lt _ (by norm_num)⟩ := Fin.ext hi.symm
    subst this
    rfl
  by_cases h1 : 256 * t.val + 128 ≤ p.val
  · -- under the newest piece: block 2 t + 1
    have hlt : p.val - (256 * t.val + 128) < 128 := by omega
    rw [View.read_writes_cons_unit_of_mem v f inb2 _ _ (ix1 p)
      (ix1 (⟨p.val - (256 * t.val + 128), hlt⟩ : Fin 128)) (off2_eq t ht)
      (Fin.forall_fin_one.mpr (by show p.val = 256 * t.val + 128 + (p.val - (256 * t.val + 128)); omega)), hpay]
    exact hDV _ _ (by omega) (by show p.val % 128 = p.val - (256 * t.val + 128); omega)
  · rw [View.read_writes_cons_unit_of_not_mem v f inb2 _ _ (ix1 p) (off2_eq t ht) 0
      (Or.inl (by show p.val < 256 * t.val + 128; omega))]
    by_cases h0 : 256 * t.val ≤ p.val
    · -- under the older piece: block 2 t
      have hlt : p.val - 256 * t.val < 128 := by omega
      rw [View.read_writes_cons_unit_of_mem v f inb1 _ _ (ix1 p)
        (ix1 (⟨p.val - 256 * t.val, hlt⟩ : Fin 128)) (off1_eq t ht)
        (Fin.forall_fin_one.mpr (by show p.val = 256 * t.val + (p.val - 256 * t.val); omega))]
      exact hDV _ _ (by omega) (by show p.val % 128 = p.val - 256 * t.val; omega)
    · -- before both pieces: what the buffer held
      rw [View.read_writes_cons_unit_of_not_mem v f inb1 _ _ (ix1 p) (off1_eq t ht) 0
        (Or.inl (by show p.val < 256 * t.val; omega)), View.writes_nil]
      exact hprev (ix1 p) (by show p.val < 256 * t.val; omega)

end Cast

/-! ## Points 16..23: 512 more rows of the second support -/

section Mid
variable (A : Vec F S4096x4096 .f32) (X : Vec F S4096x256 .bf16) (W1 : Vec F S256x256 .f32) (WC : Vec F S256x256 .bf16)

theorem s2_step (t : Fin cfg0.N) (h16 : 16 ≤ t.val) (h24 : t.val < 24) (v : View sig .tc .vmem S4096x256 .bf16) (f : v.ty.Contents (Elt F))
    (hprev : ∀ y : S4096x256.Idx, (y 0).val + 512 * 16 < 512 * t.val → v.read (Elt F) f y = S2 A X W1 WC y)
    (inb5 : ∀ a, k0_off5 (grid0.coords t) a + S512x4096.size a ≤ S4096x4096.size a)
    (inb6 : ∀ a, k0_off6 (grid0.coords t) a + S512.size a ≤ S4096.size a)
    (inb7 : ∀ a, k0_off7 (grid0.coords t) a + S512x256.size a ≤ S4096x256.size a)
    (y : S4096x256.Idx) (hy : (y 0).val + 512 * 16 < 512 * (t.val + 1)) :
    v.read (Elt F) (v.writes (Elt F) f
      [⟨Rect.unit (k0_off7 (grid0.coords t)) S512x256.size inb7,
        k0_pay4 (View.ld (ABF A) (Rect.unit (k0_off5 (grid0.coords t)) S512x4096.size inb5)) (S1 A X W1)
          (View.ld (DV A) (Rect.unit (k0_off6 (grid0.coords t)) S512.size inb6)) WC⟩]) y = S2 A X W1 WC y := by
  obtain ⟨p, q, rfl⟩ : ∃ (p : Fin 4096) (q : Fin 256), y = ix2 p q := ⟨y 0, y 1, eq_ix2 y⟩
  have hy' : p.val + 512 * 16 < 512 * (t.val + 1) := hy
  have hp4 : p.val < 4096 := p.isLt
  rw [ld_rowsAt (n := 4096) (k := 4096) (M := 512) (by norm_num) (ABF A) (k0_off5 (grid0.coords t)) (512 * (t.val - 16)) inb5
        (off5_eq t h16 h24),
      ld_sliceAt (n := 4096) (M := 512) (by norm_num) (DV A) (k0_off6 (grid0.coords t)) (512 * (t.val - 16)) inb6
        (off6_eq t h16 h24)]
  by_cases hp : 512 * (t.val - 16) ≤ p.val
  · have hpl : p.val - 512 * (t.val - 16) < 512 := by omega
    have e1 : p.val / 512 = t.val - 16 := by omega
    have e2 : (⟨p.val - 512 * (t.val - 16), hpl⟩ : Fin 512) = ⟨p.val % 512, Nat.mod_lt _ (by norm_num)⟩ := Fin.ext (by
      show p.val - 512 * (t.val - 16) = p.val % 512
      omega)
    rw [View.read_writes_cons_rows_of_mem v f inb7 _ [] (ix2 p q) (ix2 ⟨p.val - 512 * (t.val - 16), hpl⟩ q)
      (off7_eq t h16 h24) (by show p.val = 512 * (t.val - 16) + (p.val - 512 * (t.val - 16)); omega) rfl]
    show _ = k0_pay4 (rowsAt (by norm_num) 512 (ABF A) (512 * (p.val / 512))) (S1 A X W1)
      (sliceAt (by norm_num) 512 (DV A) (512 * (p.val / 512))) WC (ix2 ⟨p.val % 512, Nat.mod_lt _ (by norm_num)⟩ q)
    rw [e1, e2]
  · rw [View.read_writes_cons_rows_of_not_mem v f inb7 _ [] (ix2 p q) (off7_eq t h16 h24) (W := 512) rfl
      (Or.inl (by show p.val < 512 * (t.val - 16); omega)), View.writes_nil]
    exact hprev _ (by show p.val + 512 * 16 < 512 * t.val; omega)

/-! ## Points 24..31: the two results' row blocks -/

theorem out5_eq (t : Fin cfg0.N) (h24 : 24 ≤ t.val)
    (inb8 : ∀ a, k0_off8 (grid0.coords t) a + S512x4096.size a ≤ S4096x4096.size a)
    (inb9 : ∀ a, k0_off9 (grid0.coords t) a + S512.size a ≤ S4096.size a) :
    k0_pay6 (View.ld (ABF A) (Rect.unit (k0_off8 (grid0.coords t)) S512x4096.size inb8)) (S2 A X W1 WC)
      (View.ld (DV A) (Rect.unit (k0_off9 (grid0.coords t)) S512.size inb9)) = Z5 A X W1 WC (t.val - 24) := by
  unfold Z5
  rw [ld_rowsAt (n := 4096) (k := 4096) (M := 512) (by norm_num) (ABF A) (k0_off8 (grid0.coords t)) (512 * (t.val - 24)) inb8
        (off8_eq t h24),
      ld_sliceAt (n := 4096) (M := 512) (by norm_num) (DV A) (k0_off9 (grid0.coords t)) (512 * (t.val - 24)) inb9
        (off9_eq t h24)]

theorem out6_eq (t : Fin cfg0.N) (h24 : 24 ≤ t.val)
    (inb8 : ∀ a, k0_off8 (grid0.coords t) a + S512x4096.size a ≤ S4096x4096.size a)
    (inb9 : ∀ a, k0_off9 (grid0.coords t) a + S512.size a ≤ S4096.size a) :
    k0_pay7 (View.ld (ABF A) (Rect.unit (k0_off8 (grid0.coords t)) S512x4096.size inb8)) (S2 A X W1 WC)
      (View.ld (DV A) (Rect.unit (k0_off9 (grid0.coords t)) S512.size inb9)) = Z6 A X W1 WC (t.val - 24) := by
  unfold Z6
  rw [ld_rowsAt (n := 4096) (k := 4096) (M := 512) (by norm_num) (ABF A) (k0_off8 (grid0.coords t)) (512 * (t.val - 24)) inb8
        (off8_eq t h24),
      ld_sliceAt (n := 4096) (M := 512) (by norm_num) (DV A) (k0_off9 (grid0.coords t)) (512 * (t.val - 24)) inb9
        (off9_eq t h24)]

end Mid

end Cert.KernelIdeal.Hand

end
-- ==== Proof.Steps.lean ====
import proofs.«107370_g89885075570807_cont_sun_c4_768_25_alg».proof.Proof.Content

/-!
The invariant on the five scratch buffers (`Inv`) from one grid point to the next, phase by phase, given the stores the
body leaves: before point 0 it says nothing; each of the points 0..15 extends the adjacency copy and the scaling vector by
256 rows (point 0 also writes the features' product, point 15 also the first support, from the then complete scaling
vector); each of the points 16..23 extends the second support by 512 rows; the points 24..31 write nothing into scratch and
store the results' blocks, which are the closed forms' blocks.
-/

noncomputable section

namespace Cert.KernelIdeal.Hand

open Idealize.ShloMosaic Idealize.ShloMosaic.TcCoe Idealize.ShloMosaic.ValueIdx
open Cert.KernelIdeal Cert.KernelIdeal.Gen

variable {F : FTy → Type} [FloatOps F]

theorem hz2 : (![0, 0] : Fin 2 → ℕ) = fun _ => 0 := funext fun a => by fin_cases a <;> rfl
theorem hz1 : (![0] : Fin 1 → ℕ) = fun _ => 0 := funext fun a => by fin_cases a <;> rfl

/-- one store through the whole shape reads back as its payload -/
theorem read_writes_unit_zero {sig' : RefSig} {κ : Kind} {sp : Space} {S : Shape} {e : EltTy} (v : View sig' κ sp S e)
    (f : v.ty.Contents (Elt F)) {off : Fin S.rank → ℕ} (h : off = fun _ => 0) (inb : ∀ a, off a + S.size a ≤ S.size a)
    (x : S.Idx → Elt F e) : v.read (Elt F) (v.writes (Elt F) f [⟨Rect.unit off S.size inb, x⟩]) = x := by
  subst h; exact View.read_writes_whole v f x

variable (A : Vec F S4096x4096 .f32) (X : Vec F S4096x256 .bf16) (W1 : Vec F S256x256 .f32) (WC : Vec F S256x256 .bf16)

/-- before the first point the invariant asks nothing -/
theorem inv_zero (abf : Vec F S4096x4096 .bf16) (dv : Vec F S4096 .f32) (s1 s2 xw : Vec F S4096x256 .bf16) :
    Inv A X W1 WC 0 abf dv s1 s2 xw :=
  ⟨fun h => absurd h (by omega), fun y h => absurd h (by omega), fun y h => absurd h (by omega), fun h => absurd h (by omega),
    fun y h => absurd h (by omega)⟩

/-- points 0..14 -/
theorem inv_cast (t : Fin cfg0.N) (ht : t.val < 15) {abf : Vec F S4096x4096 .bf16} {dv : Vec F S4096 .f32} {s1 s2 xw : Vec F S4096x256 .bf16}
    (hI : Inv A X W1 WC t.val abf dv s1 s2 xw)
    (v8 : View sig .tc .vmem S4096x4096 .bf16) (f8 : v8.ty.Contents (Elt F)) (h8 : v8.read (Elt F) f8 = abf)
    (v9 : View sig .tc .vmem S4096 .f32) (f9 : v9.ty.Contents (Elt F)) (h9 : v9.read (Elt F) f9 = dv)
    (inb1 : ∀ a, k0_off1 (grid0.coords t) a + S128.size a ≤ S4096.size a)
    (inb2 : ∀ a, k0_off2 (grid0.coords t) a + S128.size a ≤ S4096.size a)
    (inb3 : ∀ a, k0_off3 (grid0.coords t) a + S128x4096.size a ≤ S4096x4096.size a)
    (inb4 : ∀ a, k0_off4 (grid0.coords t) a + S128x4096.size a ≤ S4096x4096.size a)
    (xw' : Vec F S4096x256 .bf16) (hxw : xw' = XW X W1 ∨ (1 ≤ t.val ∧ xw' = xw)) :
    Inv A X W1 WC (t.val + 1)
      (v8.read (Elt F) (v8.writes (Elt F) f8
        [⟨Rect.unit (k0_off4 (grid0.coords t)) S128x4096.size inb4, k0_pay2 (ablk A (2 * t.val + 1))⟩,
         ⟨Rect.unit (k0_off3 (grid0.coords t)) S128x4096.size inb3, k0_pay10 (ablk A (2 * t.val))⟩]))
      (v9.read (Elt F) (v9.writes (Elt F) f9
        [⟨Rect.unit (k0_off2 (grid0.coords t)) S128.size inb2, k0_pay9 (ablk A (2 * t.val + 1))⟩,
         ⟨Rect.unit (k0_off1 (grid0.coords t)) S128.size inb1, k0_pay8 (ablk A (2 * t.val))⟩]))
      s1 s2 xw' := by
  refine ⟨fun _ => ?_, fun y hy => ?_, fun y hy => ?_, fun h => absurd h (by omega), fun y h => absurd h (by omega)⟩
  · rcases hxw with h | ⟨h1, h⟩
    · exact h
    · rw [h]; exact hI.xw h1
  · exact abf_step A t (by omega) v8 f8 (fun y hy => by rw [h8]; exact hI.abf y hy) inb3 inb4 y hy
  · exact dv_step A t (by omega) v9 f9 (fun y hy => by rw [h9]; exact hI.dv y hy) inb1 inb2 y hy

/-- point 15 -/
theorem inv_fifteen (t : Fin cfg0.N) (ht : t.val = 15) {abf : Vec F S4096x4096 .bf16} {dv : Vec F S4096 .f32} {s1 s2 xw : Vec F S4096x256 .bf16}
    (hI : Inv A X W1 WC t.val abf dv s1 s2 xw)
    (v8 : View sig .tc .vmem S4096x4096 .bf16) (f8 : v8.ty.Contents (Elt F)) (h8 : v8.read (Elt F) f8 = abf)
    (v9 : View sig .tc .vmem S4096 .f32) (f9 : v9.ty.Contents (Elt F)) (h9 : v9.read (Elt F) f9 = dv)
    (inb1 : ∀ a, k0_off1 (grid0.coords t) a + S128.size a ≤ S4096.size a)
    (inb2 : ∀ a, k0_off2 (grid0.coords t) a + S128.size a ≤ S4096.size a)
    (inb3 : ∀ a, k0_off3 (grid0.coords t) a + S128x4096.size a ≤ S4096x4096.size a)
    (inb4 : ∀ a, k0_off4 (grid0.coords t) a + S128x4096.size a ≤ S4096x4096.size a)
    (s1' : Vec F S4096x256 .bf16)
    (hs1 : s1' = k0_pay3 xw (v9.read (Elt F) (v9.writes (Elt F) f9
        [⟨Rect.unit (k0_off2 (grid0.coords t)) S128.size inb2, k0_pay9 (ablk A (2 * t.val + 1))⟩,
         ⟨Rect.unit (k0_off1 (grid0.coords t)) S128.size inb1, k0_pay8 (ablk A (2 * t.val))⟩]))) :
    Inv A X W1 WC (t.val + 1)
      (v8.read (Elt F) (v8.writes (Elt F) f8
        [⟨Rect.unit (k0_off4 (grid0.coords t)) S128x4096.size inb4, k0_pay2 (ablk A (2 * t.val + 1))⟩,
         ⟨Rect.unit (k0_off3 (grid0.coords t)) S128x4096.size inb3, k0_pay10 (ablk A (2 * t.val))⟩]))
      (v9.read (Elt F) (v9.writes (Elt F) f9
        [⟨Rect.unit (k0_off2 (grid0.coords t)) S128.size inb2, k0_pay9 (ablk A (2 * t.val + 1))⟩,
         ⟨Rect.unit (k0_off1 (grid0.coords t)) S128.size inb1, k0_pay8 (ablk A (2 * t.val))⟩]))
      s1' s2 xw := by
  have hdv : ∀ y : S4096.Idx, (v9.read (Elt F) (v9.writes (Elt F) f9
        [⟨Rect.unit (k0_off2 (grid0.coords t)) S128.size inb2, k0_pay9 (ablk A (2 * t.val + 1))⟩,
         ⟨Rect.unit (k0_off1 (grid0.coords t)) S128.size inb1, k0_pay8 (ablk A (2 * t.val))⟩])) y = DV A y := fun y =>
    dv_step A t (by omega) v9 f9 (fun y hy => by rw [h9]; exact hI.dv y hy) inb1 inb2 y (by
      have : (y 0).val < 4096 := (y 0).isLt
      omega)
  refine ⟨fun _ => hI.xw (by omega), fun y hy => ?_, fun y _ => hdv y, fun _ => ?_, fun y h => absurd h (by omega)⟩
  · exact abf_step A t (by omega) v8 f8 (fun y hy => by rw [h8]; exact hI.abf y hy) inb3 inb4 y hy
  · rw [hs1, funext hdv, hI.xw (by omega)]; rfl

/-- from point 16 on the adjacency copy, the scaling vector and the first support are complete -/
theorem inv_full {n : ℕ} (hn : 16 ≤ n) {abf : Vec F S4096x4096 .bf16} {dv : Vec F S4096 .f32} {s1 s2 xw : Vec F S4096x256 .bf16}
    (hI : Inv A X W1 WC n abf dv s1 s2 xw) : abf = ABF A ∧ dv = DV A ∧ s1 = S1 A X W1 :=
  ⟨funext fun y => hI.abf y (by have : (y 0).val < 4096 := (y 0).isLt; omega),
    funext fun y => hI.dv y (by have : (y 0).val < 4096 := (y 0).isLt; omega), hI.s1 hn⟩

/-- points 16..23 -/
theorem inv_mid (t : Fin cfg0.N) (h16 : 16 ≤ t.val) (h24 : t.val < 24) {abf : Vec F S4096x4096 .bf16} {dv : Vec F S4096 .f32} {s1 s2 xw : Vec F S4096x256 .bf16}
    (hI : Inv A X W1 WC t.val abf dv s1 s2 xw)
    (v11 : View sig .tc .vmem S4096x256 .bf16) (f11 : v11.ty.Contents (Elt F)) (h11 : v11.read (Elt F) f11 = s2)
    (inb5 : ∀ a, k0_off5 (grid0.coords t) a + S512x4096.size a ≤ S4096x4096.size a)
    (inb6 : ∀ a, k0_off6 (grid0.coords t) a + S512.size a ≤ S4096.size a)
    (inb7 : ∀ a, k0_off7 (grid0.coords t) a + S512x256.size a ≤ S4096x256.size a) :
    Inv A X W1 WC (t.val + 1) abf dv s1
      (v11.read (Elt F) (v11.writes (Elt F) f11
        [⟨Rect.unit (k0_off7 (grid0.coords t)) S512x256.size inb7,
          k0_pay4 (View.ld abf (Rect.unit (k0_off5 (grid0.coords t)) S512x4096.size inb5)) s1
            (View.ld dv (Rect.unit (k0_off6 (grid0.coords t)) S512.size inb6)) WC⟩]))
      xw := by
  obtain ⟨ha, hd, hs⟩ := inv_full A X W1 WC h16 hI
  refine ⟨fun _ => hI.xw (by omega), fun y _ => hI.abf y (by have : (y 0).val < 4096 := (y 0).isLt; omega),
    fun y _ => hI.dv y (by have : (y 0).val < 4096 := (y 0).isLt; omega), fun _ => hs, fun y hy => ?_⟩
  rw [ha, hd, hs]
  exact s2_step A X W1 WC t h16 h24 v11 f11 (fun y hy => by rw [h11]; exact hI.s2 y hy) inb5 inb6 inb7 y hy

/-- points 24..31: the scratch buffers stay, and the stored blocks are the closed forms' -/
theorem inv_out (t : Fin cfg0.N) (h24 : 24 ≤ t.val) {abf : Vec F S4096x4096 .bf16} {dv : Vec F S4096 .f32} {s1 s2 xw : Vec F S4096x256 .bf16}
    (hI : Inv A X W1 WC t.val abf dv s1 s2 xw)
    (inb8 : ∀ a, k0_off8 (grid0.coords t) a + S512x4096.size a ≤ S4096x4096.size a)
    (inb9 : ∀ a, k0_off9 (grid0.coords t) a + S512.size a ≤ S4096.size a) :
    Inv A X W1 WC (t.val + 1) abf dv s1 s2 xw
      ∧ k0_pay6 (View.ld abf (Rect.unit (k0_off8 (grid0.coords t)) S512x4096.size inb8)) s2
          (View.ld dv (Rect.unit (k0_off9 (grid0.coords t)) S512.size inb9)) = Z5 A X W1 WC (t.val - 24)
      ∧ k0_pay7 (View.ld abf (Rect.unit (k0_off8 (grid0.coords t)) S512x4096.size inb8)) s2
          (View.ld dv (Rect.unit (k0_off9 (grid0.coords t)) S512.size inb9)) = Z6 A X W1 WC (t.val - 24) := by
  obtain ⟨ha, hd, hs⟩ := inv_full A X W1 WC (by omega) hI
  have hs2 : s2 = S2 A X W1 WC := funext fun y => hI.s2 y (by have : (y 0).val < 4096 := (y 0).isLt; omega)
  refine ⟨⟨fun _ => hI.xw (by omega), fun y _ => hI.abf y (by have : (y 0).val < 4096 := (y 0).isLt; omega),
    fun y _ => hI.dv y (by have : (y 0).val < 4096 := (y 0).isLt; omega), fun _ => hs,
    fun y _ => hI.s2 y (by have : (y 0).val < 4096 := (y 0).isLt; omega)⟩, ?_, ?_⟩
  · rw [ha, hd, hs2]; exact out5_eq A X W1 WC t h24 inb8 inb9
  · rw [ha, hd, hs2]; exact out6_eq A X W1 WC t h24 inb8 inb9

end Cert.KernelIdeal.Hand

end
-- ==== Proof.FrameData.lean ====
import proofs.«107370_g89885075570807_cont_sun_c4_768_25_alg».proof.Proof.FrameDefs
import proofs.«107370_g89885075570807_cont_sun_c4_768_25_alg».proof.Proof.Runs
import proofs.«107370_g89885075570807_cont_sun_c4_768_25_alg».proof.Proof.Steps
import Idealize.ShloMosaic.Lib.Pipeline.Frame

/-!
The proof data of the one pipeline: every input window's buffer holds its block at every point; the two result windows'
buffers hold, at the points 24..31, the closed forms' 512-row blocks; between points the five scratch buffers satisfy the
invariant `Inv` at some contents.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/
abbrev ms0 (t : Fin cfg0.N) : Memref sig .tc .vmem S128x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x128 .f32 := win0_6.stage (cfg0.slots t 6)
abbrev hs6 (t : Fin cfg0.N) : (ms6 t).IsWhole := hstage0_6 ((cfg0.slots t 6).cast nbuf0_6)
abbrev sc0 : Memref sig .tc .vmem S4096x4096 .bf16 := Memref.whole cc0_scratch0
abbrev sc1 : Memref sig .tc .vmem S4096 .f32 := Memref.whole cc0_scratch1
abbrev sc2 : Memref sig .tc .vmem S4096x256 .bf16 := Memref.whole cc0_scratch2
abbrev sc3 : Memref sig .tc .vmem S4096x256 .bf16 := Memref.whole cc0_scratch3
abbrev sc4 : Memref sig .tc .vmem S4096x256 .bf16 := Memref.whole cc0_scratch4

/-- the class invariant with the five scratch buffers as memrefs owned at some contents -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

/-- the region invariant before point `n`: the scratch buffers at contents satisfying `Inv` at `n` -/
def PhiS (c : Dev nD) (n : ℕ) : sProp 𝕄 :=
  iprop(iprop(∃ (abf : Vec F S4096x4096 .bf16) (dv : Vec F S4096 .f32) (s1 : Vec F S4096x256 .bf16) (s2 : Vec F S4096x256 .bf16) (xw : Vec F S4096x256 .bf16),
      ⌜Inv (Aarr m c) (Xarr m c) (W1arr m c) (WCarr m c) n abf dv s1 s2 xw⌝ ∗ owns (c : Thread nD τ) sc0 fullShare abf ∗ owns (c : Thread nD τ) sc1 fullShare dv
        ∗ owns (c : Thread nD τ) sc2 fullShare s1 ∗ owns (c : Thread nD τ) sc3 fullShare s2 ∗ owns (c : Thread nD τ) sc4 fullShare xw)
    ∗ (∃ r, prngReg c r))

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Z5 (Aarr m c) (Xarr m c) (W1arr m c) (WCarr m c) (t.val - 24)
    | ⟨6, _⟩ => Z6 (Aarr m c) (Xarr m c) (W1arr m c) (WCarr m c) (t.val - 24)
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = Z5 (Aarr m c) (Xarr m c) (W1arr m c) (WCarr m c) (t.val - 24) := by dsimp only [dats]
theorem after6 (c : Dev nD) (t : Fin cfg0.N) : (dats m 0 c).after 6 t = Z6 (Aarr m c) (Xarr m c) (W1arr m c) (WCarr m c) (t.val - 24) := by dsimp only [dats]

/-- an input window's buffer holds its block at every point, fetched there or not: the body leaves it in place -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body obligation's two sides, the windows one by one -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves0 (c : Dev nD) (t : Fin cfg0.N) :
    (dats m 0 c).leavesExact 0 t = owns (c : Thread nD τ) (ms0 t) fullShare (iblk m c 0 t) := by
  unfold Dat.leavesExact; rw [live_in 0 (by decide) t, after0]
theorem leaves1 (c : Dev nD) (t : Fin cfg0.N) :
    (dats m 0 c).leavesExact 1 t = owns (c : Thread nD τ) (ms1 t) fullShare (iblk m c 1 t) := by
  unfold Dat.leavesExact; rw [live_in 1 (by decide) t, after1]
theorem leaves2 (c : Dev nD) (t : Fin cfg0.N) :
    (dats m 0 c).leavesExact 2 t = owns (c : Thread nD τ) (ms2 t) fullShare (iblk m c 2 t) := by
  unfold Dat.leavesExact; rw [live_in 2 (by decide) t, after2]
theorem leaves3 (c : Dev nD) (t : Fin cfg0.N) :
    (dats m 0 c).leavesExact 3 t = owns (c : Thread nD τ) (ms3 t) fullShare (iblk m c 3 t) := by
  unfold Dat.leavesExact; rw [live_in 3 (by decide) t, after3]
theorem leaves4 (c : Dev nD) (t : Fin cfg0.N) :
    (dats m 0 c).leavesExact 4 t = owns (c : Thread nD τ) (ms4 t) fullShare (iblk m c 4 t) := by
  unfold Dat.leavesExact; rw [live_in 4 (by decide) t, after4]
theorem leaves5_idle (c : Dev nD) (t : Fin cfg0.N) (ht : t.val < 24) :
    (dats m 0 c).leavesExact 5 t = iprop(∃ d, owns (c : Thread nD τ) (ms5 t) fullShare ((dats m 0 c).before 5 t d)) :=
  Dat.leavesExact_idle (dats m 0 c) 5 t (idle5_lt t ht) (noFlush5_lt t ht)
theorem leaves5_live (c : Dev nD) (t : Fin cfg0.N) (ht : 24 ≤ t.val) :
    (dats m 0 c).leavesExact 5 t = owns (c : Thread nD τ) (ms5 t) fullShare (Z5 (Aarr m c) (Xarr m c) (W1arr m c) (WCarr m c) (t.val - 24)) := by
  unfold Dat.leavesExact; rw [live5_ge t ht, after5]
theorem leaves6_idle (c : Dev nD) (t : Fin cfg0.N) (ht : t.val < 24) :
    (dats m 0 c).leavesExact 6 t = iprop(∃ d, owns (c : Thread nD τ) (ms6 t) fullShare ((dats m 0 c).before 6 t d)) :=
  Dat.leavesExact_idle (dats m 0 c) 6 t (idle6_lt t ht) (noFlush6_lt t ht)
theorem leaves6_live (c : Dev nD) (t : Fin cfg0.N) (ht : 24 ≤ t.val) :
    (dats m 0 c).leavesExact 6 t = owns (c : Thread nD τ) (ms6 t) fullShare (Z6 (Aarr m c) (Xarr m c) (W1arr m c) (WCarr m c) (t.val - 24)) := by
  unfold Dat.leavesExact; rw [live6_ge t ht, after6]

end Cert.KernelIdeal.Hand

end
-- ==== Proof.Pieces.lean ====
import proofs.«107370_g89885075570807_cont_sun_c4_768_25_alg».proof.Proof.Runs
import proofs.«107370_g89885075570807_cont_sun_c4_768_25_alg».proof.Proof.Steps
import Idealize.ShloMosaic.Lib.Pipeline.Value

/-!
The stores each phase's run leaves, written over the values the run was given: a load of a whole buffer is the buffer's
contents, a load of a row block is the block of the contents.
-/

set_option maxRecDepth 16384

noncomputable section

namespace Cert.KernelIdeal.Hand

open Idealize.ShloMosaic Idealize.ShloMosaic.TcCoe Idealize.ShloMosaic.Tactic
open Cert.KernelIdeal Cert.KernelIdeal.Gen

variable {F : FTy → Type} [FloatOps F]

theorem runA_L8 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : condFirst i) (hc2 : k0_cond2 i = 1#1) (hc3 : ¬condFifteen i) (hc4 : ¬k0_cond4 i = 1#1) (hc5 : ¬k0_cond5 i = 1#1)
    (x0 x1 : Vec F S128x4096 .f32) (xx : Vec F S4096x256 .bf16) (w1 : Vec F S256x256 .f32) (abf : Vec F S4096x4096 .bf16) (dv : Vec F S4096 .f32) :
    (kernelRunA c i arg1 harg1 arg2 harg2 arg3 harg3 arg4 harg4 arg5 harg5 arg6 harg6 arg7 harg7 arg8 harg8 arg9 harg9 arg10 harg10 arg11 harg11 arg12 harg12 hc1 hc2 hc3 hc4 hc5 x0 x1 xx w1 abf dv).1
      = [⟨Rect.unit (k0_off4 i) S128x4096.size (k0_off4_inb i hc2), k0_pay2 x1⟩, ⟨Rect.unit (k0_off3 i) S128x4096.size (k0_off3_inb i hc2), k0_pay10 x0⟩] := by
  unfold kernelRunA; dsimp only
  sl_unfold_run_names
  simp only [View.readAt_eq_ld, harg1.read_unread, harg2.read_unread, harg3.read_unread, harg4.read_unread]
  rw [View.ld_unit_zero (S := S128x4096) hz2 inb_S128x4096_S128x4096_0_0 x1, View.ld_unit_zero (S := S128x4096) hz2 inb_S128x4096_S128x4096_0_0 x0]

theorem runA_L9 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : condFirst i) (hc2 : k0_cond2 i = 1#1) (hc3 : ¬condFifteen i) (hc4 : ¬k0_cond4 i = 1#1) (hc5 : ¬k0_cond5 i = 1#1)
    (x0 x1 : Vec F S128x4096 .f32) (xx : Vec F S4096x256 .bf16) (w1 : Vec F S256x256 .f32) (abf : Vec F S4096x4096 .bf16) (dv : Vec F S4096 .f32) :
    (kernelRunA c i arg1 harg1 arg2 harg2 arg3 harg3 arg4 harg4 arg5 harg5 arg6 harg6 arg7 harg7 arg8 harg8 arg9 harg9 arg10 harg10 arg11 harg11 arg12 harg12 hc1 hc2 hc3 hc4 hc5 x0 x1 xx w1 abf dv).2.1
      = [⟨Rect.unit (k0_off2 i) S128.size (k0_off2_inb i hc2), k0_pay9 x1⟩, ⟨Rect.unit (k0_off1 i) S128.size (k0_off1_inb i hc2), k0_pay8 x0⟩] := by
  unfold kernelRunA; dsimp only
  sl_unfold_run_names
  simp only [View.readAt_eq_ld, harg1.read_unread, harg2.read_unread, harg3.read_unread, harg4.read_unread]
  rw [View.ld_unit_zero (S := S128x4096) hz2 inb_S128x4096_S128x4096_0_0 x1, View.ld_unit_zero (S := S128x4096) hz2 inb_S128x4096_S128x4096_0_0 x0]

theorem runA_L12 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : condFirst i) (hc2 : k0_cond2 i = 1#1) (hc3 : ¬condFifteen i) (hc4 : ¬k0_cond4 i = 1#1) (hc5 : ¬k0_cond5 i = 1#1)
    (x0 x1 : Vec F S128x4096 .f32) (xx : Vec F S4096x256 .bf16) (w1 : Vec F S256x256 .f32) (abf : Vec F S4096x4096 .bf16) (dv : Vec F S4096 .f32) :
    (kernelRunA c i arg1 harg1 arg2 harg2 arg3 harg3 arg4 harg4 arg5 harg5 arg6 harg6 arg7 harg7 arg8 harg8 arg9 harg9 arg10 harg10 arg11 harg11 arg12 harg12 hc1 hc2 hc3 hc4 hc5 x0 x1 xx w1 abf dv).2.2.1
      = [⟨Rect.unit ![0, 0] S4096x256.size inb_S4096x256_S4096x256_0_0, k0_pay1 xx w1⟩] := by
  unfold kernelRunA; dsimp only
  sl_unfold_run_names
  simp only [View.readAt_eq_ld, harg1.read_unread, harg2.read_unread, harg3.read_unread, harg4.read_unread]
  rw [View.ld_unit_zero (S := S4096x256) hz2 inb_S4096x256_S4096x256_0_0 xx, View.ld_unit_zero (S := S256x256) hz2 inb_S256x256_S256x256_0_0 w1]

theorem runB_L8 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : k0_cond2 i = 1#1) (hc3 : ¬condFifteen i) (hc4 : ¬k0_cond4 i = 1#1) (hc5 : ¬k0_cond5 i = 1#1)
    (x0 x1 : Vec F S128x4096 .f32) (abf : Vec F S4096x4096 .bf16) (dv : Vec F S4096 .f32) :
    (kernelRunB c i arg1 harg1 arg2 harg2 arg3 harg3 arg4 harg4 arg5 harg5 arg6 harg6 arg7 harg7 arg8 harg8 arg9 harg9 arg10 harg10 arg11 harg11 arg12 harg12 hc1 hc2 hc3 hc4 hc5 x0 x1 abf dv).1
      = [⟨Rect.unit (k0_off4 i) S128x4096.size (k0_off4_inb i hc2), k0_pay2 x1⟩, ⟨Rect.unit (k0_off3 i) S128x4096.size (k0_off3_inb i hc2), k0_pay10 x0⟩] := by
  unfold kernelRunB; dsimp only
  sl_unfold_run_names
  simp only [View.readAt_eq_ld, harg1.read_unread, harg2.read_unread]
  rw [View.ld_unit_zero (S := S128x4096) hz2 inb_S128x4096_S128x4096_0_0 x1, View.ld_unit_zero (S := S128x4096) hz2 inb_S128x4096_S128x4096_0_0 x0]

theorem runB_L9 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : k0_cond2 i = 1#1) (hc3 : ¬condFifteen i) (hc4 : ¬k0_cond4 i = 1#1) (hc5 : ¬k0_cond5 i = 1#1)
    (x0 x1 : Vec F S128x4096 .f32) (abf : Vec F S4096x4096 .bf16) (dv : Vec F S4096 .f32) :
    (kernelRunB c i arg1 harg1 arg2 harg2 arg3 harg3 arg4 harg4 arg5 harg5 arg6 harg6 arg7 harg7 arg8 harg8 arg9 harg9 arg10 harg10 arg11 harg11 arg12 harg12 hc1 hc2 hc3 hc4 hc5 x0 x1 abf dv).2.1
      = [⟨Rect.unit (k0_off2 i) S128.size (k0_off2_inb i hc2), k0_pay9 x1⟩, ⟨Rect.unit (k0_off1 i) S128.size (k0_off1_inb i hc2), k0_pay8 x0⟩] := by
  unfold kernelRunB; dsimp only
  sl_unfold_run_names
  simp only [View.readAt_eq_ld, harg1.read_unread, harg2.read_unread]
  rw [View.ld_unit_zero (S := S128x4096) hz2 inb_S128x4096_S128x4096_0_0 x1, View.ld_unit_zero (S := S128x4096) hz2 inb_S128x4096_S128x4096_0_0 x0]

theorem runC_L8 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : k0_cond2 i = 1#1) (hc3 : condFifteen i) (hc4 : ¬k0_cond4 i = 1#1) (hc5 : ¬k0_cond5 i = 1#1)
    (x0 x1 : Vec F S128x4096 .f32) (abf : Vec F S4096x4096 .bf16) (dv : Vec F S4096 .f32) (xw : Vec F S4096x256 .bf16) :
    (kernelRunC c i arg1 harg1 arg2 harg2 arg3 harg3 arg4 harg4 arg5 harg5 arg6 harg6 arg7 harg7 arg8 harg8 arg9 harg9 arg10 harg10 arg11 harg11 arg12 harg12 hc1 hc2 hc3 hc4 hc5 x0 x1 abf dv xw).1
      = [⟨Rect.unit (k0_off4 i) S128x4096.size (k0_off4_inb i hc2), k0_pay2 x1⟩, ⟨Rect.unit (k0_off3 i) S128x4096.size (k0_off3_inb i hc2), k0_pay10 x0⟩] := by
  unfold kernelRunC; dsimp only
  sl_unfold_run_names
  simp only [View.readAt_eq_ld, harg1.read_unread, harg2.read_unread, harg12.read_unread]
  rw [View.ld_unit_zero (S := S128x4096) hz2 inb_S128x4096_S128x4096_0_0 x1, View.ld_unit_zero (S := S128x4096) hz2 inb_S128x4096_S128x4096_0_0 x0]

theorem runC_L9 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : k0_cond2 i = 1#1) (hc3 : condFifteen i) (hc4 : ¬k0_cond4 i = 1#1) (hc5 : ¬k0_cond5 i = 1#1)
    (x0 x1 : Vec F S128x4096 .f32) (abf : Vec F S4096x4096 .bf16) (dv : Vec F S4096 .f32) (xw : Vec F S4096x256 .bf16) :
    (kernelRunC c i arg1 harg1 arg2 harg2 arg3 harg3 arg4 harg4 arg5 harg5 arg6 harg6 arg7 harg7 arg8 harg8 arg9 harg9 arg10 harg10 arg11 harg11 arg12 harg12 hc1 hc2 hc3 hc4 hc5 x0 x1 abf dv xw).2.1
      = [⟨Rect.unit (k0_off2 i) S128.size (k0_off2_inb i hc2), k0_pay9 x1⟩, ⟨Rect.unit (k0_off1 i) S128.size (k0_off1_inb i hc2), k0_pay8 x0⟩] := by
  unfold kernelRunC; dsimp only
  sl_unfold_run_names
  simp only [View.readAt_eq_ld, harg1.read_unread, harg2.read_unread, harg12.read_unread]
  rw [View.ld_unit_zero (S := S128x4096) hz2 inb_S128x4096_S128x4096_0_0 x1, View.ld_unit_zero (S := S128x4096) hz2 inb_S128x4096_S128x4096_0_0 x0]

theorem runC_L10 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : k0_cond2 i = 1#1) (hc3 : condFifteen i) (hc4 : ¬k0_cond4 i = 1#1) (hc5 : ¬k0_cond5 i = 1#1)
    (x0 x1 : Vec F S128x4096 .f32) (abf : Vec F S4096x4096 .bf16) (dv : Vec F S4096 .f32) (xw : Vec F S4096x256 .bf16) :
    (kernelRunC c i arg1 harg1 arg2 harg2 arg3 harg3 arg4 harg4 arg5 harg5 arg6 harg6 arg7 harg7 arg8 harg8 arg9 harg9 arg10 harg10 arg11 harg11 arg12 harg12 hc1 hc2 hc3 hc4 hc5 x0 x1 abf dv xw).2.2.1
      = [⟨Rect.unit ![0, 0] S4096x256.size inb_S4096x256_S4096x256_0_0, k0_pay3 xw (arg9.view.read (Elt F) (arg9.view.writes (Elt F) (harg9.unread dv) [⟨Rect.unit (k0_off2 i) S128.size (k0_off2_inb i hc2), k0_pay9 x1⟩, ⟨Rect.unit (k0_off1 i) S128.size (k0_off1_inb i hc2), k0_pay8 x0⟩]))⟩] := by
  unfold kernelRunC; dsimp only
  sl_unfold_run_names
  simp only [View.readAt_eq_ld, harg1.read_unread, harg2.read_unread, harg12.read_unread]
  rw [View.ld_unit_zero (S := S128x4096) hz2 inb_S128x4096_S128x4096_0_0 x1, View.ld_unit_zero (S := S128x4096) hz2 inb_S128x4096_S128x4096_0_0 x0, View.ld_unit_zero (S := S4096x256) hz2 inb_S4096x256_S4096x256_0_0 xw, View.ld_unit_zero (S := S4096) hz1 inb_S4096_S4096_0]

theorem runD_L11 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : ¬k0_cond2 i = 1#1) (hc3 : ¬condFifteen i) (hc4 : k0_cond4 i = 1#1) (hc5 : ¬k0_cond5 i = 1#1)
    (wc : Vec F S256x256 .bf16) (abf : Vec F S4096x4096 .bf16) (dv : Vec F S4096 .f32) (s1 s2 : Vec F S4096x256 .bf16) :
    (kernelRunD c i arg1 harg1 arg2 harg2 arg3 harg3 arg4 harg4 arg5 harg5 arg6 harg6 arg7 harg7 arg8 harg8 arg9 harg9 arg10 harg10 arg11 harg11 arg12 harg12 hc1 hc2 hc3 hc4 hc5 wc abf dv s1 s2).1
      = [⟨Rect.unit (k0_off7 i) S512x256.size (k0_off7_inb i hc4), k0_pay4 (View.ld abf (Rect.unit (k0_off5 i) S512x4096.size (k0_off5_inb i hc4))) s1 (View.ld dv (Rect.unit (k0_off6 i) S512.size (k0_off6_inb i hc4))) wc⟩] := by
  unfold kernelRunD; dsimp only
  sl_unfold_run_names
  simp only [View.readAt_eq_ld, harg5.read_unread, harg8.read_unread, harg9.read_unread, harg10.read_unread]
  rw [View.ld_unit_zero (S := S4096x256) hz2 inb_S4096x256_S4096x256_0_0 s1, View.ld_unit_zero (S := S256x256) hz2 inb_S256x256_S256x256_0_0 wc]

theorem runE_L6 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : ¬k0_cond2 i = 1#1) (hc3 : ¬condFifteen i) (hc4 : ¬k0_cond4 i = 1#1) (hc5 : k0_cond5 i = 1#1)
    (abf : Vec F S4096x4096 .bf16) (dv : Vec F S4096 .f32) (s2 : Vec F S4096x256 .bf16) :
    (kernelRunE c i arg1 harg1 arg2 harg2 arg3 harg3 arg4 harg4 arg5 harg5 arg6 harg6 arg7 harg7 arg8 harg8 arg9 harg9 arg10 harg10 arg11 harg11 arg12 harg12 hc1 hc2 hc3 hc4 hc5 abf dv s2).1
      = [⟨Rect.unit ![0, 0] S512x128.size inb_S512x128_S512x128_0_0, k0_pay6 (View.ld abf (Rect.unit (k0_off8 i) S512x4096.size (k0_off8_inb i hc5))) s2 (View.ld dv (Rect.unit (k0_off9 i) S512.size (k0_off9_inb i hc5)))⟩] := by
  unfold kernelRunE; dsimp only
  sl_unfold_run_names
  simp only [View.readAt_eq_ld, harg8.read_unread, harg9.read_unread, harg11.read_unread]
  rw [View.ld_unit_zero (S := S4096x256) hz2 inb_S4096x256_S4096x256_0_0 s2]

theorem runE_L7 (c : Dev nD) (i : grid0.Coords) (arg1 : Memref sig .tc .vmem S128x4096 .f32) (harg1 : arg1.IsWhole) (arg2 : Memref sig .tc .vmem S128x4096 .f32) (harg2 : arg2.IsWhole) (arg3 : Memref sig .tc .vmem S4096x256 .bf16) (harg3 : arg3.IsWhole) (arg4 : Memref sig .tc .vmem S256x256 .f32) (harg4 : arg4.IsWhole) (arg5 : Memref sig .tc .vmem S256x256 .bf16) (harg5 : arg5.IsWhole) (arg6 : Memref sig .tc .vmem S512x128 .f32) (harg6 : arg6.IsWhole) (arg7 : Memref sig .tc .vmem S512x128 .f32) (harg7 : arg7.IsWhole) (arg8 : Memref sig .tc .vmem S4096x4096 .bf16) (harg8 : arg8.IsWhole) (arg9 : Memref sig .tc .vmem S4096 .f32) (harg9 : arg9.IsWhole) (arg10 : Memref sig .tc .vmem S4096x256 .bf16) (harg10 : arg10.IsWhole) (arg11 : Memref sig .tc .vmem S4096x256 .bf16) (harg11 : arg11.IsWhole) (arg12 : Memref sig .tc .vmem S4096x256 .bf16) (harg12 : arg12.IsWhole)
    (hc1 : ¬condFirst i) (hc2 : ¬k0_cond2 i = 1#1) (hc3 : ¬condFifteen i) (hc4 : ¬k0_cond4 i = 1#1) (hc5 : k0_cond5 i = 1#1)
    (abf : Vec F S4096x4096 .bf16) (dv : Vec F S4096 .f32) (s2 : Vec F S4096x256 .bf16) :
    (kernelRunE c i arg1 harg1 arg2 harg2 arg3 harg3 arg4 harg4 arg5 harg5 arg6 harg6 arg7 harg7 arg8 harg8 arg9 harg9 arg10 harg10 arg11 harg11 arg12 harg12 hc1 hc2 hc3 hc4 hc5 abf dv s2).2.1
      = [⟨Rect.unit ![0, 0] S512x128.size inb_S512x128_S512x128_0_0, k0_pay7 (View.ld abf (Rect.unit (k0_off8 i) S512x4096.size (k0_off8_inb i hc5))) s2 (View.ld dv (Rect.unit (k0_off9 i) S512.size (k0_off9_inb i hc5)))⟩] := by
  unfold kernelRunE; dsimp only
  sl_unfold_run_names
  simp only [View.readAt_eq_ld, harg8.read_unread, harg9.read_unread, harg11.read_unread]
  rw [View.ld_unit_zero (S := S4096x256) hz2 inb_S4096x256_S4096x256_0_0 s2]

end Cert.KernelIdeal.Hand

end
-- ==== Proof.BodyA.lean ====
import proofs.«107370_g89885075570807_cont_sun_c4_768_25_alg».proof.Proof.FrameData
import proofs.«107370_g89885075570807_cont_sun_c4_768_25_alg».proof.Proof.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Point 0: the features' product with the first weight is written whole, and the first 256 rows of the adjacency copy and
    of the scaling vector. -/
theorem sound_A (c : Dev nD) (t : Fin cfg0.N) (h0 : t.val = 0) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [Phi_castSucc, Phi_succ, leaves0, leaves1, leaves2, leaves3, leaves4, leaves5_idle m c t (by omega), leaves6_idle m c t (by omega)]
  rw [iblk0_eq m c t (by omega), iblk1_eq m c t (by omega), iblk2_eq, iblk3_eq]
  unfold PhiS
  have hc1 : condFirst (grid0.coords t) := (hcondFirst t).mpr (by omega)
  have hc2 : k0_cond2 (grid0.coords t) = 1#1 := (hcondCast t).mpr (by omega)
  have hc3 : ¬condFifteen (grid0.coords t) := fun h => by have := (hcondFifteen t).mp h; omega
  have hc4 : ¬k0_cond4 (grid0.coords t) = 1#1 := fun h => by have := (hcondMid t).mp h; omega
  have hc5 : ¬k0_cond5 (grid0.coords t) = 1#1 := fun h => by have := (hcondOut t).mp h; omega
  iintro ⟨⟨⟨%abf, %dv, %s1, %s2, %xw, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRunA (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) (Xarr m c) (W1arr m c) abf dv).2.2.2 Set.univ _)
  isplitl [H0]; · iexact H0
  isplitl [H1]; · iexact H1
  isplitl [H2]; · iexact H2
  isplitl [H3]; · iexact H3
  isplitl [HS0]; · iexact HS0
  isplitl [HS1]; · iexact HS1
  isplitl [HS4]; · iexists _; iexact HS4
  iintro ⟨H0, H1, H2, H3, HS0, HS1, ⟨%f12, HS4⟩⟩
  isplitl [HS0 HS1 HS2 HS3 HS4 Hg]
  · isplitr [Hg]
    · iexists (sc0.view.read (Elt F) (sc0.view.writes (Elt F) ((Memref.isWhole_whole cc0_scratch0).unread abf) (kernelRunA (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) (Xarr m c) (W1arr m c) abf dv).1)),
        (sc1.view.read (Elt F) (sc1.view.writes (Elt F) ((Memref.isWhole_whole cc0_scratch1).unread dv) (kernelRunA (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) (Xarr m c) (W1arr m c) abf dv).2.1)), s1, s2,
        (sc4.view.read (Elt F) (sc4.view.writes (Elt F) f12 (kernelRunA (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) (Xarr m c) (W1arr m c) abf dv).2.2.1))
      isplitr
      · ipureintro
        have eL8 := runA_L8 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) (Xarr m c) (W1arr m c) abf dv
        have eL9 := runA_L9 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) (Xarr m c) (W1arr m c) abf dv
        have eL12 := runA_L12 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) (Xarr m c) (W1arr m c) abf dv
        simp only [eL8, eL9, eL12]
        rw [read_writes_unit_zero sc4.view f12 hz2]
        exact inv_cast (Aarr m c) (Xarr m c) (W1arr m c) (WCarr m c) t (by omega) hI sc0.view _ (Memref.IsWhole.read_unread _ abf) sc1.view _ (Memref.IsWhole.read_unread _ dv) _ _ _ _ _ (Or.inl rfl)
      isplitl [HS0]
      · unfold owns; iexists _; isplitr; swap; · iexact HS0
        ipureintro; rfl
      isplitl [HS1]
      · unfold owns; iexists _; isplitr; swap; · iexact HS1
        ipureintro; rfl
      isplitl [HS2]; · iexact HS2
      isplitl [HS3]; · iexact HS3
      unfold owns; iexists _; isplitr; swap; · iexact HS4
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

end Cert.KernelIdeal.Hand

end
-- ==== Proof.BodyB.lean ====
import proofs.«107370_g89885075570807_cont_sun_c4_768_25_alg».proof.Proof.FrameData
import proofs.«107370_g89885075570807_cont_sun_c4_768_25_alg».proof.Proof.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Points 1..14: the body extends the adjacency copy and the scaling vector by 256 rows and keeps everything else. -/
theorem sound_B (c : Dev nD) (t : Fin cfg0.N) (h1 : 1 ≤ t.val) (h14 : t.val ≤ 14) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [Phi_castSucc, Phi_succ, leaves0, leaves1, leaves2, leaves3, leaves4, leaves5_idle m c t (by omega), leaves6_idle m c t (by omega)]
  rw [iblk0_eq m c t (by omega), iblk1_eq m c t (by omega)]
  unfold PhiS
  have hc1 : ¬condFirst (grid0.coords t) := fun h => by have := (hcondFirst t).mp h; omega
  have hc2 : k0_cond2 (grid0.coords t) = 1#1 := (hcondCast t).mpr (by omega)
  have hc3 : ¬condFifteen (grid0.coords t) := fun h => by have := (hcondFifteen t).mp h; omega
  have hc4 : ¬k0_cond4 (grid0.coords t) = 1#1 := fun h => by have := (hcondMid t).mp h; omega
  have hc5 : ¬k0_cond5 (grid0.coords t) = 1#1 := fun h => by have := (hcondOut t).mp h; omega
  iintro ⟨⟨⟨%abf, %dv, %s1, %s2, %xw, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRunB (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv).2.2 Set.univ _)
  isplitl [H0]; · iexact H0
  isplitl [H1]; · iexact H1
  isplitl [HS0]; · iexact HS0
  isplitl [HS1]; · iexact HS1
  iintro ⟨H0, H1, HS0, HS1⟩
  isplitl [HS0 HS1 HS2 HS3 HS4 Hg]
  · isplitr [Hg]
    · iexists (sc0.view.read (Elt F) (sc0.view.writes (Elt F) ((Memref.isWhole_whole cc0_scratch0).unread abf) (kernelRunB (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv).1)),
        (sc1.view.read (Elt F) (sc1.view.writes (Elt F) ((Memref.isWhole_whole cc0_scratch1).unread dv) (kernelRunB (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv).2.1)), s1, s2, xw
      isplitr
      · ipureintro
        have eL8 := runB_L8 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv
        have eL9 := runB_L9 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv
        simp only [eL8, eL9]
        exact inv_cast (Aarr m c) (Xarr m c) (W1arr m c) (WCarr m c) t (by omega) hI sc0.view _ (Memref.IsWhole.read_unread _ abf) sc1.view _ (Memref.IsWhole.read_unread _ dv) _ _ _ _ xw (Or.inr ⟨h1, rfl⟩)
      isplitl [HS0]
      · unfold owns; iexists _; isplitr; swap; · iexact HS0
        ipureintro; rfl
      isplitl [HS1]
      · unfold owns; iexists _; isplitr; swap; · iexact HS1
        ipureintro; rfl
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

end Cert.KernelIdeal.Hand

end
-- ==== Proof.BodyC.lean ====
import proofs.«107370_g89885075570807_cont_sun_c4_768_25_alg».proof.Proof.FrameData
import proofs.«107370_g89885075570807_cont_sun_c4_768_25_alg».proof.Proof.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Point 15: the last 256 rows of the adjacency copy and of the scaling vector, then the first support written whole from
    the now complete scaling vector. -/
theorem sound_C (c : Dev nD) (t : Fin cfg0.N) (h15 : t.val = 15) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [Phi_castSucc, Phi_succ, leaves0, leaves1, leaves2, leaves3, leaves4, leaves5_idle m c t (by omega), leaves6_idle m c t (by omega)]
  rw [iblk0_eq m c t (by omega), iblk1_eq m c t (by omega)]
  unfold PhiS
  have hc1 : ¬condFirst (grid0.coords t) := fun h => by have := (hcondFirst t).mp h; omega
  have hc2 : k0_cond2 (grid0.coords t) = 1#1 := (hcondCast t).mpr (by omega)
  have hc3 : condFifteen (grid0.coords t) := (hcondFifteen t).mpr (by omega)
  have hc4 : ¬k0_cond4 (grid0.coords t) = 1#1 := fun h => by have := (hcondMid t).mp h; omega
  have hc5 : ¬k0_cond5 (grid0.coords t) = 1#1 := fun h => by have := (hcondOut t).mp h; omega
  iintro ⟨⟨⟨%abf, %dv, %s1, %s2, %xw, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRunC (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv xw).2.2.2 Set.univ _)
  isplitl [H0]; · iexact H0
  isplitl [H1]; · iexact H1
  isplitl [HS0]; · iexact HS0
  isplitl [HS1]; · iexact HS1
  isplitl [HS2]; · iexists _; iexact HS2
  isplitl [HS4]; · iexact HS4
  iintro ⟨H0, H1, HS0, HS1, ⟨%f10, HS2⟩, HS4⟩
  isplitl [HS0 HS1 HS2 HS3 HS4 Hg]
  · isplitr [Hg]
    · iexists (sc0.view.read (Elt F) (sc0.view.writes (Elt F) ((Memref.isWhole_whole cc0_scratch0).unread abf) (kernelRunC (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv xw).1)),
        (sc1.view.read (Elt F) (sc1.view.writes (Elt F) ((Memref.isWhole_whole cc0_scratch1).unread dv) (kernelRunC (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv xw).2.1)),
        (sc2.view.read (Elt F) (sc2.view.writes (Elt F) f10 (kernelRunC (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv xw).2.2.1)), s2, xw
      isplitr
      · ipureintro
        have eL8 := runC_L8 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv xw
        have eL9 := runC_L9 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv xw
        have eL10 := runC_L10 c (grid0.coords t) (ms0 t) (hs0 t) (ms1 t) (hs1 t) (ms2 t) (hs2 t) (ms3 t) (hs3 t) (ms4 t) (hs4 t) (ms5 t) (hs5 t) (ms6 t) (hs6 t) sc0 (Memref.isWhole_whole cc0_scratch0) sc1 (Memref.isWhole_whole cc0_scratch1) sc2 (Memref.isWhole_whole cc0_scratch2) sc3 (Memref.isWhole_whole cc0_scratch3) sc4 (Memref.isWhole_whole cc0_scratch4) hc1 hc2 hc3 hc4 hc5 (ablk (Aarr m c) (2 * t.val)) (ablk (Aarr m c) (2 * t.val + 1)) abf dv xw
        simp only [eL8, eL9, eL10]
        rw [read_writes_unit_zero sc2.view f10 hz2]
        exact inv_fifteen (Aarr m c) (Xarr m c) (W1arr m c) (WCarr m c) t h15 hI sc0.view _ (Memref.IsWhole.read_unread _ abf) sc1.view _ (Memref.IsWhole.read_unread _ dv) _ _ _ _ _ rfl
      isplitl [HS0]
      · unfold owns; iexists _; isplitr; swap; · iexact HS0
        ipureintro; rfl
      isplitl [HS1]
      · unfold owns; iexists _; isplitr; swap; · iexact HS1
        ipureintro; rfl
      isplitl [HS2]
      · unfold owns; iexists _; isplitr; swap; · iexact HS2
        ipureintro; rfl
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

end Cert.KernelIdeal.Hand

end
-- ==== Proof.BodyD.lean ====
import proofs.«107370_g89885075570807_cont_sun_c4_768_25_alg».proof.Proof.FrameData
import proofs.«107370_g89885075570807_cont_sun_c4_768_25_alg».proof.Proof.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- the run of points 16..23 at point `t`, on the memrefs the pipeline passes -/
abbrev runDt (c : Dev nD) (t : Fin cfg0.N) (hc1 : ¬condFirst (grid0.coords t)) (hc2 : ¬k0_cond2 (grid0.coords t) = 1#1) (hc3 : ¬condFifteen (grid0.coords t)) (hc4 : k0_cond4 (grid0.coords t) = 1#1) (hc5 : ¬k0_cond5 (grid0.coords t) = 1#1) (wc : Vec F S256x256 .bf16)
    (abf : Vec F S4096x4096 .bf16) (dv : Vec F S4096 .f32) (s1 s2 : Vec F S4096x256 .bf16) :=
  kernelRunD (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) hc1 hc2 hc3 hc4 hc5 wc abf dv s1 s2

set_option maxHeartbeats 4000000 in
/-- Points 16..23: the body extends the second support by 512 rows and keeps everything else. -/
theorem sound_D (c : Dev nD) (t : Fin cfg0.N) (h16 : 16 ≤ t.val) (h24 : t.val < 24) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [Phi_castSucc, Phi_succ, leaves0, leaves1, leaves2, leaves3, leaves4, leaves5_idle m c t (by omega), leaves6_idle m c t (by omega)]
  rw [iblk4_eq]
  unfold PhiS
  have hc1 : ¬condFirst (grid0.coords t) := fun h => by have := (hcondFirst t).mp h; omega
  have hc2 : ¬k0_cond2 (grid0.coords t) = 1#1 := fun h => by have := (hcondCast t).mp h; omega
  have hc3 : ¬condFifteen (grid0.coords t) := fun h => by have := (hcondFifteen t).mp h; omega
  have hc4 : k0_cond4 (grid0.coords t) = 1#1 := (hcondMid t).mpr (by omega)
  have hc5 : ¬k0_cond5 (grid0.coords t) = 1#1 := fun h => by have := (hcondOut t).mp h; omega
  iintro ⟨⟨⟨%abf, %dv, %s1, %s2, %xw, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((runDt c t hc1 hc2 hc3 hc4 hc5 (WCarr m c) abf dv s1 s2).2 Set.univ _)
  isplitl [H4]; · iexact H4
  isplitl [HS0]; · iexact HS0
  isplitl [HS1]; · iexact HS1
  isplitl [HS2]; · iexact HS2
  isplitl [HS3]; · iexact HS3
  iintro ⟨H4, HS0, HS1, HS2, HS3⟩
  isplitl [HS0 HS1 HS2 HS3 HS4 Hg]
  · isplitr [Hg]
    · iexists abf, dv, s1, (sc3.view.read (Elt F) (sc3.view.writes (Elt F) ((Memref.isWhole_whole cc0_scratch3).unread s2) (runDt c t hc1 hc2 hc3 hc4 hc5 (WCarr m c) abf dv s1 s2).1)), xw
      isplitr
      · ipureintro
        rw [runD_L11]
        exact inv_mid (Aarr m c) (Xarr m c) (W1arr m c) (WCarr m c) t h16 h24 hI sc3.view _ (Memref.IsWhole.read_unread _ s2) _ _ _
      isplitl [HS0]; · iexact HS0
      isplitl [HS1]; · iexact HS1
      isplitl [HS2]; · iexact HS2
      isplitl [HS3]
      · unfold owns; iexists _; isplitr; swap; · iexact HS3
        ipureintro; rfl
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  iexists _; iexact H6

end Cert.KernelIdeal.Hand

end
-- ==== Proof.BodyE.lean ====
import proofs.«107370_g89885075570807_cont_sun_c4_768_25_alg».proof.Proof.FrameData
import proofs.«107370_g89885075570807_cont_sun_c4_768_25_alg».proof.Proof.Pieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- the run of points 24..31 at point `t`, on the memrefs the pipeline passes -/
abbrev runEt (c : Dev nD) (t : Fin cfg0.N) (hc1 : ¬condFirst (grid0.coords t)) (hc2 : ¬k0_cond2 (grid0.coords t) = 1#1) (hc3 : ¬condFifteen (grid0.coords t)) (hc4 : ¬k0_cond4 (grid0.coords t) = 1#1) (hc5 : k0_cond5 (grid0.coords t) = 1#1)
    (abf : Vec F S4096x4096 .bf16) (dv : Vec F S4096 .f32) (s2 : Vec F S4096x256 .bf16) :=
  kernelRunE (F := F) c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) hc1 hc2 hc3 hc4 hc5 abf dv s2

set_option maxHeartbeats 4000000 in
/-- Points 24..31: the body stores the two results' 512-row blocks, which are the closed forms' blocks, and keeps the scratch. -/
theorem sound_E (c : Dev nD) (t : Fin cfg0.N) (h24 : 24 ≤ t.val) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [Phi_castSucc, Phi_succ, leaves0, leaves1, leaves2, leaves3, leaves4, leaves5_live m c t (by omega), leaves6_live m c t (by omega)]

  unfold PhiS
  have hc1 : ¬condFirst (grid0.coords t) := fun h => by have := (hcondFirst t).mp h; omega
  have hc2 : ¬k0_cond2 (grid0.coords t) = 1#1 := fun h => by have := (hcondCast t).mp h; omega
  have hc3 : ¬condFifteen (grid0.coords t) := fun h => by have := (hcondFifteen t).mp h; omega
  have hc4 : ¬k0_cond4 (grid0.coords t) = 1#1 := fun h => by have := (hcondMid t).mp h; omega
  have hc5 : k0_cond5 (grid0.coords t) = 1#1 := (hcondOut t).mpr (by omega)
  iintro ⟨⟨⟨%abf, %dv, %s1, %s2, %xw, %hI, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩⟩
  iapply ((runEt c t hc1 hc2 hc3 hc4 hc5 abf dv s2).2.2 Set.univ _)
  isplitl [H5]; · iexists _; iexact H5
  isplitl [H6]; · iexists _; iexact H6
  isplitl [HS0]; · iexact HS0
  isplitl [HS1]; · iexact HS1
  isplitl [HS3]; · iexact HS3
  iintro ⟨⟨%f6, H5⟩, ⟨%f7, H6⟩, HS0, HS1, HS3⟩
  isplitl [HS0 HS1 HS2 HS3 HS4 Hg]
  · isplitr [Hg]
    · iexists abf, dv, s1, s2, xw
      isplitr
      · ipureintro
        exact (inv_out (Aarr m c) (Xarr m c) (W1arr m c) (WCarr m c) t h24 hI (k0_off8_inb _ hc5) (k0_off9_inb _ hc5)).1
      isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro
    rw [runE_L6, read_writes_unit_zero (ms5 t).view f6 hz2]
    exact (inv_out (Aarr m c) (Xarr m c) (W1arr m c) (WCarr m c) t h24 hI (k0_off8_inb _ hc5) (k0_off9_inb _ hc5)).2.1
  unfold owns; iexists _; isplitr; swap; · iexact H6
  ipureintro
  rw [runE_L7, read_writes_unit_zero (ms6 t).view f7 hz2]
  exact (inv_out (Aarr m c) (Xarr m c) (W1arr m c) (WCarr m c) t h24 hI (k0_off8_inb _ hc5) (k0_off9_inb _ hc5)).2.2

end Cert.KernelIdeal.Hand

end
-- ==== Proof.Final.lean ====
import proofs.«107370_g89885075570807_cont_sun_c4_768_25_alg».proof.Proof.FrameData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The two result arrays after the run: the eight blocks written back at the points 24..31 tile each array, and block
`b` of the closed form `Zfst` (`Zsnd`) is `Z5 b` (`Z6 b`), so each array ends holding its closed form. -/

/-- a point that writes window 5's block back is one of the last eight -/
theorem ge_of_flush5 (t : Fin cfg0.N) (hf : (cfg0.win 5).flush t = true) : 24 ≤ t.val := by
  by_contra h
  rw [noFlush5_lt t (by omega)] at hf
  exact Bool.false_ne_true hf

/-- What point `t` writes back into the first result array is block `t` of `Zfst`: the buffer holds `Z5 (t - 24)`, the block sits at rows `512 (t - 24) ..` and all 128 columns, and `Zfst` at row `512 b + r` (`r < 512`) is `Z5 b` at row `r`. -/
theorem flushed5_eq (c : Dev nD) (t : Fin cfg0.N) (hf : (cfg0.win 5).flush t = true) :
    (dats m 0 c).flushed 5 t = ((cfg0.win 5).blk t).view.read (Elt F) (Zfst (Aarr m c) (Xarr m c) (W1arr m c) (WCarr m c) : S4096x128.Idx → Elt F .f32) := by
  have ht : 24 ≤ t.val := ge_of_flush5 t hf
  have hN : t.val < 32 := lt_of_lt_of_eq t.isLt N_0
  have hidx := index5_ge t ht
  have i0 : (cfg0.win 5).index t (0 : Fin 2) = t.val - 24 := congrFun hidx 0
  have i1 : (cfg0.win 5).index t (1 : Fin 2) = 0 := congrFun hidx 1
  show (cfg0.win 5).cut (grid0.coords t) ((dats m 0 c).after 5 t) = _
  rw [after5]
  funext y
  have hy0 : (y 0).val < 512 := (y 0).isLt
  have hy1 : (y 1).val < 128 := (y 1).isLt
  show Z5 (Aarr m c) (Xarr m c) (W1arr m c) (WCarr m c) (t.val - 24) y = Zfst (Aarr m c) (Xarr m c) (W1arr m c) (WCarr m c) (((cfg0.win 5).blk t).view.emb y)
  -- the block's element `y` sits in the array at row `512 (t - 24) + y 0` and column `y 1`
  have e0 : ((((cfg0.win 5).blk t).view.emb y) 0).val = 512 * (t.val - 24) + (y 0).val := by
    show (cfg0.win 5).index t (0 : Fin 2) * 512 + 1 * (y 0).val = _
    omega
  have e1 : ((((cfg0.win 5).blk t).view.emb y) 1).val = (y 1).val := by
    show (cfg0.win 5).index t (1 : Fin 2) * 128 + 1 * (y 1).val = _
    omega
  -- that row's quotient by 512 is the block number and its remainder the row inside the block
  have hb : ((((cfg0.win 5).blk t).view.emb y) 0).val / 512 = t.val - 24 := by rw [e0]; omega
  have hyy : (ValueIdx.ix2 ⟨((((cfg0.win 5).blk t).view.emb y) 0).val % 512, Nat.mod_lt _ (by norm_num)⟩ ((((cfg0.win 5).blk t).view.emb y) 1) : S512x128.Idx) = y := by
    funext a; apply Fin.ext
    match a with
    | ⟨0, _⟩ => show ((((cfg0.win 5).blk t).view.emb y) 0).val % 512 = (y 0).val; rw [e0]; omega
    | ⟨1, _⟩ => exact e1
  exact (congr (congrArg (Z5 (Aarr m c) (Xarr m c) (W1arr m c) (WCarr m c)) hb) hyy).symm

/-- Every index of the first result array is in the block of a point that writes back: row `r` in that of point `24 + r / 512`. -/
theorem cover5 (i : S4096x128.Idx) : ∃ t : Fin cfg0.N, (cfg0.win 5).flush t = true ∧ i ∈ ((cfg0.win 5).blk t).view.set := by
  have hi0 : (i 0).val < 4096 := (i 0).isLt
  have hi1 : (i 1).val < 128 := (i 1).isLt
  have hlt : 24 + (i 0).val / 512 < cfg0.N := by rw [show cfg0.N = 32 from N_0]; omega
  obtain ⟨t, tv⟩ : ∃ t : Fin cfg0.N, t.val = 24 + (i 0).val / 512 := ⟨⟨_, hlt⟩, rfl⟩
  have ht : 24 ≤ t.val := by omega
  refine ⟨t, flush5_ge t ht, ?_⟩
  have hidx := index5_ge t ht
  have i0 : win0_5.index t (0 : Fin 2) = t.val - 24 := congrFun hidx 0
  have i1 : win0_5.index t (1 : Fin 2) = 0 := congrFun hidx 1
  show i ∈ ((View.whole main_v3_0).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    omega
  | ⟨1, _⟩ =>
    show win0_5.index t (1 : Fin 2) * 128 ≤ (i 1).val ∧ (i 1).val < win0_5.index t (1 : Fin 2) * 128 + 128
    omega

theorem final5 (c : Dev nD) : (dats m 0 c).arrAt 5 cfg0.N = (Zfst (Aarr m c) (Xarr m c) (W1arr m c) (WCarr m c) : S4096x128.Idx → Elt F .f32) := by
  exact (dats m 0 c).arrAt_eq_of_cover 5 _ (flushed5_eq m c) cover5

/-- a point that writes window 6's block back is one of the last eight -/
theorem ge_of_flush6 (t : Fin cfg0.N) (hf : (cfg0.win 6).flush t = true) : 24 ≤ t.val := by
  by_contra h
  rw [noFlush6_lt t (by omega)] at hf
  exact Bool.false_ne_true hf

/-- What point `t` writes back into the second result array is block `t` of `Zsnd`: the buffer holds `Z6 (t - 24)`, the block sits at rows `512 (t - 24) ..` and all 128 columns, and `Zsnd` at row `512 b + r` (`r < 512`) is `Z6 b` at row `r`. -/
theorem flushed6_eq (c : Dev nD) (t : Fin cfg0.N) (hf : (cfg0.win 6).flush t = true) :
    (dats m 0 c).flushed 6 t = ((cfg0.win 6).blk t).view.read (Elt F) (Zsnd (Aarr m c) (Xarr m c) (W1arr m c) (WCarr m c) : S4096x128.Idx → Elt F .f32) := by
  have ht : 24 ≤ t.val := ge_of_flush6 t hf
  have hN : t.val < 32 := lt_of_lt_of_eq t.isLt N_0
  have hidx := index6_ge t ht
  have i0 : (cfg0.win 6).index t (0 : Fin 2) = t.val - 24 := congrFun hidx 0
  have i1 : (cfg0.win 6).index t (1 : Fin 2) = 0 := congrFun hidx 1
  show (cfg0.win 6).cut (grid0.coords t) ((dats m 0 c).after 6 t) = _
  rw [after6]
  funext y
  have hy0 : (y 0).val < 512 := (y 0).isLt
  have hy1 : (y 1).val < 128 := (y 1).isLt
  show Z6 (Aarr m c) (Xarr m c) (W1arr m c) (WCarr m c) (t.val - 24) y = Zsnd (Aarr m c) (Xarr m c) (W1arr m c) (WCarr m c) (((cfg0.win 6).blk t).view.emb y)
  -- the block's element `y` sits in the array at row `512 (t - 24) + y 0` and column `y 1`
  have e0 : ((((cfg0.win 6).blk t).view.emb y) 0).val = 512 * (t.val - 24) + (y 0).val := by
    show (cfg0.win 6).index t (0 : Fin 2) * 512 + 1 * (y 0).val = _
    omega
  have e1 : ((((cfg0.win 6).blk t).view.emb y) 1).val = (y 1).val := by
    show (cfg0.win 6).index t (1 : Fin 2) * 128 + 1 * (y 1).val = _
    omega
  -- that row's quotient by 512 is the block number and its remainder the row inside the block
  have hb : ((((cfg0.win 6).blk t).view.emb y) 0).val / 512 = t.val - 24 := by rw [e0]; omega
  have hyy : (ValueIdx.ix2 ⟨((((cfg0.win 6).blk t).view.emb y) 0).val % 512, Nat.mod_lt _ (by norm_num)⟩ ((((cfg0.win 6).blk t).view.emb y) 1) : S512x128.Idx) = y := by
    funext a; apply Fin.ext
    match a with
    | ⟨0, _⟩ => show ((((cfg0.win 6).blk t).view.emb y) 0).val % 512 = (y 0).val; rw [e0]; omega
    | ⟨1, _⟩ => exact e1
  exact (congr (congrArg (Z6 (Aarr m c) (Xarr m c) (W1arr m c) (WCarr m c)) hb) hyy).symm

/-- Every index of the second result array is in the block of a point that writes back: row `r` in that of point `24 + r / 512`. -/
theorem cover6 (i : S4096x128.Idx) : ∃ t : Fin cfg0.N, (cfg0.win 6).flush t = true ∧ i ∈ ((cfg0.win 6).blk t).view.set := by
  have hi0 : (i 0).val < 4096 := (i 0).isLt
  have hi1 : (i 1).val < 128 := (i 1).isLt
  have hlt : 24 + (i 0).val / 512 < cfg0.N := by rw [show cfg0.N = 32 from N_0]; omega
  obtain ⟨t, tv⟩ : ∃ t : Fin cfg0.N, t.val = 24 + (i 0).val / 512 := ⟨⟨_, hlt⟩, rfl⟩
  have ht : 24 ≤ t.val := by omega
  refine ⟨t, flush6_ge t ht, ?_⟩
  have hidx := index6_ge t ht
  have i0 : win0_6.index t (0 : Fin 2) = t.val - 24 := congrFun hidx 0
  have i1 : win0_6.index t (1 : Fin 2) = 0 := congrFun hidx 1
  show i ∈ ((View.whole main_v3_1).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 128 ≤ (i 1).val ∧ (i 1).val < win0_6.index t (1 : Fin 2) * 128 + 128
    omega

theorem final6 (c : Dev nD) : (dats m 0 c).arrAt 6 cfg0.N = (Zsnd (Aarr m c) (Xarr m c) (W1arr m c) (WCarr m c) : S4096x128.Idx → Elt F .f32) := by
  exact (dats m 0 c).arrAt_eq_of_cover 6 _ (flushed6_eq m c) cover6

end Cert.KernelIdeal.Hand

end
-- ==== Proof.LibFrameShared.lean ====
/-
  The frame run with a tracking invariant for a pipeline whose windows may share arrays: the windows' arrays need not be
  pairwise distinct, and how the buffers behind the arrays make the proof data's arrays at entry is a hypothesis.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section FrameShared

variable {Λ₀ : SL.Sem.Labels} {P : Type} [Fintype P] [DecidableEq P] [∀ e, Nonempty (Val e)]

local notation "𝕄" => MT nD τ sig Unit Val ℕ (UR sig nD τ) ℕ

/-- The frame run with a tracking invariant, for a pipeline with no prefetched table whose windows may share arrays:
    the layout facts are given one by one, the arrays need not be pairwise distinct, and the entry split of the
    buffers behind the arrays into the proof data's arrays is the hypothesis `hsplit`. The class invariant yields the
    data's invariant before point 0 and is yielded back after the last point; the conclusion is `FramePost`. -/
theorem θ_run_frame_track_shared
    (cfgs : P → Cfg sig Λ₀) (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => (show _ ⊢ ΦA (cfgs p).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2.2⟩)

end FrameShared

end Pipeline

end Idealize.ShloMosaic
-- ==== Proof.LibShareSplit.lean ====
/-
  The entry split of the buffers behind a pipeline's arrays when exactly two input windows sit on one array: that
  array's full share is divided between the two windows, every other array is held whole by its one window.
-/
import Idealize.ShloMosaic.Lib.Pipeline.Launch

noncomputable section

namespace Idealize.ShloMosaic

open Idealize.SL
open Idealize.SL.BI (sProp bigSep bigSep_congr bigSep_erase bigSep_univ_split)
open scoped Idealize.SL.BI
open Idealize.SL.BI.BIBase Idealize.SL.BI.Laws Idealize.SL.Sem Idealize.SL.ProofMode
open Idealize.SL.RA
open PCS
open TcCoe

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

namespace Pipeline

variable {Λ₀ : SL.Sem.Labels}

/-- A points-to at a buffer and the contents `V` assigns it, carried along an equality of buffers. -/
theorem pointsTo_ref_congr {c : Dev nD} (V : (b : Ref sig .tc) → Buf Val ((c.tc : Thread nD τ).loc b))
    (q : PosShare TreeShare) {b b' : Ref sig .tc} (h : b = b') :
    ((((c.tc : Thread nD τ).loc b) ↦{q} V b : sProp 𝕄)) = (((c.tc : Thread nD τ).loc b') ↦{q} V b') := by
  subst h; rfl

/-- The entry split for a pipeline in which exactly the two windows `w₀ ≠ w₁` sit on one array (`href`) and the windows
    other than `w₀` sit on pairwise distinct arrays (`hinj`): the buffers behind the arrays, each whole at the full share at
    the contents `V`, make the proof data's arrays at the contents `F = V ∘ arrRef`, provided the full share is the
    composite of the shares of `w₀` and `w₁` (`hq`) and every other window holds the full share (`hfull`). -/
theorem arrays_split_pair {cfg : Cfg sig Λ₀} {c : Dev nD} (dat : Dat τ Val Ix Name U Lvl cfg c)
    (w₀ w₁ : Fin cfg.W) (hne : w₀ ≠ w₁)
    (href : arrRef cfg.spec w₀ = arrRef cfg.spec w₁)
    (hinj : ∀ w w' : Fin cfg.W, w ≠ w₀ → w' ≠ w₀ → arrRef cfg.spec w = arrRef cfg.spec w' → w = w')
    (harr : ∀ w, (cfg.spec w).arr.IsWhole)
    (hq : fullShare ∈ dat.share w₀ ·? dat.share w₁)
    (hfull : ∀ w, w ≠ w₀ → w ≠ w₁ → dat.share w = fullShare)
    (V : (b : Ref sig .tc) → Buf Val ((c.tc : Thread nD τ).loc b))
    (F : (w : Fin cfg.W) → Buf Val ((cfg.spec w).arr.view.loc (c.tc : Thread nD τ)))
    (hF : ∀ w, F w = V (arrRef cfg.spec w)) :
    (arrBufs cfg.spec c V : sProp 𝕄) ⊢ dat.arrays F := by
  classical
  -- the proof data's arrays, window by window, each a whole buffer at the contents `V` gives it
  have hΦ : dat.arrays F = bigSep Finset.univ fun w : Fin cfg.W =>
      (((c.tc : Thread nD τ).loc (arrRef cfg.spec w)) ↦{dat.share w} V (arrRef cfg.spec w) : sProp 𝕄) := by
    unfold Dat.arrays
    exact bigSep_congr fun w _ => by rw [(harr w).set_eq_univ, hF]
  -- the arrays are those of the windows other than `w₀`, pairwise distinct
  have himg : Finset.univ.image (arrRef cfg.spec) = (Finset.univ.erase w₀).image (arrRef cfg.spec) := by
    ext b
    constructor
    · intro hb
      obtain ⟨w, -, rfl⟩ := Finset.mem_image.mp hb
      by_cases h : w = w₀
      · exact Finset.mem_image.mpr ⟨w₁, Finset.mem_erase.mpr ⟨hne.symm, Finset.mem_univ _⟩, by rw [h, href]⟩
      · exact Finset.mem_image.mpr ⟨w, Finset.mem_erase.mpr ⟨h, Finset.mem_univ _⟩, rfl⟩
    · intro hb
      obtain ⟨w, -, rfl⟩ := Finset.mem_image.mp hb
      exact Finset.mem_image.mpr ⟨w, Finset.mem_univ _, rfl⟩
  have hon : Set.InjOn (arrRef cfg.spec) (Finset.univ.erase w₀ : Finset (Fin cfg.W)) := fun w hw w' hw' e =>
    hinj w w' (Finset.ne_of_mem_erase (Finset.mem_coe.mp hw)) (Finset.ne_of_mem_erase (Finset.mem_coe.mp hw')) e
  have hw₁ : w₁ ∈ Finset.univ.erase w₀ := Finset.mem_erase.mpr ⟨hne.symm, Finset.mem_univ _⟩
  have hL : (arrBufs cfg.spec c V : sProp 𝕄)
      = iprop((((c.tc : Thread nD τ).loc (arrRef cfg.spec w₁)) ↦{fullShare} V (arrRef cfg.spec w₁))
          ∗ bigSep ((Finset.univ.erase w₀).erase w₁) fun w : Fin cfg.W =>
              (((c.tc : Thread nD τ).loc (arrRef cfg.spec w)) ↦{fullShare} V (arrRef cfg.spec w) : sProp 𝕄)) := by
    unfold arrBufs
    rw [himg, BI.bigSep_image_of_injOn hon, bigSep_erase hw₁]
    rfl
  have hR : (bigSep Finset.univ fun w : Fin cfg.W =>
        (((c.tc : Thread nD τ).loc (arrRef cfg.spec w)) ↦{dat.share w} V (arrRef cfg.spec w) : sProp 𝕄))
      = iprop((((c.tc : Thread nD τ).loc (arrRef cfg.spec w₀)) ↦{dat.share w₀} V (arrRef cfg.spec w₀))
          ∗ (((c.tc : Thread nD τ).loc (arrRef cfg.spec w₁)) ↦{dat.share w₁} V (arrRef cfg.spec w₁))
          ∗ bigSep ((Finset.univ.erase w₀).erase w₁) fun w : Fin cfg.W =>
              (((c.tc : Thread nD τ).loc (arrRef cfg.spec w)) ↦{dat.share w} V (arrRef cfg.spec w) : sProp 𝕄)) := by
    rw [bigSep_univ_split w₀, bigSep_erase hw₁]
    rfl
  have hrest : (bigSep ((Finset.univ.erase w₀).erase w₁) fun w : Fin cfg.W =>
        (((c.tc : Thread nD τ).loc (arrRef cfg.spec w)) ↦{fullShare} V (arrRef cfg.spec w) : sProp 𝕄))
      = bigSep ((Finset.univ.erase w₀).erase w₁) fun w : Fin cfg.W =>
        (((c.tc : Thread nD τ).loc (arrRef cfg.spec w)) ↦{dat.share w} V (arrRef cfg.spec w) : sProp 𝕄) :=
    bigSep_congr fun w hw => by
      rw [hfull w (Finset.ne_of_mem_erase (Finset.mem_of_mem_erase hw)) (Finset.ne_of_mem_erase hw)]
  rw [hΦ, hL, hR, hrest, pointsTo_ref_congr V (dat.share w₀) href]
  iintro ⟨H, HR⟩
  ihave H2 := (pointsTo_share hq).1 $$ H
  icases H2 with ⟨H0, H1⟩
  isplitl [H0]; · iexact H0
  isplitl [H1]; · iexact H1
  iexact HR

/-- `arrays_split_pair` with the shared array's two windows inputs holding the two halves of the full share
    (`dat.q w₀ = fullShare.left`, `dat.q w₁ = fullShare.right`), every other input window holding the full share. -/
theorem arrays_split_pair_halves {cfg : Cfg sig Λ₀} {c : Dev nD} (dat : Dat τ Val Ix Name U Lvl cfg c)
    (w₀ w₁ : Fin cfg.W) (hne : w₀ ≠ w₁)
    (href : arrRef cfg.spec w₀ = arrRef cfg.spec w₁)
    (hinj : ∀ w w' : Fin cfg.W, w ≠ w₀ → w' ≠ w₀ → arrRef cfg.spec w = arrRef cfg.spec w' → w = w')
    (harr : ∀ w, (cfg.spec w).arr.IsWhole)
    (hin₀ : (cfg.win w₀).isOut = false) (hin₁ : (cfg.win w₁).isOut = false)
    (hq₀ : dat.q w₀ = fullShare.left) (hq₁ : dat.q w₁ = fullShare.right)
    (hqfull : ∀ w, w ≠ w₀ → w ≠ w₁ → (cfg.win w).isOut = false → dat.q w = fullShare)
    (V : (b : Ref sig .tc) → Buf Val ((c.tc : Thread nD τ).loc b))
    (F : (w : Fin cfg.W) → Buf Val ((cfg.spec w).arr.view.loc (c.tc : Thread nD τ)))
    (hF : ∀ w, F w = V (arrRef cfg.spec w)) :
    (arrBufs cfg.spec c V : sProp 𝕄) ⊢ dat.arrays F := by
  refine arrays_split_pair dat w₀ w₁ hne href hinj harr ?_ ?_ V F hF
  · unfold Dat.share
    rw [hin₀, hin₁, hq₀, hq₁]
    exact PosShare.mem_left_op_right fullShare
  · intro w h0 h1
    unfold Dat.share
    cases h : (cfg.win w).isOut
    · rw [if_neg (by simp), hqfull w h0 h1 h]
    · rw [if_pos rfl]

end Pipeline

end Idealize.ShloMosaic
-- ==== Proof.Frame.lean ====
import proofs.«107370_g89885075570807_cont_sun_c4_768_25_alg».proof.Proof.BodyA
import proofs.«107370_g89885075570807_cont_sun_c4_768_25_alg».proof.Proof.BodyB
import proofs.«107370_g89885075570807_cont_sun_c4_768_25_alg».proof.Proof.BodyC
import proofs.«107370_g89885075570807_cont_sun_c4_768_25_alg».proof.Proof.BodyD
import proofs.«107370_g89885075570807_cont_sun_c4_768_25_alg».proof.Proof.BodyE
import proofs.«107370_g89885075570807_cont_sun_c4_768_25_alg».proof.Proof.Final
import proofs.«107370_g89885075570807_cont_sun_c4_768_25_alg».proof.Proof.LibFrameShared
import proofs.«107370_g89885075570807_cont_sun_c4_768_25_alg».proof.Proof.LibShareSplit

/-!
The run of the whole program: the body's obligation at every grid point by its phase, the invariant's entry and exit,
the one adjacency array dealt to its two windows in halves, and the launch; then the frame claim and the two result
arrays' closed forms read off the run.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- the body at any point, by the point's phase -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  by_cases h15 : t.val = 15
  · exact sound_C m c t h15
  by_cases h14 : t.val ≤ 14
  · exact sound_B m c t (by omega) h14
  by_cases h24 : t.val < 24
  · exact sound_D m c t (by omega) h24
  · exact sound_E m c t (by omega)

theorem body_obligation (c : Dev nD) : BodyObligation (dats (F := F) m 0 c) (defs₀ (F := F)) Variants.none () Set.univ := fun t => by
  rw [bigSep_W0, bigSep_W0]
  exact sound_body m c t

/-- before the first point the scratch buffers hold anything -/
theorem hin (c : Dev nD) : Pipeline.ΦA spec0 c ⊢ (dats m 0 c).Φ 0 := by
  rw [show (dats m 0 c).Φ 0 = PhiS m c 0 from rfl, PhiA_eq]; unfold PhiS
  iintro ⟨⟨⟨%d0, H0⟩, ⟨%d1, H1⟩, ⟨%d2, H2⟩, ⟨%d3, H3⟩, ⟨%d4, H4⟩⟩, Hg⟩
  isplitr [Hg]
  · iexists d0, d1, d2, d3, d4
    isplitr; · ipureintro; exact inv_zero _ _ _ _ _ _ _ _ _
    isplitl [H0]; · iexact H0
    isplitl [H1]; · iexact H1
    isplitl [H2]; · iexact H2
    isplitl [H3]; · iexact H3
    iexact H4
  iexact Hg

/-- after the last point what they hold is forgotten -/
theorem hout (c : Dev nD) : (dats m 0 c).Φ (Fin.last cfg0.N) ⊢ Pipeline.ΦA spec0 c := by
  rw [show (dats m 0 c).Φ (Fin.last cfg0.N) = PhiS m c cfg0.N from rfl, PhiA_eq]; unfold PhiS
  iintro ⟨⟨%abf, %dv, %s1, %s2, %xw, -, H0, H1, H2, H3, H4⟩, Hg⟩
  isplitr [Hg]
  · isplitl [H0]; · iexists _; iexact H0
    isplitl [H1]; · iexists _; iexact H1
    isplitl [H2]; · iexists _; iexact H2
    isplitl [H3]; · iexists _; iexact H3
    iexists _; iexact H4
  iexact Hg

/-- the adjacency's buffer is dealt to the two windows on it in halves; every other array goes whole to its window -/
theorem hsplit (c : Dev nD) :
    (Pipeline.arrBufs spec0 c (V m c) : sProp 𝕄) ⊢ (dats m 0 c).arrays ((dats m 0 c).arrAt · 0) :=
  Pipeline.arrays_split_pair_halves (dats m 0 c) 0 1 (by decide) rfl (by decide) arr_whole0 rfl rfl rfl rfl
    (fun w h0 h1 _ => by fin_cases w <;> first | exact absurd rfl h0 | exact absurd rfl h1 | rfl) (V m c) _ (A_eq m c)

set_option backward.isDefEq.respectTransparency.types false in
/-- every weakly fair execution of @main terminates; each array of the pipeline ends at what the write-backs leave, every
    other unscoped buffer at what it held when the region was entered -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0 defs₀ Variants.none m ρ main
    (fun c => (body_obligation m c).loose) (fun _ _ => rfl) (V m) (hmain m Variants.none) (hsplit m) (hin m) (hout m)

/-- the run with the two results named and the arguments unchanged -/
theorem run_value : θ_run defs (onTc (τ := τ) (main (F := F))) ⟨m, fun _ => 0, ρ⟩ (fun r => ∀ c : Dev nD,
      r.2.mem ((c.tc : Thread nD τ).loc main_v3_0) = (Zfst (Aarr m c) (Xarr m c) (W1arr m c) (WCarr m c) : S4096x128.Idx → Elt F .f32)
      ∧ r.2.mem ((c.tc : Thread nD τ).loc main_v3_1) = (Zsnd (Aarr m c) (Xarr m c) (W1arr m c) (WCarr m c) : S4096x128.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans (final5 m c), ((h c).1 6).trans (final6 m c),
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).1 3).trans (((dats m 0 c).arrAt_in 3 rfl _).trans ((A_eq m c 3).trans (V_main_arg2 m c))),
     ((h c).2 main_arg3 (Pipeline.mem_restRefs_of main_arg3 rfl (by decide))).trans (V_main_arg3 m c),
     ((h c).2 main_arg4 (Pipeline.mem_restRefs_of main_arg4 rfl (by decide))).trans (V_main_arg4 m c)⟩) (run_main m ρ)

/-- the frame claim, at any instance -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2.2) (run_value m ρ)

end Cert.KernelIdeal.Hand

end
-- ==== Proof.FormulaDefs.lean ====
import Idealize.ShloMosaic.PureOps.Ideal
import Idealize.ShloMosaic.PureOps.Ideal.Laws

/-!
Two arrangements of a two-layer graph convolution over the extended reals, and their equality on finite inputs.

With `d i = 1 / sqrt (∑ k, a i k)` where that row sum is positive and `0` elsewhere:
the first arrangement scales the adjacency once, `an i j = a i j · d i · d j`, and multiplies by it three times;
the second never forms `an`: it scales the rows of each right factor by `d` before the product with `a` and the rows
of the product by `d` after it.  Both are the same real number when every entry is finite, by distributivity and
commutativity in ℝ; on the extended reals that needs the entries (and `d`) to be real.
-/

noncomputable section

namespace Cert.Formula

open Idealize.ShloMosaic

variable (a : Fin 4096 → Fin 4096 → EReal) (x : Fin 4096 → Fin 256 → EReal) (w1 : Fin 256 → Fin 256 → EReal)

/-- a row's sum -/
def rs (i : Fin 4096) : EReal := ∑ k : Fin 4096, a i k
/-- the scaling `d`: the inverse square root of a positive row sum, zero elsewhere -/
def dsc (i : Fin 4096) : EReal := if 0 < rs a i then Ideal.div 1 (Ideal.sqrt (rs a i)) else 0
/-- the features times the first weight -/
def xw (j : Fin 4096) (k : Fin 256) : EReal := ∑ l : Fin 256, x j l * w1 l k

/-! ### the first arrangement: the adjacency scaled once -/
def an (i j : Fin 4096) : EReal := a i j * dsc a i * dsc a j
def hid (i : Fin 4096) (k : Fin 256) : EReal := max (∑ j : Fin 4096, an a i j * xw x w1 j k) 0
def refOut (w : Fin 256 → Fin 128 → EReal) (i : Fin 4096) (c : Fin 128) : EReal :=
  ∑ j : Fin 4096, an a i j * ∑ k : Fin 256, hid a x w1 j k * w k c

/-! ### the second arrangement: the factors' rows scaled before and after each product -/
def s1 (j : Fin 4096) (k : Fin 256) : EReal := xw x w1 j k * dsc a j
def hk (i : Fin 4096) (k : Fin 256) : EReal := max ((∑ j : Fin 4096, a i j * s1 a x w1 j k) * dsc a i) 0
def s2 (wc : Fin 256 → Fin 256 → EReal) (j : Fin 4096) (c : Fin 256) : EReal :=
  (∑ k : Fin 256, hk a x w1 j k * wc k c) * dsc a j
def kerOut (wc : Fin 256 → Fin 256 → EReal) (i : Fin 4096) (c : Fin 256) : EReal :=
  (∑ j : Fin 4096, a i j * s2 a x w1 wc j c) * dsc a i

end Cert.Formula

end
-- ==== Proof.KernelAt.lean ====
import proofs.«107370_g89885075570807_cont_sun_c4_768_25_alg».proof.Proof.Spec
import proofs.«107370_g89885075570807_cont_sun_c4_768_25_alg».proof.Proof.FormulaDefs
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
The phased kernel's closed forms, read at an index over the extended reals, are the second arrangement of
`Cert.Formula`: every right factor's rows scaled by `d` before the product with the adjacency, the product's rows after it.
-/

noncomputable section

namespace Cert.KernelIdeal.Hand

open Idealize.ShloMosaic Idealize.ShloMosaic.TcCoe Idealize.ShloMosaic.ValueIdx
open Cert.KernelIdeal Cert.KernelIdeal.Gen

/-! ## Column layouts: a vector as a one-column matrix, and that column spread over the columns -/

section Column
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The three matrix products read at an index -/

theorem lhs_mmXW_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_mmXW_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_mmXW_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_mmXW_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- The product into the zero matrix, read at `(p, q)`: the sum over the contracted coordinate. -/
theorem mmXW_apply {φ₁ φ₂ : FTy} (x : FVec Ideal S4096x256 φ₁) (y : FVec Ideal S256x256 φ₂) (p : Fin 4096) (q : Fin 256) :
    matmul dot_S4096x256_S256x256_S4096x256_1_0_0_1_n_n none x y (constant (F := Ideal) S4096x256 .f32 0x00000000#32) (ix2 p q)
      = ∑ k : Fin 256, x (ix2 p k) * y (ix2 k q) := by
  refine (Ideal.matmul_constant_zero_apply dot_S4096x256_S256x256_S4096x256_1_0_0_1_n_n none x y (ix2 p q)).trans ?_
  rw [← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  have el : dot_S4096x256_S256x256_S4096x256_1_0_0_1_n_n.lhsIdx (ix2 p q) ((ValueIdx.contrEquiv1 dot_S4096x256_S256x256_S4096x256_1_0_0_1_n_n 256 rfl rfl).symm k) = ix2 p k := funext fun a => Fin.ext (by
    match a with
    | ⟨0, _⟩ => exact lhs_mmXW_0 _ _
    | ⟨1, _⟩ => exact (lhs_mmXW_1 _ _).trans hk)
  have er : dot_S4096x256_S256x256_S4096x256_1_0_0_1_n_n.rhsIdx (ix2 p q) ((ValueIdx.contrEquiv1 dot_S4096x256_S256x256_S4096x256_1_0_0_1_n_n 256 rfl rfl).symm k) = ix2 k q := funext fun a => Fin.ext (by
    match a with
    | ⟨0, _⟩ => exact (rhs_mmXW_0 _ _).trans hk
    | ⟨1, _⟩ => exact rhs_mmXW_1 _ _)
  rw [el, er]

theorem lhs_mmA_0 (i : S512x256.Idx) (q : dot_S512x4096_S4096x256_S512x256_1_0_0_1_n_n.contr.Idx) :
    (dot_S512x4096_S4096x256_S512x256_1_0_0_1_n_n.lhsIdx i q 0).val = (i 0).val := by
  unfold DotDims.lhsIdx
  rw [dif_neg (show ¬(0 : Fin S512x4096.rank) ∈ dot_S512x4096_S4096x256_S512x256_1_0_0_1_n_n.lhsBatch by decide), dif_pos (show (0 : Fin S512x4096.rank) ∈ dot_S512x4096_S4096x256_S512x256_1_0_0_1_n_n.lhsNonContracting by decide)]
  rfl
theorem lhs_mmA_1 (i : S512x256.Idx) (q : dot_S512x4096_S4096x256_S512x256_1_0_0_1_n_n.contr.Idx) :
    (dot_S512x4096_S4096x256_S512x256_1_0_0_1_n_n.lhsIdx i q 1).val = (q ⟨0, by decide⟩).val :=
  dot_S512x4096_S4096x256_S512x256_1_0_0_1_n_n.lhsIdx_val_of_single rfl i q
theorem rhs_mmA_0 (i : S512x256.Idx) (q : dot_S512x4096_S4096x256_S512x256_1_0_0_1_n_n.contr.Idx) :
    (dot_S512x4096_S4096x256_S512x256_1_0_0_1_n_n.rhsIdx i q 0).val = (q ⟨0, by decide⟩).val :=
  dot_S512x4096_S4096x256_S512x256_1_0_0_1_n_n.rhsIdx_val_of_single rfl i q
theorem rhs_mmA_1 (i : S512x256.Idx) (q : dot_S512x4096_S4096x256_S512x256_1_0_0_1_n_n.contr.Idx) :
    (dot_S512x4096_S4096x256_S512x256_1_0_0_1_n_n.rhsIdx i q 1).val = (i 1).val := by
  unfold DotDims.rhsIdx
  rw [dif_neg (show ¬(1 : Fin S4096x256.rank) ∈ dot_S512x4096_S4096x256_S512x256_1_0_0_1_n_n.rhsBatch by decide), dif_pos (show (1 : Fin S4096x256.rank) ∈ dot_S512x4096_S4096x256_S512x256_1_0_0_1_n_n.rhsNonContracting by decide)]
  rfl

/-- The product into the zero matrix, read at `(p, q)`: the sum over the contracted coordinate. -/
theorem mmA_apply {φ₁ φ₂ : FTy} (x : FVec Ideal S512x4096 φ₁) (y : FVec Ideal S4096x256 φ₂) (p : Fin 512) (q : Fin 256) :
    matmul dot_S512x4096_S4096x256_S512x256_1_0_0_1_n_n none x y (constant (F := Ideal) S512x256 .f32 0x00000000#32) (ix2 p q)
      = ∑ k : Fin 4096, x (ix2 p k) * y (ix2 k q) := by
  refine (Ideal.matmul_constant_zero_apply dot_S512x4096_S4096x256_S512x256_1_0_0_1_n_n none x y (ix2 p q)).trans ?_
  rw [← Equiv.sum_comp (ValueIdx.contrEquiv1 dot_S512x4096_S4096x256_S512x256_1_0_0_1_n_n 4096 rfl rfl).symm]
  refine Finset.sum_congr rfl fun k _ => ?_
  have hk := ValueIdx.contrEquiv1_symm_val dot_S512x4096_S4096x256_S512x256_1_0_0_1_n_n 4096 rfl rfl k
  have el : dot_S512x4096_S4096x256_S512x256_1_0_0_1_n_n.lhsIdx (ix2 p q) ((ValueIdx.contrEquiv1 dot_S512x4096_S4096x256_S512x256_1_0_0_1_n_n 4096 rfl rfl).symm k) = ix2 p k := funext fun a => Fin.ext (by
    match a with
    | ⟨0, _⟩ => exact lhs_mmA_0 _ _
    | ⟨1, _⟩ => exact (lhs_mmA_1 _ _).trans hk)
  have er : dot_S512x4096_S4096x256_S512x256_1_0_0_1_n_n.rhsIdx (ix2 p q) ((ValueIdx.contrEquiv1 dot_S512x4096_S4096x256_S512x256_1_0_0_1_n_n 4096 rfl rfl).symm k) = ix2 k q := funext fun a => Fin.ext (by
    match a with
    | ⟨0, _⟩ => exact (rhs_mmA_0 _ _).trans hk
    | ⟨1, _⟩ => exact rhs_mmA_1 _ _)
  rw [el, er]

theorem lhs_mmW_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem lhs_mmW_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
theorem rhs_mmW_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
theorem rhs_mmW_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The product into the zero matrix, read at `(p, q)`: the sum over the contracted coordinate. -/
theorem mmW_apply {φ₁ φ₂ : FTy} (x : FVec Ideal S512x256 φ₁) (y : FVec Ideal S256x256 φ₂) (p : Fin 512) (q : Fin 256) :
    matmul dot_S512x256_S256x256_S512x256_1_0_0_1_n_n none x y (constant (F := Ideal) S512x256 .f32 0x00000000#32) (ix2 p q)
      = ∑ k : Fin 256, x (ix2 p k) * y (ix2 k q) := by
  refine (Ideal.matmul_constant_zero_apply dot_S512x256_S256x256_S512x256_1_0_0_1_n_n none x y (ix2 p q)).trans ?_
  rw [← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 p q) ((ValueIdx.contrEquiv1 dot_S512x256_S256x256_S512x256_1_0_0_1_n_n 256 rfl rfl).symm k) = ix2 p k := funext fun a => Fin.ext (by
    match a with
    | ⟨0, _⟩ => exact lhs_mmW_0 _ _
    | ⟨1, _⟩ => exact (lhs_mmW_1 _ _).trans hk)
  have er : dot_S512x256_S256x256_S512x256_1_0_0_1_n_n.rhsIdx (ix2 p q) ((ValueIdx.contrEquiv1 dot_S512x256_S256x256_S512x256_1_0_0_1_n_n 256 rfl rfl).symm k) = ix2 k q := funext fun a => Fin.ext (by
    match a with
    | ⟨0, _⟩ => exact (rhs_mmW_0 _ _).trans hk
    | ⟨1, _⟩ => exact rhs_mmW_1 _ _)
  rw [el, er]

/-! ## The payloads read at an index -/

/-- the re-typed adjacency block is the block -/
theorem pay10_at (v : Vec Ideal S128x4096 .f32) (y : S128x4096.Idx) : k0_pay10 (F := Ideal) v y = v y := by
  unfold k0_pay10
  exact congrFun (shapeCast_self _ _) y

/-- the lane sum of row `p` of a block -/
theorem rowsum_at (v : Vec Ideal S128x4096 .f32) (p : Fin 128) (u : Fin 1) :
    shapeCast S128x1 (multiReduction (F := Ideal) .add [1] S128 v 0x00000000#32 reduces_S128x4096_S128 (.inl rfl) rfl) shapeCasts_S128_S128x1 (ix2 p u)
      = ∑ k : Fin 4096, v (ix2 p k) := by
  refine (shapeCast_a_a1_apply _ _ p u).trans ?_
  refine (Ideal.multiReduction_add_single v 0x00000000#32 reduces_S128x4096_S128 (.inl rfl) rfl (ix1 p)).trans ?_
  refine Finset.sum_congr rfl fun k _ => congrArg v (funext fun a => Fin.ext ?_)
  match a with
  | ⟨0, _⟩ => rfl
  | ⟨1, _⟩ => rfl

/-- the scaling entry of row `p` of a block: the inverse square root of a positive row sum, zero elsewhere -/
theorem pay8_at (v : Vec Ideal S128x4096 .f32) (p : Fin 128) :
    k0_pay8 (F := Ideal) v (ix1 p)
      = if 0 < ∑ k : Fin 4096, v (ix2 p k) then Ideal.div 1 (Ideal.sqrt (∑ k : Fin 4096, v (ix2 p k))) else 0 := by
  unfold k0_pay8
  refine (congrFun (shapeCast_self _ _) (ix1 p)).trans ?_
  refine (shapeCast_a1_a_apply _ _ p).trans ?_
  have hs := rowsum_at v p (0 : Fin 1)
  show Scalar.select (Ideal.cmp .ogt (shapeCast S128x1 (multiReduction (F := Ideal) .add [1] S128 v 0x00000000#32 reduces_S128x4096_S128 (.inl rfl) rfl) shapeCasts_S128_S128x1 (ix2 p (0 : Fin 1))) (Ideal.ofBits .f32 0x00000000#32))
      (Ideal.div (Ideal.ofBits .f32 0x3F800000#32) (Ideal.sqrt (shapeCast S128x1 (multiReduction (F := Ideal) .add [1] S128 v 0x00000000#32 reduces_S128x4096_S128 (.inl rfl) rfl) shapeCasts_S128_S128x1 (ix2 p (0 : Fin 1)))))
      (Ideal.ofBits .f32 0x00000000#32) = _
  rw [hs, Ideal.ofBits_zero_f32, Ideal.ofBits_one_f32]
  unfold Ideal.cmp Scalar.select
  by_cases h : 0 < ∑ k : Fin 4096, v (ix2 p k)
  · rw [if_pos h, if_pos (by simp [h])]
  · rw [if_neg h, if_neg (by simp [h])]

/-- the features times the first weight, at `(j, k)` -/
theorem pay1_at (x : Vec Ideal S4096x256 .bf16) (w : Vec Ideal S256x256 .f32) (j : Fin 4096) (k : Fin 256) :
    k0_pay1 (F := Ideal) x w (ix2 j k) = ∑ l : Fin 256, x (ix2 j l) * w (ix2 l k) := by
  unfold k0_pay1
  refine (congrFun (shapeCast_self _ _) (ix2 j k)).trans ?_
  show matmul (φ₁ := .bf16) (φ₂ := .f32) dot_S4096x256_S256x256_S4096x256_1_0_0_1_n_n none (shapeCast S4096x256 x shapeCasts_S4096x256_S4096x256) w
      (constant (F := Ideal) S4096x256 .f32 0x00000000#32) (ix2 j k) = _
  rw [shapeCast_self]
  exact mmXW_apply x w j k

/-- a matrix with every row scaled, at `(j, k)` -/
theorem pay3_at (x : Vec Ideal S4096x256 .bf16) (d : Vec Ideal S4096 .f32) (j : Fin 4096) (k : Fin 256) :
    k0_pay3 (F := Ideal) x d (ix2 j k) = x (ix2 j k) * d (ix1 j) := by
  unfold k0_pay3
  refine (congrFun (shapeCast_self _ _) (ix2 j k)).trans ?_
  show x (ix2 j k) * broadcastTo S4096x256 (shapeCast S4096x1 d shapeCasts_S4096_S4096x1) broadcasts_S4096x1_S4096x256 (ix2 j k) = _
  rw [broadcastTo_a1_ab_apply, shapeCast_a_a1_apply]

/-- a row block of the adjacency times a right factor, every row of the product scaled, at `(p, c)` -/
theorem pay5_at (ab : Vec Ideal S512x4096 .bf16) (s : Vec Ideal S4096x256 .bf16) (d : Vec Ideal S512 .f32) (p : Fin 512) (c : Fin 256) :
    k0_pay5 (F := Ideal) ab s d (ix2 p c) = (∑ j : Fin 4096, ab (ix2 p j) * s (ix2 j c)) * d (ix1 p) := by
  unfold k0_pay5
  show matmul dot_S512x4096_S4096x256_S512x256_1_0_0_1_n_n none ab s (constant (F := Ideal) S512x256 .f32 0x00000000#32) (ix2 p c)
      * broadcastTo S512x256 (shapeCast S512x1 d shapeCasts_S512_S512x1) broadcasts_S512x1_S512x256 (ix2 p c) = _
  rw [mmA_apply, broadcastTo_a1_ab_apply, shapeCast_a_a1_apply]

/-- the left half of that product -/
theorem pay6_at (ab : Vec Ideal S512x4096 .bf16) (s : Vec Ideal S4096x256 .bf16) (d : Vec Ideal S512 .f32) (p : Fin 512) (c : Fin 128) :
    k0_pay6 (F := Ideal) ab s d (ix2 p c) = k0_pay5 (F := Ideal) ab s d (ix2 p ⟨0 + c.val, by omega⟩) := by
  unfold k0_pay6
  exact slice2_axis1_apply 0 _ _ p c _ rfl

/-- the right half of that product -/
theorem pay7_at (ab : Vec Ideal S512x4096 .bf16) (s : Vec Ideal S4096x256 .bf16) (d : Vec Ideal S512 .f32) (p : Fin 512) (c : Fin 128) :
    k0_pay7 (F := Ideal) ab s d (ix2 p c) = k0_pay5 (F := Ideal) ab s d (ix2 p ⟨128 + c.val, by omega⟩) := by
  unfold k0_pay7
  exact slice2_axis1_apply 128 _ _ p c _ rfl

/-- the second support's row block, at `(p, c)` -/
theorem pay4_at (ab : Vec Ideal S512x4096 .bf16) (s : Vec Ideal S4096x256 .bf16) (d : Vec Ideal S512 .f32) (w : Vec Ideal S256x256 .bf16)
    (p : Fin 512) (c : Fin 256) :
    k0_pay4 (F := Ideal) ab s d w (ix2 p c)
      = (∑ k : Fin 256, max ((∑ j : Fin 4096, ab (ix2 p j) * s (ix2 j k)) * d (ix1 p)) 0 * w (ix2 k c)) * d (ix1 p) := by
  unfold k0_pay4
  refine (congrFun (shapeCast_self _ _) (ix2 p c)).trans ?_
  show matmul dot_S512x256_S256x256_S512x256_1_0_0_1_n_n none
        (truncf .bf16 (maximumf (mulf (matmul dot_S512x4096_S4096x256_S512x256_1_0_0_1_n_n none ab s (constant (F := Ideal) S512x256 .f32 0x00000000#32))
          (broadcastTo S512x256 (shapeCast S512x1 d shapeCasts_S512_S512x1) broadcasts_S512x1_S512x256))
          (broadcast S512x256 (Scalar.ofBits (F := Ideal) .f32 0x00000000#32))) bitsLt_bf16_f32)
        (shapeCast S256x256 w shapeCasts_S256x256_S256x256) (constant (F := Ideal) S512x256 .f32 0x00000000#32) (ix2 p c)
      * broadcastTo S512x256 (shapeCast S512x1 d shapeCasts_S512_S512x1) broadcasts_S512x1_S512x256 (ix2 p c) = _
  rw [mmW_apply, broadcastTo_a1_ab_apply, shapeCast_a_a1_apply, shapeCast_self]
  refine congrArg (· * d (ix1 p)) (Finset.sum_congr rfl fun k _ => congrArg (· * w (ix2 k c)) ?_)
  show max (matmul dot_S512x4096_S4096x256_S512x256_1_0_0_1_n_n none ab s (constant (F := Ideal) S512x256 .f32 0x00000000#32) (ix2 p k)
      * broadcastTo S512x256 (shapeCast S512x1 d shapeCasts_S512_S512x1) broadcasts_S512x1_S512x256 (ix2 p k)) (Ideal.ofBits .f32 0x00000000#32) = _
  rw [mmA_apply, broadcastTo_a1_ab_apply, shapeCast_a_a1_apply, Ideal.ofBits_zero_f32]

/-! ## The closed forms read at an index -/

section Closed
variable (A : Vec Ideal S4096x4096 .f32) (X : Vec Ideal S4096x256 .bf16) (W1 : Vec Ideal S256x256 .f32) (WC : Vec Ideal S256x256 .bf16)

/-- row `i` of the adjacency, found in its 128-row block -/
theorem ablk_row (i q : Fin 4096) :
    ablk A (i.val / 128) (ix2 ⟨i.val % 128, Nat.mod_lt _ (by norm_num)⟩ q) = A (ix2 i q) := by
  have hi := i.isLt
  have e : (⟨(128 * (i.val / 128) + i.val % 128) % 4096, Nat.mod_lt _ (by norm_num)⟩ : Fin 4096) = i :=
    Fin.ext (by show (128 * (i.val / 128) + i.val % 128) % 4096 = i.val; omega)
  show A (ix2 ⟨(128 * (i.val / 128) + i.val % 128) % 4096, Nat.mod_lt _ (by norm_num)⟩ q) = _
  rw [e]

/-- the re-typed adjacency is the adjacency -/
theorem ABF_at (i q : Fin 4096) : ABF A (ix2 i q) = A (ix2 i q) := by
  unfold ABF
  exact (pay10_at _ _).trans (ablk_row A i q)

/-- the scaling vector is `d` -/
theorem DV_at (i : Fin 4096) : DV A (ix1 i) = Cert.Formula.dsc (fun i j => A (ix2 i j)) i := by
  have hs : ∑ k : Fin 4096, ablk A (i.val / 128) (ix2 ⟨i.val % 128, Nat.mod_lt _ (by norm_num)⟩ k) = ∑ k : Fin 4096, A (ix2 i k) :=
    Finset.sum_congr rfl fun k _ => ablk_row A i k
  unfold Cert.Formula.dsc Cert.Formula.rs
  rw [← hs]
  exact pay8_at _ _

/-- the features times the first weight -/
theorem XW_at (j : Fin 4096) (k : Fin 256) :
    XW X W1 (ix2 j k) = Cert.Formula.xw (fun j l => X (ix2 j l)) (fun l k => W1 (ix2 l k)) j k :=
  pay1_at X W1 j k

/-- the first support -/
theorem S1_at (j : Fin 4096) (k : Fin 256) :
    S1 A X W1 (ix2 j k) = Cert.Formula.s1 (fun i j => A (ix2 i j)) (fun j l => X (ix2 j l)) (fun l k => W1 (ix2 l k)) j k := by
  unfold S1 Cert.Formula.s1
  rw [pay3_at, XW_at, DV_at]

/-- row `p` of the re-typed adjacency's 512-row block `b` is the adjacency's row `512 b + p` -/
theorem abfRows_at (b : ℕ) (p : Fin 512) (q i : Fin 4096) (h : i.val = 512 * b + p.val) :
    rowsAt (by norm_num) 512 (ABF A) (512 * b) (ix2 p q) = A (ix2 i q) := by
  have hi := i.isLt
  have e : (⟨(512 * b + p.val) % 4096, Nat.mod_lt _ (by norm_num)⟩ : Fin 4096) = i :=
    Fin.ext (by show (512 * b + p.val) % 4096 = i.val; omega)
  show ABF A (ix2 ⟨(512 * b + p.val) % 4096, Nat.mod_lt _ (by norm_num)⟩ q) = _
  rw [e]
  exact ABF_at A i q

/-- entry `p` of the scaling vector's 512-entry slice `b` is `d (512 b + p)` -/
theorem dvSlice_at (b : ℕ) (p : Fin 512) (i : Fin 4096) (h : i.val = 512 * b + p.val) :
    sliceAt (by norm_num) 512 (DV A) (512 * b) (ix1 p) = Cert.Formula.dsc (fun i j => A (ix2 i j)) i := by
  have hi := i.isLt
  have e : (⟨(512 * b + p.val) % 4096, Nat.mod_lt _ (by norm_num)⟩ : Fin 4096) = i :=
    Fin.ext (by show (512 * b + p.val) % 4096 = i.val; omega)
  show DV A (ix1 ⟨(512 * b + p.val) % 4096, Nat.mod_lt _ (by norm_num)⟩) = _
  rw [e]
  exact DV_at A i

/-- the second support's row `512 b + p`, from its block -/
theorem pay4_blk (b : ℕ) (p : Fin 512) (i : Fin 4096) (h : i.val = 512 * b + p.val) (c : Fin 256) :
    k0_pay4 (F := Ideal) (rowsAt (by norm_num) 512 (ABF A) (512 * b)) (S1 A X W1) (sliceAt (by norm_num) 512 (DV A) (512 * b)) WC (ix2 p c)
      = Cert.Formula.s2 (fun i j => A (ix2 i j)) (fun j l => X (ix2 j l)) (fun l k => W1 (ix2 l k)) (fun k c => WC (ix2 k c)) i c := by
  rw [pay4_at, dvSlice_at A b p i h]
  simp only [abfRows_at A b p _ i h, S1_at A X W1]
  rfl

/-- the second support -/
theorem S2_at (j : Fin 4096) (c : Fin 256) :
    S2 A X W1 WC (ix2 j c)
      = Cert.Formula.s2 (fun i j => A (ix2 i j)) (fun j l => X (ix2 j l)) (fun l k => W1 (ix2 l k)) (fun k c => WC (ix2 k c)) j c := by
  unfold S2
  exact pay4_blk A X W1 WC (j.val / 512) ⟨j.val % 512, Nat.mod_lt _ (by norm_num)⟩ j (Nat.div_add_mod _ _).symm c

/-- the scaled product of the adjacency's 512-row block `b` with the second support, at row `p` -/
theorem pay5_blk (b : ℕ) (p : Fin 512) (i : Fin 4096) (h : i.val = 512 * b + p.val) (c : Fin 256) :
    k0_pay5 (F := Ideal) (rowsAt (by norm_num) 512 (ABF A) (512 * b)) (S2 A X W1 WC) (sliceAt (by norm_num) 512 (DV A) (512 * b)) (ix2 p c)
      = Cert.Formula.kerOut (fun i j => A (ix2 i j)) (fun j l => X (ix2 j l)) (fun l k => W1 (ix2 l k)) (fun k c => WC (ix2 k c)) i c := by
  rw [pay5_at, dvSlice_at A b p i h]
  simp only [abfRows_at A b p _ i h, S2_at A X W1 WC]
  rfl

end Closed

/-! ## The two results -/

variable (A : Vec Ideal S4096x4096 .f32) (X : Vec Ideal S4096x256 .bf16) (W1 : Vec Ideal S256x256 .f32) (WC : Vec Ideal S256x256 .bf16)

theorem Zfst_at (i : Fin 4096) (c : Fin 128) :
    Zfst (F := Ideal) A X W1 WC (ix2 i c)
      = Cert.Formula.kerOut (fun i j => A (ix2 i j)) (fun j l => X (ix2 j l)) (fun l k => W1 (ix2 l k)) (fun k c => WC (ix2 k c)) i ⟨0 + c.val, by omega⟩ := by
  unfold Zfst Z5
  refine (pay6_at _ _ _ _ _).trans ?_
  exact pay5_blk A X W1 WC (i.val / 512) ⟨i.val % 512, Nat.mod_lt _ (by norm_num)⟩ i (Nat.div_add_mod _ _).symm _

theorem Zsnd_at (i : Fin 4096) (c : Fin 128) :
    Zsnd (F := Ideal) A X W1 WC (ix2 i c)
      = Cert.Formula.kerOut (fun i j => A (ix2 i j)) (fun j l => X (ix2 j l)) (fun l k => W1 (ix2 l k)) (fun k c => WC (ix2 k c)) i ⟨128 + c.val, by omega⟩ := by
  unfold Zsnd Z6
  refine (pay7_at _ _ _ _ _).trans ?_
  exact pay5_blk A X W1 WC (i.val / 512) ⟨i.val % 512, Nat.mod_lt _ (by norm_num)⟩ i (Nat.div_add_mod _ _).symm _

end Cert.KernelIdeal.Hand

end
-- ==== Proof.RefSide.lean ====
import proofs.«107370_g89885075570807_cont_sun_c4_768_25_alg».proof.Defs
import proofs.«107370_g89885075570807_cont_sun_c4_768_25_alg».proof.Proof.Gen.ReferenceIdeal
import proofs.«107370_g89885075570807_cont_sun_c4_768_25_alg».proof.Proof.Gen.ReferenceIdeal.Run
import proofs.«107370_g89885075570807_cont_sun_c4_768_25_alg».proof.Proof.Gen.ReferenceIdeal.Read
import proofs.«107370_g89885075570807_cont_sun_c4_768_25_alg».proof.Proof.FormulaDefs
import Idealize.ShloMosaic.Lib.ValueIdx
import Idealize.ShloMosaic.Lib.IdealHost
import Idealize.ShloMosaic.Lib.Pipeline.Value
import Idealize.ShloMosaic.PureOps.Ideal.Laws

/-!
The plain program's two results, read at an index over the extended reals, are the first arrangement of
`Cert.Formula`: the adjacency scaled once by `d i · d j`, then three products with it.
-/

noncomputable section

namespace Cert.ReferenceIdeal.RefSide

open Idealize.ShloMosaic Idealize.ShloMosaic.TcCoe Idealize.ShloMosaic.ValueIdx
open Cert.ReferenceIdeal Cert.ReferenceIdeal.Gen Cert.ReferenceIdeal.Read

/-- a choice on the bit of `y < x` is the `if` on that inequality -/
theorem select_ogt {α : Type} (x y : EReal) (p q : α) :
    Scalar.select (Ideal.cmp .ogt x y) p q = if y < x then p else q := by
  show Scalar.select (BitVec.ofBool (decide (y < x))) p q = _
  by_cases h : y < x
  · rw [if_pos h, decide_eq_true h]; rfl
  · rw [if_neg h, decide_eq_false h]; rfl

section Stages

variable (x0 : (⟨S4096x4096, .f32⟩ : BufTy).Contents (Elt Ideal)) (x1 : (⟨S4096x256, .f32⟩ : BufTy).Contents (Elt Ideal))
  (x2 : (⟨S256x256, .f32⟩ : BufTy).Contents (Elt Ideal)) (x3 : (⟨S256x128, .f32⟩ : BufTy).Contents (Elt Ideal))

/-- the row sum: zero plus the sum of the row's entries -/
theorem v0_at (i : Fin 4096) :
    val_main_v0 (F := Ideal) x0 (ix1 i) = Cert.Formula.rs (fun i j => x0 (ix2 i j)) i := by
  rw [val_main_v0_apply, val_main_cst_apply, Ideal.ofBits_def, Ideal.ofBits_zero_f32, zero_add]
  exact Finset.sum_congr rfl fun k _ =>
    congrArg x0 (funext fun a => match a with | ⟨0, _⟩ => rfl | ⟨1, _⟩ => rfl)

/-- the scaling: one over the square root of a positive row sum, zero elsewhere -/
theorem v6_at (i : Fin 4096) :
    val_main_v6 (F := Ideal) x0 (ix1 i) = Cert.Formula.dsc (fun i j => x0 (ix2 i j)) i := by
  rw [val_main_v6_apply, val_main_v2_apply, val_main_v5_apply, val_main_v4_apply, val_main_v3_apply, val_main_v1_apply,
    val_main_call0_v1_apply, val_main_call0_v0_apply, val_main_cst_0_apply, val_main_cst_1_apply, val_main_cst_2_apply,
    v0_at]
  simp only [Ideal.ofBits_def, Ideal.ofBits_zero_f32, Ideal.ofBits_one_f32, Ideal.cmpf_def, Ideal.hostDivf_def,
    Ideal.hostUnary_sqrt_def]
  rw [select_ogt]
  rfl

/-- the scaled adjacency: the entry times its row's scaling times its column's scaling -/
theorem v12_at (i j : Fin 4096) :
    val_main_v12 (F := Ideal) x0 (ix2 i j) = Cert.Formula.an (fun i j => x0 (ix2 i j)) i j := by
  have e1 : idx_main_v7 (idx_main_v8 (ix2 i j)) = ix1 i := funext fun a => match a with | ⟨0, _⟩ => rfl
  have e2 : idx_main_v10 (idx_main_v11 (ix2 i j)) = ix1 j := funext fun a => match a with | ⟨0, _⟩ => rfl
  rw [val_main_v12_apply, val_main_v9_apply, val_main_v8_apply, val_main_v7_apply, val_main_v11_apply,
    val_main_v10_apply, e1, e2, v6_at, v6_at]
  rfl

/-- the features times the first weight -/
theorem v13_at (j : Fin 4096) (k : Fin 256) :
    val_main_v13 (F := Ideal) x1 x2 (ix2 j k)
      = Cert.Formula.xw (fun j l => x1 (ix2 j l)) (fun l k => x2 (ix2 l k)) j k := by
  rw [val_main_v13_apply]
  unfold Cert.Formula.xw
  refine Finset.sum_congr rfl fun l _ => ?_
  have el : lidx_main_v13 (ix2 j k) l = ix2 j l := funext fun a => match a with | ⟨0, _⟩ => rfl | ⟨1, _⟩ => rfl
  have er : ridx_main_v13 (ix2 j k) l = ix2 l k := funext fun a => match a with | ⟨0, _⟩ => rfl | ⟨1, _⟩ => rfl
  rw [el, er]

/-- the first product with the scaled adjacency -/
theorem v14_at (i : Fin 4096) (k : Fin 256) :
    val_main_v14 (F := Ideal) x0 x1 x2 (ix2 i k)
      = ∑ j : Fin 4096, Cert.Formula.an (fun i j => x0 (ix2 i j)) i j
          * Cert.Formula.xw (fun j l => x1 (ix2 j l)) (fun l k => x2 (ix2 l k)) j k := by
  rw [val_main_v14_apply]
  refine Finset.sum_congr rfl fun j _ => ?_
  have el : lidx_main_v14 (ix2 i k) j = ix2 i j := funext fun a => match a with | ⟨0, _⟩ => rfl | ⟨1, _⟩ => rfl
  have er : ridx_main_v14 (ix2 i k) j = ix2 j k := funext fun a => match a with | ⟨0, _⟩ => rfl | ⟨1, _⟩ => rfl
  rw [el, er, v12_at, v13_at]

/-- the hidden layer: that product's maximum with zero -/
theorem v15_at (i : Fin 4096) (k : Fin 256) :
    val_main_v15 (F := Ideal) x0 x1 x2 (ix2 i k)
      = Cert.Formula.hid (fun i j => x0 (ix2 i j)) (fun j l => x1 (ix2 j l)) (fun l k => x2 (ix2 l k)) i k := by
  rw [val_main_v15_apply, val_main_call1_v0_apply, val_main_call1_cst_apply, v14_at, Ideal.ofBits_def,
    Ideal.ofBits_zero_f32, Ideal.maximumf_def]
  rfl

/-- the hidden layer times an output weight -/
theorem v16_at (j : Fin 4096) (c : Fin 128) :
    val_main_v16 (F := Ideal) x0 x1 x2 x3 (ix2 j c)
      = ∑ k : Fin 256, Cert.Formula.hid (fun i j => x0 (ix2 i j)) (fun j l => x1 (ix2 j l)) (fun l k => x2 (ix2 l k)) j k
          * x3 (ix2 k c) := by
  rw [val_main_v16_apply]
  refine Finset.sum_congr rfl fun k _ => ?_
  have el : lidx_main_v16 (ix2 j c) k = ix2 j k := funext fun a => match a with | ⟨0, _⟩ => rfl | ⟨1, _⟩ => rfl
  have er : ridx_main_v16 (ix2 j c) k = ix2 k c := funext fun a => match a with | ⟨0, _⟩ => rfl | ⟨1, _⟩ => rfl
  rw [el, er, v15_at]

end Stages

theorem ref17_at (x0 : (⟨S4096x4096, .f32⟩ : BufTy).Contents (Elt Ideal)) (x1 : (⟨S4096x256, .f32⟩ : BufTy).Contents (Elt Ideal))
    (x2 : (⟨S256x256, .f32⟩ : BufTy).Contents (Elt Ideal)) (x3 : (⟨S256x128, .f32⟩ : BufTy).Contents (Elt Ideal)) (i : Fin 4096) (c : Fin 128) :
    val_main_v17 (F := Ideal) x0 x1 x2 x3 (ix2 i c)
      = Cert.Formula.refOut (fun i j => x0 (ix2 i j)) (fun j l => x1 (ix2 j l)) (fun l k => x2 (ix2 l k)) (fun k c => x3 (ix2 k c)) i c := by
  rw [val_main_v17_apply]
  unfold Cert.Formula.refOut
  refine Finset.sum_congr rfl fun j _ => ?_
  have el : lidx_main_v17 (ix2 i c) j = ix2 i j := funext fun a => match a with | ⟨0, _⟩ => rfl | ⟨1, _⟩ => rfl
  have er : ridx_main_v17 (ix2 i c) j = ix2 j c := funext fun a => match a with | ⟨0, _⟩ => rfl | ⟨1, _⟩ => rfl
  rw [el, er, v12_at, v16_at]

theorem ref19_at (x0 : (⟨S4096x4096, .f32⟩ : BufTy).Contents (Elt Ideal)) (x1 : (⟨S4096x256, .f32⟩ : BufTy).Contents (Elt Ideal))
    (x2 : (⟨S256x256, .f32⟩ : BufTy).Contents (Elt Ideal)) (x4 : (⟨S256x128, .f32⟩ : BufTy).Contents (Elt Ideal)) (i : Fin 4096) (c : Fin 128) :
    val_main_v19 (F := Ideal) x0 x1 x2 x4 (ix2 i c)
      = Cert.Formula.refOut (fun i j => x0 (ix2 i j)) (fun j l => x1 (ix2 j l)) (fun l k => x2 (ix2 l k)) (fun k c => x4 (ix2 k c)) i c :=
  ref17_at x0 x1 x2 x4 i c

end Cert.ReferenceIdeal.RefSide

end
-- ==== Proof.Formula.lean ====
import Idealize.ShloMosaic.PureOps.Ideal
import Idealize.ShloMosaic.PureOps.Ideal.Laws
import proofs.«107370_g89885075570807_cont_sun_c4_768_25_alg».proof.Proof.FormulaDefs

/-!
The two arrangements of the two-layer graph convolution over the extended reals are equal on finite inputs.

With `d i = 1 / sqrt (∑ k, a i k)` where that row sum is positive and `0` elsewhere:
the first arrangement scales the adjacency once, `an i j = a i j · d i · d j`, and multiplies by it three times;
the second never forms `an`: it scales the rows of each right factor by `d` before the product with `a` and the rows
of the product by `d` after it.  Both are the same real number when every entry is finite, by distributivity and
commutativity in ℝ; on the extended reals that needs the entries (and `d`) to be real.
-/

noncomputable section

namespace Cert.Formula

open Idealize.ShloMosaic

variable (a : Fin 4096 → Fin 4096 → EReal) (x : Fin 4096 → Fin 256 → EReal) (w1 : Fin 256 → Fin 256 → EReal)

/-! ### real mirrors: every quantity of both arrangements computed in ℝ -/

section Mirror

/-- the coercion ℝ → EReal commutes with finite sums -/
theorem coe_sum {ι : Type*} (s : Finset ι) (f : ι → ℝ) :
    ((∑ i ∈ s, f i : ℝ) : EReal) = ∑ i ∈ s, (f i : EReal) := by
  classical
  induction s using Finset.induction_on with
  | empty => simp
  | insert b s hb ih => rw [Finset.sum_insert hb, Finset.sum_insert hb, EReal.coe_add, ih]

/-- the coercion ℝ → EReal commutes with the maximum -/
theorem coe_max (p q : ℝ) : ((max p q : ℝ) : EReal) = max (p : EReal) (q : EReal) :=
  EReal.coe_strictMono.monotone.map_max

variable (ra : Fin 4096 → Fin 4096 → ℝ) (rx : Fin 4096 → Fin 256 → ℝ) (rw1 : Fin 256 → Fin 256 → ℝ)

def rsR (i : Fin 4096) : ℝ := ∑ k : Fin 4096, ra i k
def dscR (i : Fin 4096) : ℝ := if 0 < rsR ra i then 1 / Real.sqrt (rsR ra i) else 0
def xwR (j : Fin 4096) (k : Fin 256) : ℝ := ∑ l : Fin 256, rx j l * rw1 l k
def anR (i j : Fin 4096) : ℝ := ra i j * dscR ra i * dscR ra j
def hidR (i : Fin 4096) (k : Fin 256) : ℝ := max (∑ j : Fin 4096, anR ra i j * xwR rx rw1 j k) 0
def refOutR (w : Fin 256 → Fin 128 → ℝ) (i : Fin 4096) (c : Fin 128) : ℝ :=
  ∑ j : Fin 4096, anR ra i j * ∑ k : Fin 256, hidR ra rx rw1 j k * w k c
def s1R (j : Fin 4096) (k : Fin 256) : ℝ := xwR rx rw1 j k * dscR ra j
def hkR (i : Fin 4096) (k : Fin 256) : ℝ := max ((∑ j : Fin 4096, ra i j * s1R ra rx rw1 j k) * dscR ra i) 0
def s2R (rwc : Fin 256 → Fin 256 → ℝ) (j : Fin 4096) (c : Fin 256) : ℝ :=
  (∑ k : Fin 256, hkR ra rx rw1 j k * rwc k c) * dscR ra j
def kerOutR (rwc : Fin 256 → Fin 256 → ℝ) (i : Fin 4096) (c : Fin 256) : ℝ :=
  (∑ j : Fin 4096, ra i j * s2R ra rx rw1 rwc j c) * dscR ra i

variable {a x w1 ra rx rw1}

theorem rs_coe (ha : ∀ i k, a i k = (ra i k : EReal)) (i : Fin 4096) : rs a i = (rsR ra i : EReal) := by
  unfold rs rsR
  rw [coe_sum]
  exact Finset.sum_congr rfl (fun k _ => ha i k)

theorem dsc_coe (ha : ∀ i k, a i k = (ra i k : EReal)) (i : Fin 4096) : dsc a i = (dscR ra i : EReal) := by
  unfold dsc dscR
  rw [rs_coe ha i]
  by_cases h : 0 < rsR ra i
  · rw [if_pos (EReal.coe_pos.mpr h), if_pos h, Ideal.sqrt_coe, if_neg (not_lt.mpr h.le),
      Ideal.div_coe (Real.sqrt_pos.mpr h).ne', one_mul]
  · rw [if_neg (fun h' => h (EReal.coe_pos.mp h')), if_neg h, EReal.coe_zero]

theorem xw_coe (hx : ∀ j l, x j l = (rx j l : EReal)) (hw1 : ∀ l k, w1 l k = (rw1 l k : EReal))
    (j : Fin 4096) (k : Fin 256) : xw x w1 j k = (xwR rx rw1 j k : EReal) := by
  unfold xw xwR
  rw [coe_sum]
  refine Finset.sum_congr rfl (fun l _ => ?_)
  rw [hx, hw1, EReal.coe_mul]

theorem an_coe (ha : ∀ i k, a i k = (ra i k : EReal)) (i j : Fin 4096) : an a i j = (anR ra i j : EReal) := by
  unfold an anR
  rw [ha, dsc_coe ha i, dsc_coe ha j, EReal.coe_mul, EReal.coe_mul]

theorem hid_coe (ha : ∀ i k, a i k = (ra i k : EReal)) (hx : ∀ j l, x j l = (rx j l : EReal))
    (hw1 : ∀ l k, w1 l k = (rw1 l k : EReal)) (i : Fin 4096) (k : Fin 256) :
    hid a x w1 i k = (hidR ra rx rw1 i k : EReal) := by
  unfold hid hidR
  have h : ∑ j : Fin 4096, an a i j * xw x w1 j k
      = ∑ j : Fin 4096, ((anR ra i j * xwR rx rw1 j k : ℝ) : EReal) :=
    Finset.sum_congr rfl (fun j _ => by rw [an_coe ha, xw_coe hx hw1, EReal.coe_mul])
  rw [coe_max, coe_sum, EReal.coe_zero, h]

theorem refOut_coe (ha : ∀ i k, a i k = (ra i k : EReal)) (hx : ∀ j l, x j l = (rx j l : EReal))
    (hw1 : ∀ l k, w1 l k = (rw1 l k : EReal)) {w : Fin 256 → Fin 128 → EReal} {rwo : Fin 256 → Fin 128 → ℝ}
    (hw : ∀ k c, w k c = (rwo k c : EReal)) (i : Fin 4096) (c : Fin 128) :
    refOut a x w1 w i c = (refOutR ra rx rw1 rwo i c : EReal) := by
  unfold refOut refOutR
  rw [coe_sum]
  refine Finset.sum_congr rfl (fun j _ => ?_)
  rw [EReal.coe_mul, coe_sum, an_coe ha]
  congr 1
  refine Finset.sum_congr rfl (fun k _ => ?_)
  rw [hid_coe ha hx hw1, hw, EReal.coe_mul]

theorem s1_coe (ha : ∀ i k, a i k = (ra i k : EReal)) (hx : ∀ j l, x j l = (rx j l : EReal))
    (hw1 : ∀ l k, w1 l k = (rw1 l k : EReal)) (j : Fin 4096) (k : Fin 256) :
    s1 a x w1 j k = (s1R ra rx rw1 j k : EReal) := by
  unfold s1 s1R
  rw [xw_coe hx hw1, dsc_coe ha, EReal.coe_mul]

theorem hk_coe (ha : ∀ i k, a i k = (ra i k : EReal)) (hx : ∀ j l, x j l = (rx j l : EReal))
    (hw1 : ∀ l k, w1 l k = (rw1 l k : EReal)) (i : Fin 4096) (k : Fin 256) :
    hk a x w1 i k = (hkR ra rx rw1 i k : EReal) := by
  unfold hk hkR
  have h : ∑ j : Fin 4096, a i j * s1 a x w1 j k
      = ∑ j : Fin 4096, ((ra i j * s1R ra rx rw1 j k : ℝ) : EReal) :=
    Finset.sum_congr rfl (fun j _ => by rw [ha, s1_coe ha hx hw1, EReal.coe_mul])
  rw [coe_max, EReal.coe_mul, coe_sum, EReal.coe_zero, dsc_coe ha, h]

theorem s2_coe (ha : ∀ i k, a i k = (ra i k : EReal)) (hx : ∀ j l, x j l = (rx j l : EReal))
    (hw1 : ∀ l k, w1 l k = (rw1 l k : EReal)) {wc : Fin 256 → Fin 256 → EReal} {rwc : Fin 256 → Fin 256 → ℝ}
    (hwc : ∀ k c, wc k c = (rwc k c : EReal)) (j : Fin 4096) (c : Fin 256) :
    s2 a x w1 wc j c = (s2R ra rx rw1 rwc j c : EReal) := by
  unfold s2 s2R
  rw [EReal.coe_mul, coe_sum, dsc_coe ha]
  congr 1
  refine Finset.sum_congr rfl (fun k _ => ?_)
  rw [hk_coe ha hx hw1, hwc, EReal.coe_mul]

theorem kerOut_coe (ha : ∀ i k, a i k = (ra i k : EReal)) (hx : ∀ j l, x j l = (rx j l : EReal))
    (hw1 : ∀ l k, w1 l k = (rw1 l k : EReal)) {wc : Fin 256 → Fin 256 → EReal} {rwc : Fin 256 → Fin 256 → ℝ}
    (hwc : ∀ k c, wc k c = (rwc k c : EReal)) (i : Fin 4096) (c : Fin 256) :
    kerOut a x w1 wc i c = (kerOutR ra rx rw1 rwc i c : EReal) := by
  unfold kerOut kerOutR
  have h : ∑ j : Fin 4096, a i j * s2 a x w1 wc j c
      = ∑ j : Fin 4096, ((ra i j * s2R ra rx rw1 rwc j c : ℝ) : EReal) :=
    Finset.sum_congr rfl (fun j _ => by rw [ha, s2_coe ha hx hw1 hwc, EReal.coe_mul])
  rw [EReal.coe_mul, coe_sum, dsc_coe ha, h]

variable (ra rx rw1)

/-- in ℝ the hidden layers agree: the scaling of row `j` moves from the factor to the adjacency entry -/
theorem hkR_eq_hidR : hkR ra rx rw1 = hidR ra rx rw1 := by
  funext i k
  unfold hkR hidR s1R anR
  congr 1
  rw [Finset.sum_mul]
  refine Finset.sum_congr rfl (fun j _ => ?_)
  ring

/-- in ℝ the two arrangements agree -/
theorem kerOutR_eq_refOutR (rwc : Fin 256 → Fin 256 → ℝ) (o : ℕ) (ho : o + 128 ≤ 256) (i : Fin 4096) (c : Fin 128) :
    kerOutR ra rx rw1 rwc i ⟨o + c.val, by omega⟩
      = refOutR ra rx rw1 (fun k c' => rwc k ⟨o + c'.val, by omega⟩) i c := by
  unfold kerOutR refOutR s2R anR
  rw [hkR_eq_hidR, Finset.sum_mul]
  refine Finset.sum_congr rfl (fun j _ => ?_)
  ring

end Mirror

/-- on a finite adjacency the scaling is finite -/
theorem dsc_real (ha : ∀ i k, ∃ r : ℝ, a i k = (r : EReal)) (i : Fin 4096) : ∃ r : ℝ, dsc a i = (r : EReal) := by
  choose ra hra using ha
  exact ⟨dscR ra i, dsc_coe hra i⟩

/-- THE LAW: on finite inputs the second arrangement's column `c` is the first arrangement's, for the weight whose
    columns are the concatenated weight's columns from `o` on. -/
theorem kerOut_eq_refOut (wc : Fin 256 → Fin 256 → EReal)
    (ha : ∀ i k, ∃ r : ℝ, a i k = (r : EReal)) (hx : ∀ j l, ∃ r : ℝ, x j l = (r : EReal))
    (hw1 : ∀ l k, ∃ r : ℝ, w1 l k = (r : EReal)) (hwc : ∀ k c, ∃ r : ℝ, wc k c = (r : EReal))
    (o : ℕ) (ho : o + 128 ≤ 256) (i : Fin 4096) (c : Fin 128) :
    kerOut a x w1 wc i ⟨o + c.val, by omega⟩ = refOut a x w1 (fun k c' => wc k ⟨o + c'.val, by omega⟩) i c := by
  choose ra hra using ha
  choose rx hrx using hx
  choose rw1 hrw1 using hw1
  choose rwc hrwc using hwc
  rw [kerOut_coe hra hrx hrw1 hrwc,
    refOut_coe (rwo := fun k c' => rwc k ⟨o + c'.val, by omega⟩) hra hrx hrw1 (fun k c' => hrwc k _),
    kerOutR_eq_refOutR ra rx rw1 rwc o ho i c]

end Cert.Formula

end
-- ==== Proof.Bridge.lean ====
import proofs.«107370_g89885075570807_cont_sun_c4_768_25_alg».proof.Proof.Spec
import proofs.«107370_g89885075570807_cont_sun_c4_768_25_alg».proof.Proof.KernelAt
import proofs.«107370_g89885075570807_cont_sun_c4_768_25_alg».proof.Proof.RefSide
import proofs.«107370_g89885075570807_cont_sun_c4_768_25_alg».proof.Proof.Formula
import Idealize.ShloMosaic.Lib.ValueIdx
import Idealize.ShloMosaic.Lib.Pipeline.Value

/-!
The bridge: on finite inputs the plain program's two results are the phased kernel's closed forms, index by index over
the extended reals — the first arrangement of `Cert.Formula` on one side, the second on the other, equal by its law; the
kernel's converted features are the features, and its converted concatenated weight's left and right halves are the two
output weights.
-/

noncomputable section

namespace Cert.Proof.Bridge

open Idealize.ShloMosaic Idealize.ShloMosaic.TcCoe Idealize.ShloMosaic.ValueIdx

variable (A : Vec Ideal Cert.KernelIdeal.S4096x4096 .f32) (X1 : Vec Ideal Cert.KernelIdeal.S4096x256 .f32) (W1 : Vec Ideal Cert.KernelIdeal.S256x256 .f32)
  (Wm Ws : Vec Ideal Cert.KernelIdeal.S256x128 .f32)
  (X : Vec Ideal Cert.KernelIdeal.S4096x256 .bf16) (WC : Vec Ideal Cert.KernelIdeal.S256x256 .bf16)

theorem bridge17
    (hXeq : ∀ (j : Fin 4096) (l : Fin 256), X (ix2 j l) = X1 (ix2 j l))
    (hWCm : ∀ (k : Fin 256) (c : Fin 128), WC (ix2 k ⟨0 + c.val, by omega⟩) = Wm (ix2 k c))
    (hWCs : ∀ (k : Fin 256) (c : Fin 128), WC (ix2 k ⟨128 + c.val, by omega⟩) = Ws (ix2 k c))
    (hA : ∀ i, ∃ r : ℝ, A i = (r : EReal)) (hX : ∀ i, ∃ r : ℝ, X1 i = (r : EReal)) (hW1 : ∀ i, ∃ r : ℝ, W1 i = (r : EReal))
    (hWm : ∀ i, ∃ r : ℝ, Wm i = (r : EReal)) (hWs : ∀ i, ∃ r : ℝ, Ws i = (r : EReal)) :
    Cert.ReferenceIdeal.Read.val_main_v17 (F := Ideal) A X1 W1 Wm = Cert.KernelIdeal.Hand.Zfst (F := Ideal) A X W1 WC := by
  -- an index of a rank-two shape is a pair (i, c); compare the two results there
  funext y
  obtain ⟨i, c, rfl⟩ : ∃ (i : Fin 4096) (c : Fin 128), y = ix2 i c := ⟨y 0, y 1, eq_ix2 y⟩
  rw [Cert.ReferenceIdeal.RefSide.ref17_at, Cert.KernelIdeal.Hand.Zfst_at]
  -- the converted features are the features
  have hx : (fun (j : Fin 4096) (l : Fin 256) => (X (ix2 j l) : EReal)) = (fun j l => X1 (ix2 j l)) :=
    funext fun j => funext fun l => hXeq j l
  -- each column of the concatenated weight is a column of one of the two output weights, hence finite
  have hwc : ∀ (k : Fin 256) (c' : Fin 256), ∃ r : ℝ, (WC (ix2 k c') : EReal) = (r : EReal) := by
    intro k c'
    by_cases h : c'.val < 128
    · have e : c' = ⟨0 + (⟨c'.val, h⟩ : Fin 128).val, by omega⟩ := Fin.ext (by simp)
      rw [e, hWCm k ⟨c'.val, h⟩]
      exact hWm _
    · have h' : c'.val - 128 < 128 := by omega
      have e : c' = ⟨128 + (⟨c'.val - 128, h'⟩ : Fin 128).val, by omega⟩ := Fin.ext (by simp; omega)
      rw [e, hWCs k ⟨c'.val - 128, h'⟩]
      exact hWs _
  -- the law of the two arrangements, at this column offset
  have law := Cert.Formula.kerOut_eq_refOut (fun i j => A (ix2 i j)) (fun j l => X (ix2 j l)) (fun l k => W1 (ix2 l k))
    (fun k c' => WC (ix2 k c')) (fun i k => hA _) (fun j l => by rw [hXeq]; exact hX _) (fun l k => hW1 _) hwc 0 (by omega) i c
  rw [law, hx]
  -- the concatenated weight's columns from the offset on are the output weight's columns
  congr 1
  funext k c'
  exact (hWCm k c').symm

theorem bridge19
    (hXeq : ∀ (j : Fin 4096) (l : Fin 256), X (ix2 j l) = X1 (ix2 j l))
    (hWCm : ∀ (k : Fin 256) (c : Fin 128), WC (ix2 k ⟨0 + c.val, by omega⟩) = Wm (ix2 k c))
    (hWCs : ∀ (k : Fin 256) (c : Fin 128), WC (ix2 k ⟨128 + c.val, by omega⟩) = Ws (ix2 k c))
    (hA : ∀ i, ∃ r : ℝ, A i = (r : EReal)) (hX : ∀ i, ∃ r : ℝ, X1 i = (r : EReal)) (hW1 : ∀ i, ∃ r : ℝ, W1 i = (r : EReal))
    (hWm : ∀ i, ∃ r : ℝ, Wm i = (r : EReal)) (hWs : ∀ i, ∃ r : ℝ, Ws i = (r : EReal)) :
    Cert.ReferenceIdeal.Read.val_main_v19 (F := Ideal) A X1 W1 Ws = Cert.KernelIdeal.Hand.Zsnd (F := Ideal) A X W1 WC := by
  -- an index of a rank-two shape is a pair (i, c); compare the two results there
  funext y
  obtain ⟨i, c, rfl⟩ : ∃ (i : Fin 4096) (c : Fin 128), y = ix2 i c := ⟨y 0, y 1, eq_ix2 y⟩
  rw [Cert.ReferenceIdeal.RefSide.ref19_at, Cert.KernelIdeal.Hand.Zsnd_at]
  -- the converted features are the features
  have hx : (fun (j : Fin 4096) (l : Fin 256) => (X (ix2 j l) : EReal)) = (fun j l => X1 (ix2 j l)) :=
    funext fun j => funext fun l => hXeq j l
  -- each column of the concatenated weight is a column of one of the two output weights, hence finite
  have hwc : ∀ (k : Fin 256) (c' : Fin 256), ∃ r : ℝ, (WC (ix2 k c') : EReal) = (r : EReal) := by
    intro k c'
    by_cases h : c'.val < 128
    · have e : c' = ⟨0 + (⟨c'.val, h⟩ : Fin 128).val, by omega⟩ := Fin.ext (by simp)
      rw [e, hWCm k ⟨c'.val, h⟩]
      exact hWm _
    · have h' : c'.val - 128 < 128 := by omega
      have e : c' = ⟨128 + (⟨c'.val - 128, h'⟩ : Fin 128).val, by omega⟩ := Fin.ext (by simp; omega)
      rw [e, hWCs k ⟨c'.val - 128, h'⟩]
      exact hWs _
  -- the law of the two arrangements, at this column offset
  have law := Cert.Formula.kerOut_eq_refOut (fun i j => A (ix2 i j)) (fun j l => X (ix2 j l)) (fun l k => W1 (ix2 l k))
    (fun k c' => WC (ix2 k c')) (fun i k => hA _) (fun j l => by rw [hXeq]; exact hX _) (fun l k => hW1 _) hwc 128 (by omega) i c
  rw [law, hx]
  -- the concatenated weight's columns from the offset on are the output weight's columns
  congr 1
  funext k c'
  exact (hWCs k c').symm

end Cert.Proof.Bridge

end
-- ==== Proof.Finite.lean ====
import proofs.«107370_g89885075570807_cont_sun_c4_768_25_alg».proof.Defs
import proofs.«107370_g89885075570807_cont_sun_c4_768_25_alg».proof.Proof.Gen.Pre_finite_inputs
import Idealize.ShloMosaic.Lib.ReduceAll
import Idealize.ShloMosaic.Lib.ValueIdx

/-!
The stated precondition, read over the extended reals: every entry of the five inputs is a real number
(its absolute value is below `+∞`).
-/

noncomputable section

namespace Cert.Pre_finite_inputs.Hand

open Idealize.ShloMosaic Idealize.ShloMosaic.TcCoe
open Cert.Pre_finite_inputs Cert.Pre_finite_inputs.Gen

/-- The word of `+∞` denotes the top element. -/
theorem ofBits_inf : Ideal.ofBits .f32 0x7F800000#32 = (⊤ : EReal) := by
  simp [Ideal.ofBits, Ideal.ieee]

/-- An extended real whose absolute value `max x (-x)` lies strictly below `⊤` is a real number:
    at `⊥` the negation is `⊤`, at `⊤` the value itself is. -/
theorem real_of_abs_lt_top (x : EReal) (h : max x (-x) < ⊤) : ∃ r : ℝ, x = (r : EReal) := by
  induction x using EReal.rec with
  | bot => simp at h
  | coe r => exact ⟨r, rfl⟩
  | top => simp at h

/-- The scalar shape has one index. -/
instance : Subsingleton S_.Idx := ⟨fun a b => funext fun d => d.elim0⟩

/-- `jnp.all(|x| < +∞)` being 1 makes every entry of `x` a real number, whatever the shape of `x`. -/
theorem all_real {S : Shape} {axes : List (Fin S.rank)} (bc : S_.BroadcastsInDim S (![] : Fin 0 → Fin S.rank))
    (rd : S.ReducesTo axes S_) (hu : 0 < S_.numel) (x : FVec Ideal S .f32)
    (e : Host.reduce IntOp.andi
        (cmpf .olt (Host.absf x) (broadcastInDim S ![] bc (constant (F := Ideal) S_ .f32 0x7F800000#32)))
        (constantI S_ 1 1#1) rd hu ValueIdx.ix0 = 1#1) :
    ∀ i, ∃ r : ℝ, x i = (r : EReal) := by
  intro i
  have h := Host.reduce_andi_all _ _ rd hu _ e i
  have h' : Ideal.cmp .olt (max (x i) (-(x i))) (Ideal.ofBits .f32 0x7F800000#32) = 1#1 := h
  rw [ofBits_inf] at h'
  refine real_of_abs_lt_top (x i) ?_
  unfold Ideal.cmp at h'
  by_contra hn
  simp [hn] at h'

theorem real_of_pre (a0 : FVec Ideal S4096x4096 .f32) (a1 : FVec Ideal S4096x256 .f32) (a2 : FVec Ideal S256x256 .f32)
    (a3 a4 : FVec Ideal S256x128 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have e := congrFun h ValueIdx.ix0
  dsimp only [Cert.Pre_finite_inputs.fn, Cert.Pre_finite_inputs.fn_part1] at e
  change IntOp.andi (IntOp.andi (IntOp.andi (IntOp.andi _ _) _) _) _ = 1#1 at e
  rw [IntOp.andi_eq_one, IntOp.andi_eq_one, IntOp.andi_eq_one, IntOp.andi_eq_one] at e
  obtain ⟨⟨⟨⟨e0, e1⟩, e2⟩, e3⟩, e4⟩ := e
  exact ⟨all_real _ _ _ a0 e0, all_real _ _ _ a1 e1, all_real _ _ _ a2 e2, all_real _ _ _ a3 e3, all_real _ _ _ a4 e4⟩

end Cert.Pre_finite_inputs.Hand

end
-- ==== Proof.lean ====
/-
  One forward pass of a two-layer graph convolution, `z = Â · relu(Â · (x · W₁)) · W` for the two output weights, with
  `Â = D^{-1/2} A D^{-1/2}` and `d i = 1/sqrt(row sum i)` where that sum is positive (zero elsewhere), computed two ways.

  The plain program scales the adjacency once, `Â i j = A i j · d i · d j`, and multiplies by it three times.  The kernel
  never forms `Â`: one phased grid of 32 points streams `A` once (points 0..15: 256 rows a point into a resident copy,
  their row sums into `d`; point 0 also `x · W₁`, point 15 also `S₁ = (x · W₁)` with rows scaled by `d`), then computes
  `S₂ = ((relu((A · S₁) scaled by d)) · [Wm | Ws]) scaled by d` 512 rows a point (points 16..23), then the two results as
  the halves of `(A · S₂) scaled by d` 512 rows a point (points 24..31).

  Over the extended reals a change of float format is the identity, so the two computations differ by where the factors
  `d i`, `d j` sit relative to the sums; they agree by distributivity and commutativity, which needs every entry (and
  `d`) to be a real number: that is the stated precondition.  The kernel's frame and the contents of its five scratch
  buffers from point to point are proved once for any float instance; the adjacency array is read through two windows,
  each holding half of its share.
-/
import proofs.«107370_g89885075570807_cont_sun_c4_768_25_alg».proof.Defs
import proofs.«107370_g89885075570807_cont_sun_c4_768_25_alg».proof.Proof.Gen.Kernel
import proofs.«107370_g89885075570807_cont_sun_c4_768_25_alg».proof.Proof.Gen.KernelIdeal
import proofs.«107370_g89885075570807_cont_sun_c4_768_25_alg».proof.Proof.Gen.ReferenceIdeal
import proofs.«107370_g89885075570807_cont_sun_c4_768_25_alg».proof.Proof.Gen.ReferenceIdeal.Run
import proofs.«107370_g89885075570807_cont_sun_c4_768_25_alg».proof.Proof.Gen.ReferenceIdeal.Read
import proofs.«107370_g89885075570807_cont_sun_c4_768_25_alg».proof.Proof.Gen.Pre_finite_inputs
import proofs.«107370_g89885075570807_cont_sun_c4_768_25_alg».proof.Proof.Frame
import proofs.«107370_g89885075570807_cont_sun_c4_768_25_alg».proof.Proof.K.Frame
import proofs.«107370_g89885075570807_cont_sun_c4_768_25_alg».proof.Proof.Bridge
import proofs.«107370_g89885075570807_cont_sun_c4_768_25_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
/-- the plain program's frame is its run with the results dropped -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

section Bridge
open Cert.KernelIdeal Cert.KernelIdeal.Gen Cert.KernelIdeal.Hand

variable (m : (ℓ : Loc Cert.KernelIdeal.nD Cert.KernelIdeal.τ Cert.KernelIdeal.sig) → Buf (Elt Ideal) ℓ)

/-- the converted features are the features: a change of format is the identity -/
theorem X_eq (c : Dev nD) (j : Fin 4096) (l : Fin 256) :
    Xarr m c (ix2 j l) = (m ((c : Thread nD τ).loc main_arg1) : Vec Ideal S4096x256 .f32) (ix2 j l) := by
  show (V m c main_v0 : Vec Ideal S4096x256 .bf16) (ix2 j l) = _
  rw [V_main_v0]; rfl

/-- the left half of the converted concatenated weight is the first output weight -/
theorem WC_left (c : Dev nD) (k : Fin 256) (c' : Fin 128) :
    WCarr m c (ix2 k ⟨0 + c'.val, by omega⟩) = (m ((c : Thread nD τ).loc main_arg3) : Vec Ideal S256x128 .f32) (ix2 k c') := by
  show (V m c main_v2 : Vec Ideal S256x256 .bf16) (ix2 k ⟨0 + c'.val, by omega⟩) = _
  rw [V_main_v2]
  exact concatenate_pair_apply_left (1 : Fin 2) (m ((c : Thread nD τ).loc main_arg3) : Vec Ideal S256x128 .f32) (m ((c : Thread nD τ).loc main_arg4) : Vec Ideal S256x128 .f32)
    concatenates_S256x128_S256x128_S256x256_d1 (ix2 k ⟨0 + c'.val, by omega⟩) rfl (ix2 k c') (fun b => by
    match b with
    | ⟨0, _⟩ => rfl
    | ⟨1, _⟩ => exact (Nat.zero_add _).symm)

/-- the right half is the second output weight -/
theorem WC_right (c : Dev nD) (k : Fin 256) (c' : Fin 128) :
    WCarr m c (ix2 k ⟨128 + c'.val, by omega⟩) = (m ((c : Thread nD τ).loc main_arg4) : Vec Ideal S256x128 .f32) (ix2 k c') := by
  show (V m c main_v2 : Vec Ideal S256x256 .bf16) (ix2 k ⟨128 + c'.val, by omega⟩) = _
  rw [V_main_v2]
  exact concatenate_pair_apply_right (1 : Fin 2) (m ((c : Thread nD τ).loc main_arg3) : Vec Ideal S256x128 .f32) (m ((c : Thread nD τ).loc main_arg4) : Vec Ideal S256x128 .f32)
    concatenates_S256x128_S256x128_S256x256_d1 (ix2 k ⟨128 + c'.val, by omega⟩) rfl rfl (ix2 k c') (fun b hb => by
    match b, hb with
    | ⟨0, _⟩, _ => rfl
    | ⟨1, _⟩, hb => exact absurd rfl hb) (Nat.add_comm _ _)

end Bridge

/-- Over the extended reals, on finite inputs, the kernel's two result arrays (its closed forms, by the run) are the plain
    program's (its run read at an index): the two arrangements of `Cert.Formula`. -/
theorem algebraic : Cert.algebraic_KernelIdeal_ReferenceIdeal := by
  intro m ρ m' ρ' hpre hagree
  refine ⟨fun c => Cert.KernelIdeal.Hand.Zfst (F := Ideal) (Cert.KernelIdeal.Hand.Aarr m c) (Cert.KernelIdeal.Hand.Xarr m c) (Cert.KernelIdeal.Hand.W1arr m c) (Cert.KernelIdeal.Hand.WCarr m c),
    fun c => Cert.KernelIdeal.Hand.Zsnd (F := Ideal) (Cert.KernelIdeal.Hand.Aarr m c) (Cert.KernelIdeal.Hand.Xarr m c) (Cert.KernelIdeal.Hand.W1arr m c) (Cert.KernelIdeal.Hand.WCarr m c),
    Cert.KernelIdeal.Hand.run_value (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  all_goals
    obtain ⟨hA, hX, hW1, hWm, hWs⟩ := Cert.Pre_finite_inputs.Hand.real_of_pre _ _ _ _ _ (hpre c)
  · rw [(hagree c).1, (hagree c).2.1, (hagree c).2.2.1, (hagree c).2.2.2.1]
    refine (Cert.ReferenceIdeal.Read.val_main_v17_eq _ _ _ _).trans ?_
    refine Bridge.bridge17 _ _ _ _ _ _ _ (X_eq m c) (WC_left m c) (WC_right m c) ?_ hX ?_ hWm hWs
    · exact hA
    · exact hW1
  · rw [(hagree c).1, (hagree c).2.1, (hagree c).2.2.1, (hagree c).2.2.2.2]
    refine (Cert.ReferenceIdeal.Read.val_main_v19_eq _ _ _ _).trans ?_
    refine Bridge.bridge19 _ _ _ _ _ _ _ (X_eq m c) (WC_left m c) (WC_right m c) ?_ hX ?_ hWm hWs
    · exact hA
    · exact hW1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
